-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1 : Shape := ⟨2, ![32768, 1]⟩
abbrev S16x1 : Shape := ⟨2, ![16, 1]⟩
abbrev S16 : Shape := ⟨1, ![16]⟩
abbrev S1x16 : Shape := ⟨2, ![1, 16]⟩
abbrev S1 : Shape := ⟨1, ![1]⟩
abbrev S1024x1x1 : Shape := ⟨3, ![1024, 1, 1]⟩
abbrev S1024x1 : Shape := ⟨2, ![1024, 1]⟩
abbrev S_ : Shape := ⟨0, ![]⟩

class Facts : Prop where
  bcast_S_S32768x1 : S_.BroadcastsInDim S32768x1 (![] : Fin 0 → Fin S32768x1.rank)
  reducesTo_S32768x1_S_d0_1 : S32768x1.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S1024x1x1 : S_.BroadcastsInDim S1024x1x1 (![] : Fin 0 → Fin S1024x1x1.rank)
  reducesTo_S1024x1x1_S_d0_1_2 : S1024x1x1.ReducesTo [0, 1, 2] S_
  bcast_S_S1024x1 : S_.BroadcastsInDim S1024x1 (![] : Fin 0 → Fin S1024x1.rank)
  reducesTo_S1024x1_S_d0_1 : S1024x1.ReducesTo [0, 1] S_

variable [Facts]

def fn_part3 {F : FTy → Type} [FloatOps F] (main_v48 : IVec S_ 1) (main_v49 : FVec F S1024x1 .f32) (main_v50 : FVec F S1024x1 .f32) : IVec S_ 1 :=
  let main_v51 : IVec S1024x1 1 := cmpf .olt main_v49 main_v50
  let main_c_19 : IVec S_ 1 := constantI S_ 1 1#1
  let main_v52 : IVec S_ 1 := (fun x v => Host.reduce IntOp.andi x v reducesTo_S1024x1_S_d0_1 h_S_) main_v51 main_c_19
  let main_v53 : IVec S_ 1 := andi main_v48 main_v52
  main_v53

def fn_part2 {F : FTy → Type} [FloatOps F] (main_arg7 : FVec F S1 .f32) (main_arg8 : FVec F S1 .f32) (main_arg9 : FVec F S1024x1x1 .f32) (main_arg10 : FVec F S1024x1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1024x1x1 .f32 := Host.absf main_arg9
  let main_cst_16 : FVec F S_ .f32 := constant S_ .f32 0x7F800000#32
  let main_v45 : FVec F S1024x1x1 .f32 := broadcastInDim S1024x1x1 ![] bcast_S_S1024x1x1 main_cst_16
  let main_v46 : IVec S1024x1x1 1 := cmpf .olt main_v44 main_v45
  let main_c_17 : IVec S_ 1 := constantI S_ 1 1#1
  let main_v47 : IVec S_ 1 := (fun x v => Host.reduce IntOp.andi x v reducesTo_S1024x1x1_S_d0_1_2 h_S_) main_v46 main_c_17
  let main_v48 : IVec S_ 1 := andi main_v43 main_v47
  let main_v49 : FVec F S1024x1 .f32 := Host.absf main_arg10
  let main_cst_18 : FVec F S_ .f32 := constant S_ .f32 0x7F800000#32
  let main_v50 : FVec F S1024x1 .f32 := broadcastInDim S1024x1 ![] bcast_S_S1024x1 main_cst_18
  fn_part3 (F := F) main_v48 main_v49 main_v50

def fn_part1 {F : FTy → Type} [FloatOps F] (main_arg4 : FVec F S16 .f32) (main_arg5 : FVec F S1x16 .f32) (main_arg6 : FVec F S1 .f32) (main_arg7 : FVec F S1 .f32) (main_arg8 : FVec F S1 .f32) (main_arg9 : FVec F S1024x1x1 .f32) (main_arg10 : FVec F S1024x1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x1 .f32) (main_arg1 : FVec F S16x1 .f32) (main_arg2 : FVec F S16 .f32) (main_arg3 : FVec F S16 .f32) (main_arg4 : FVec F S16 .f32) (main_arg5 : FVec F S1x16 .f32) (main_arg6 : FVec F S1 .f32) (main_arg7 : FVec F S1 .f32) (main_arg8 : FVec F S1 .f32) (main_arg9 : FVec F S1024x1x1 .f32) (main_arg10 : FVec F S1024x1 .f32) : IVec S_ 1 :=
  let main_v0 : FVec F S32768x1 .f32 := Host.absf main_arg0
  let main_cst : FVec F S_ .f32 := constant S_ .f32 0x7F800000#32
  let main_v1 : FVec F S32768x1 .f32 := broadcastInDim S32768x1 ![] bcast_S_S32768x1 main_cst
  let main_v2 : IVec S32768x1 1 := cmpf .olt main_v0 main_v1
  let main_c : IVec S_ 1 := constantI S_ 1 1#1
  let main_v3 : IVec S_ 1 := (fun x v => Host.reduce IntOp.andi x v reducesTo_S32768x1_S_d0_1 h_S_) main_v2 main_c
  let main_v4 : FVec F S16x1 .f32 := Host.absf main_arg1
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_v13 main_v16
-- ==== Kernel.lean ====
abbrev S32768x1 : Shape := ⟨2, ![32768, 1]⟩
abbrev S16x1 : Shape := ⟨2, ![16, 1]⟩
abbrev S16 : Shape := ⟨1, ![16]⟩
abbrev S1x16 : Shape := ⟨2, ![1, 16]⟩
abbrev S1 : Shape := ⟨1, ![1]⟩
abbrev S1024x1x1 : Shape := ⟨3, ![1024, 1, 1]⟩
abbrev S1024x1 : Shape := ⟨2, ![1024, 1]⟩
abbrev S32768x16 : Shape := ⟨2, ![32768, 16]⟩
abbrev S_ : Shape := ⟨0, ![]⟩
abbrev S1x1 : Shape := ⟨2, ![1, 1]⟩
abbrev S1024 : Shape := ⟨1, ![1024]⟩
abbrev S1x1024 : Shape := ⟨2, ![1, 1024]⟩
abbrev S32768x2048 : Shape := ⟨2, ![32768, 2048]⟩
abbrev S512x1 : Shape := ⟨2, ![512, 1]⟩
abbrev S512x2048 : Shape := ⟨2, ![512, 2048]⟩
abbrev S512x1x1 : Shape := ⟨3, ![512, 1, 1]⟩
abbrev S512x1x2 : Shape := ⟨3, ![512, 1, 2]⟩
abbrev S512x2 : Shape := ⟨2, ![512, 2]⟩
abbrev S1x2 : Shape := ⟨2, ![1, 2]⟩
abbrev S512x2x1 : Shape := ⟨3, ![512, 2, 1]⟩
abbrev S512x2x2 : Shape := ⟨3, ![512, 2, 2]⟩
abbrev S512x4 : Shape := ⟨2, ![512, 4]⟩
abbrev S1x4 : Shape := ⟨2, ![1, 4]⟩
abbrev S512x4x1 : Shape := ⟨3, ![512, 4, 1]⟩
abbrev S512x4x2 : Shape := ⟨3, ![512, 4, 2]⟩
abbrev S512x8 : Shape := ⟨2, ![512, 8]⟩
abbrev S1x8 : Shape := ⟨2, ![1, 8]⟩
abbrev S512x8x1 : Shape := ⟨3, ![512, 8, 1]⟩
abbrev S512x8x2 : Shape := ⟨3, ![512, 8, 2]⟩
abbrev S512x16 : Shape := ⟨2, ![512, 16]⟩
abbrev S512x16x1 : Shape := ⟨3, ![512, 16, 1]⟩
abbrev S512x16x2 : Shape := ⟨3, ![512, 16, 2]⟩
abbrev S512x32 : Shape := ⟨2, ![512, 32]⟩
abbrev S1x32 : Shape := ⟨2, ![1, 32]⟩
abbrev S512x32x1 : Shape := ⟨3, ![512, 32, 1]⟩
abbrev S512x32x2 : Shape := ⟨3, ![512, 32, 2]⟩
abbrev S512x64 : Shape := ⟨2, ![512, 64]⟩
abbrev S1x64 : Shape := ⟨2, ![1, 64]⟩
abbrev S512x64x1 : Shape := ⟨3, ![512, 64, 1]⟩
abbrev S512x64x2 : Shape := ⟨3, ![512, 64, 2]⟩
abbrev S512x128 : Shape := ⟨2, ![512, 128]⟩
abbrev S1x128 : Shape := ⟨2, ![1, 128]⟩
abbrev S512x128x1 : Shape := ⟨3, ![512, 128, 1]⟩
abbrev S512x128x2 : Shape := ⟨3, ![512, 128, 2]⟩
abbrev S512x256 : Shape := ⟨2, ![512, 256]⟩
abbrev S1x256 : Shape := ⟨2, ![1, 256]⟩
abbrev S512x256x1 : Shape := ⟨3, ![512, 256, 1]⟩
abbrev S512x256x2 : Shape := ⟨3, ![512, 256, 2]⟩
abbrev S512x512 : Shape := ⟨2, ![512, 512]⟩
abbrev S1x512 : Shape := ⟨2, ![1, 512]⟩
abbrev S512x512x1 : Shape := ⟨3, ![512, 512, 1]⟩
abbrev S512x512x2 : Shape := ⟨3, ![512, 512, 2]⟩
abbrev S512x1024 : Shape := ⟨2, ![512, 1024]⟩

abbrev nBuf : Space → Nat
  | .hbm => 130
  | .vmem => 6
  | .smem => 0
  | _ => 0

abbrev hbmTy0_0 (i : Nat) : BufTy := match i % 128 with
  | 0 => ⟨S32768x1, .f32⟩
  | 1 => ⟨S16x1, .f32⟩
  | 2 => ⟨S16, .f32⟩
  | 3 => ⟨S16, .f32⟩
  | 4 => ⟨S16, .f32⟩
  | 5 => ⟨S1x16, .f32⟩
  | 6 => ⟨S1, .f32⟩
  | 7 => ⟨S1, .f32⟩
  | 8 => ⟨S1, .f32⟩
  | 9 => ⟨S1024x1x1, .f32⟩
  | 10 => ⟨S1024x1, .f32⟩
  | 11 => ⟨S1x16, .f32⟩
  | 12 => ⟨S32768x16, .f32⟩
  | 13 => ⟨S1x16, .f32⟩
  | 14 => ⟨S32768x16, .f32⟩
  | 15 => ⟨S32768x16, .f32⟩
  | 16 => ⟨S_, .f32⟩
  | 17 => ⟨S_, .f32⟩
  | 18 => ⟨S32768x16, .f32⟩
  | 19 => ⟨S32768x16, .i1⟩
  | 20 => ⟨S_, .f32⟩
  | 21 => ⟨S32768x16, .f32⟩
  | 22 => ⟨S32768x16, .f32⟩
  | 23 => ⟨S32768x16, .f32⟩
  | 24 => ⟨S_, .f32⟩
  | 25 => ⟨S16, .f32⟩
  | 26 => ⟨S_, .f32⟩
  | 27 => ⟨S16, .f32⟩
  | 28 => ⟨S16, .f32⟩
  | 29 => ⟨S_, .i32⟩
  | 30 => ⟨S_, .f32⟩
  | 31 => ⟨S16, .f32⟩
  | 32 => ⟨S1x16, .f32⟩
  | 33 => ⟨S_, .f32⟩
  | 34 => ⟨S1x16, .f32⟩
  | 35 => ⟨S1x16, .f32⟩
  | 36 => ⟨S32768x16, .f32⟩
  | 37 => ⟨S32768x16, .f32⟩
  | 38 => ⟨S32768x16, .f32⟩
  | 39 => ⟨S_, .f32⟩
  | 40 => ⟨S_, .f32⟩
  | 41 => ⟨S_, .f32⟩
  | 42 => ⟨S_, .f32⟩
  | 43 => ⟨S16, .f32⟩
  | 44 => ⟨S16, .f32⟩
  | 45 => ⟨S16, .f32⟩
  | 46 => ⟨S_, .f32⟩
  | 47 => ⟨S_, .i1⟩
  | 48 => ⟨S_, .f32⟩
  | 49 => ⟨S_, .f32⟩
  | 50 => ⟨S16, .f32⟩
  | 51 => ⟨S16, .f32⟩
  | 52 => ⟨S1x16, .f32⟩
  | 53 => ⟨S32768x16, .f32⟩
  | 54 => ⟨S32768x16, .f32⟩
  | 55 => ⟨S_, .f32⟩
  | 56 => ⟨S16, .f32⟩
  | 57 => ⟨S16, .f32⟩
  | 58 => ⟨S16, .f32⟩
  | 59 => ⟨S1x16, .f32⟩
  | 60 => ⟨S32768x16, .f32⟩
  | 61 => ⟨S32768x16, .f32⟩
  | 62 => ⟨S1x16, .f32⟩
  | 63 => ⟨S32768x16, .f32⟩
  | 64 => ⟨S32768x16, .f32⟩
  | 65 => ⟨S1x16, .f32⟩
  | 66 => ⟨S32768x16, .f32⟩
  | 67 => ⟨S32768x16, .f32⟩
  | 68 => ⟨S16x1, .f32⟩
  | 69 => ⟨S32768x1, .f32⟩
  | 70 => ⟨S1x1, .f32⟩
  | 71 => ⟨S32768x1, .f32⟩
  | 72 => ⟨S32768x1, .f32⟩
  | 73 => ⟨S_, .f32⟩
  | 74 => ⟨S_, .f32⟩
  | 75 => ⟨S32768x1, .f32⟩
  | 76 => ⟨S32768x1, .i1⟩
  | 77 => ⟨S_, .f32⟩
  | 78 => ⟨S32768x1, .f32⟩
  | 79 => ⟨S32768x1, .f32⟩
  | 80 => ⟨S32768x1, .f32⟩
  | 81 => ⟨S_, .f32⟩
  | 82 => ⟨S1, .f32⟩
  | 83 => ⟨S_, .f32⟩
  | 84 => ⟨S1, .f32⟩
  | 85 => ⟨S1, .f32⟩
  | 86 => ⟨S_, .i32⟩
  | 87 => ⟨S_, .f32⟩
  | 88 => ⟨S1, .f32⟩
  | 89 => ⟨S1x1, .f32⟩
  | 90 => ⟨S_, .f32⟩
  | 91 => ⟨S1x1, .f32⟩
  | 92 => ⟨S1x1, .f32⟩
  | 93 => ⟨S32768x1, .f32⟩
  | 94 => ⟨S32768x1, .f32⟩
  | 95 => ⟨S32768x1, .f32⟩
  | 96 => ⟨S_, .f32⟩
  | 97 => ⟨S_, .f32⟩
  | 98 => ⟨S_, .f32⟩
  | 99 => ⟨S_, .f32⟩
  | 100 => ⟨S1, .f32⟩
  | 101 => ⟨S1, .f32⟩
  | 102 => ⟨S1, .f32⟩
  | 103 => ⟨S_, .f32⟩
  | 104 => ⟨S_, .i1⟩
  | 105 => ⟨S_, .f32⟩
  | 106 => ⟨S_, .f32⟩
  | 107 => ⟨S1, .f32⟩
  | 108 => ⟨S1, .f32⟩
  | 109 => ⟨S1x1, .f32⟩
  | 110 => ⟨S32768x1, .f32⟩
  | 111 => ⟨S32768x1, .f32⟩
  | 112 => ⟨S_, .f32⟩
  | 113 => ⟨S1, .f32⟩
  | 114 => ⟨S1, .f32⟩
  | 115 => ⟨S1, .f32⟩
  | 116 => ⟨S1x1, .f32⟩
  | 117 => ⟨S32768x1, .f32⟩
  | 118 => ⟨S32768x1, .f32⟩
  | 119 => ⟨S1x1, .f32⟩
  | 120 => ⟨S32768x1, .f32⟩
  | 121 => ⟨S32768x1, .f32⟩
  | 122 => ⟨S1x1, .f32⟩
  | 123 => ⟨S32768x1, .f32⟩
  | 124 => ⟨S32768x1, .f32⟩
  | 125 => ⟨S1024, .f32⟩
  | 126 => ⟨S1024, .f32⟩
  | 127 => ⟨S1x1024, .f32⟩
  | _ => ⟨S32768x1, .f32⟩

abbrev hbmTy0_1 (i : Nat) : BufTy := match i % 128 with
  | 0 => ⟨S1x1024, .f32⟩
  | 1 => ⟨S32768x2048, .f32⟩
  | _ => ⟨S32768x1, .f32⟩

abbrev hbmTy (i : Nat) : BufTy := match i / 128 with
  | 0 => hbmTy0_0 i
  | 1 => hbmTy0_1 i
  | _ => ⟨S32768x1, .f32⟩

abbrev bufTy : (tb : Table) → Fin (tcTables nBuf tb) → BufTy
  | .hbm, ⟨i, _⟩ => hbmTy i
  | .local _ .vmem, ⟨0, _⟩ => ⟨S512x1, .f32⟩
  | .local _ .vmem, ⟨1, _⟩ => ⟨S512x1, .f32⟩
  | .local _ .vmem, ⟨2, _⟩ => ⟨S1x1024, .f32⟩
  | .local _ .vmem, ⟨3, _⟩ => ⟨S1x1024, .f32⟩
  | .local _ .vmem, ⟨4, _⟩ => ⟨S512x2048, .f32⟩
  | .local _ .vmem, ⟨5, _⟩ => ⟨S512x2048, .f32⟩
  | _, _ => ⟨S32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_cst_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_cst_1 : Ref sig .tc := ⟨.hbm, 40, rfl⟩
abbrev main_call1_v8 : Ref sig .tc := ⟨.hbm, 41, rfl⟩
abbrev main_call1_cst_2 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_cst_3 : Ref sig .tc := ⟨.hbm, 46, rfl⟩
abbrev main_call1_v12 : Ref sig .tc := ⟨.hbm, 47, rfl⟩
abbrev main_call1_cst_4 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_3 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v30 : Ref sig .tc := ⟨.hbm, 80, rfl⟩
abbrev main_cst_4 : Ref sig .tc := ⟨.hbm, 81, rfl⟩
abbrev main_v31 : Ref sig .tc := ⟨.hbm, 82, rfl⟩
abbrev main_cst_5 : Ref sig .tc := ⟨.hbm, 83, rfl⟩
abbrev main_v32 : Ref sig .tc := ⟨.hbm, 84, rfl⟩
abbrev main_v33 : Ref sig .tc := ⟨.hbm, 85, rfl⟩
abbrev main_c_6 : Ref sig .tc := ⟨.hbm, 86, rfl⟩
abbrev main_call3_cst : Ref sig .tc := ⟨.hbm, 87, rfl⟩
abbrev main_call3_v0 : Ref sig .tc := ⟨.hbm, 88, rfl⟩
abbrev main_call3_v1 : Ref sig .tc := ⟨.hbm, 89, rfl⟩
abbrev main_call3_cst_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_cst_1 : Ref sig .tc := ⟨.hbm, 97, rfl⟩
abbrev main_call3_v8 : Ref sig .tc := ⟨.hbm, 98, rfl⟩
abbrev main_call3_cst_2 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_cst_3 : Ref sig .tc := ⟨.hbm, 103, rfl⟩
abbrev main_call3_v12 : Ref sig .tc := ⟨.hbm, 104, rfl⟩
abbrev main_call3_cst_4 : Ref sig .tc := ⟨.hbm, 105, rfl⟩
abbrev main_call3_call0_v0 : Ref sig .tc := ⟨.hbm, 106, rfl⟩
abbrev main_call3_call0_v1 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_cst_7 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x1_S1x16_1_0 : S16x1.Transposes [1, 0] S1x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  bcast_S_S32768x16 : S_.BroadcastsInDim S32768x16 (![] : Fin 0 → Fin S32768x16.rank)
  reducesTo_S32768x16_S16_d0 : S32768x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  transposes_S1x16_S16x1_1_0 : S1x16.Transposes [1, 0] S16x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  reducesTo_S32768x1_S1_d0 : S32768x1.ReducesTo [0] S1
  bcast_S_S1 : S_.BroadcastsInDim S1 (![] : Fin 0 → Fin S1.rank)
  bcast_S_S1x1 : S_.BroadcastsInDim S1x1 (![] : Fin 0 → Fin S1x1.rank)
  shapeCasts_S1024x1x1_S1024 : S1024x1x1.ShapeCasts S1024
  shapeCasts_S1024x1_S1024 : S1024x1.ShapeCasts S1024
  shapeCasts_S1024_S1x1024 : S1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x1_0_0 : ∀ a, (![0, 0] : Fin 2 → Nat) a + S512x1.size a ≤ S512x2048.size a
  inb_S512x2048_S512x1_0_1 : ∀ a, (![0, 1] : Fin 2 → Nat) a + S512x1.size a ≤ S512x2048.size a
  inb_S1x1024_S1x1_0_1 : ∀ a, (![0, 1] : Fin 2 → Nat) a + S1x1.size a ≤ S1x1024.size a
  h_S1x1 : 0 < S1x1.numel
  shapeCasts_S1x1_S1x1 : S1x1.ShapeCasts S1x1
  broadcasts_S1x1_S512x1 : S1x1.Broadcasts S512x1
  shapeCasts_S512x1_S512x1x1 : S512x1.ShapeCasts S512x1x1
  concatenates_S512x1x1_S512x1x1_S512x1x2_d2 : Shape.Concatenates [S512x1x1, S512x1x1] S512x1x2 2
  shapeCasts_S512x1x2_S512x2 : S512x1x2.ShapeCasts S512x2
  inb_S512x2048_S512x2_0_2 : ∀ a, (![0, 2] : Fin 2 → Nat) a + S512x2.size a ≤ S512x2048.size a
  h_S512x2 : 0 < S512x2.numel
  inb_S1x1024_S1x2_0_2 : ∀ a, (![0, 2] : Fin 2 → Nat) a + S1x2.size a ≤ S1x1024.size a
  h_S1x2 : 0 < S1x2.numel
  shapeCasts_S1x2_S1x2 : S1x2.ShapeCasts S1x2
  shapeCasts_S512x2_S512x2 : S512x2.ShapeCasts S512x2
  broadcasts_S512x1_S512x2 : S512x1.Broadcasts S512x2
  broadcasts_S1x2_S512x2 : S1x2.Broadcasts S512x2
  shapeCasts_S512x2_S512x2x1 : S512x2.ShapeCasts S512x2x1
  concatenates_S512x2x1_S512x2x1_S512x2x2_d2 : Shape.Concatenates [S512x2x1, S512x2x1] S512x2x2 2
  shapeCasts_S512x2x2_S512x4 : S512x2x2.ShapeCasts S512x4
  inb_S512x2048_S512x4_0_4 : ∀ a, (![0, 4] : Fin 2 → Nat) a + S512x4.size a ≤ S512x2048.size a
  h_S512x4 : 0 < S512x4.numel
  inb_S1x1024_S1x4_0_4 : ∀ a, (![0, 4] : Fin 2 → Nat) a + S1x4.size a ≤ S1x1024.size a
  h_S1x4 : 0 < S1x4.numel
  shapeCasts_S1x4_S1x4 : S1x4.ShapeCasts S1x4
  shapeCasts_S512x4_S512x4 : S512x4.ShapeCasts S512x4
  broadcasts_S512x1_S512x4 : S512x1.Broadcasts S512x4
  broadcasts_S1x4_S512x4 : S1x4.Broadcasts S512x4
  shapeCasts_S512x4_S512x4x1 : S512x4.ShapeCasts S512x4x1
  concatenates_S512x4x1_S512x4x1_S512x4x2_d2 : Shape.Concatenates [S512x4x1, S512x4x1] S512x4x2 2
  shapeCasts_S512x4x2_S512x8 : S512x4x2.ShapeCasts S512x8
  inb_S512x2048_S512x8_0_8 : ∀ a, (![0, 8] : Fin 2 → Nat) a + S512x8.size a ≤ S512x2048.size a
  h_S512x8 : 0 < S512x8.numel
  inb_S1x1024_S1x8_0_8 : ∀ a, (![0, 8] : Fin 2 → Nat) a + S1x8.size a ≤ S1x1024.size a
  h_S1x8 : 0 < S1x8.numel
  shapeCasts_S1x8_S1x8 : S1x8.ShapeCasts S1x8
  shapeCasts_S512x8_S512x8 : S512x8.ShapeCasts S512x8
  broadcasts_S512x1_S512x8 : S512x1.Broadcasts S512x8
  broadcasts_S1x8_S512x8 : S1x8.Broadcasts S512x8
  shapeCasts_S512x8_S512x8x1 : S512x8.ShapeCasts S512x8x1
  concatenates_S512x8x1_S512x8x1_S512x8x2_d2 : Shape.Concatenates [S512x8x1, S512x8x1] S512x8x2 2
  shapeCasts_S512x8x2_S512x16 : S512x8x2.ShapeCasts S512x16
  inb_S512x2048_S512x16_0_16 : ∀ a, (![0, 16] : Fin 2 → Nat) a + S512x16.size a ≤ S512x2048.size a
  h_S512x16 : 0 < S512x16.numel
  inb_S1x1024_S1x16_0_16 : ∀ a, (![0, 16] : Fin 2 → Nat) a + S1x16.size a ≤ S1x1024.size a
  h_S1x16 : 0 < S1x16.numel
  shapeCasts_S1x16_S1x16 : S1x16.ShapeCasts S1x16
  shapeCasts_S512x16_S512x16 : S512x16.ShapeCasts S512x16
  broadcasts_S512x1_S512x16 : S512x1.Broadcasts S512x16
  broadcasts_S1x16_S512x16 : S1x16.Broadcasts S512x16
  shapeCasts_S512x16_S512x16x1 : S512x16.ShapeCasts S512x16x1
  concatenates_S512x16x1_S512x16x1_S512x16x2_d2 : Shape.Concatenates [S512x16x1, S512x16x1] S512x16x2 2
  shapeCasts_S512x16x2_S512x32 : S512x16x2.ShapeCasts S512x32
  inb_S512x2048_S512x32_0_32 : ∀ a, (![0, 32] : Fin 2 → Nat) a + S512x32.size a ≤ S512x2048.size a
  h_S512x32 : 0 < S512x32.numel
  inb_S1x1024_S1x32_0_32 : ∀ a, (![0, 32] : Fin 2 → Nat) a + S1x32.size a ≤ S1x1024.size a
  h_S1x32 : 0 < S1x32.numel
  shapeCasts_S1x32_S1x32 : S1x32.ShapeCasts S1x32
  shapeCasts_S512x32_S512x32 : S512x32.ShapeCasts S512x32
  broadcasts_S512x1_S512x32 : S512x1.Broadcasts S512x32
  broadcasts_S1x32_S512x32 : S1x32.Broadcasts S512x32
  shapeCasts_S512x32_S512x32x1 : S512x32.ShapeCasts S512x32x1
  concatenates_S512x32x1_S512x32x1_S512x32x2_d2 : Shape.Concatenates [S512x32x1, S512x32x1] S512x32x2 2
  shapeCasts_S512x32x2_S512x64 : S512x32x2.ShapeCasts S512x64
  inb_S512x2048_S512x64_0_64 : ∀ a, (![0, 64] : Fin 2 → Nat) a + S512x64.size a ≤ S512x2048.size a
  h_S512x64 : 0 < S512x64.numel
  inb_S1x1024_S1x64_0_64 : ∀ a, (![0, 64] : Fin 2 → Nat) a + S1x64.size a ≤ S1x1024.size a
  h_S1x64 : 0 < S1x64.numel
  shapeCasts_S1x64_S1x64 : S1x64.ShapeCasts S1x64
  shapeCasts_S512x64_S512x64 : S512x64.ShapeCasts S512x64
  broadcasts_S512x1_S512x64 : S512x1.Broadcasts S512x64
  broadcasts_S1x64_S512x64 : S1x64.Broadcasts S512x64
  shapeCasts_S512x64_S512x64x1 : S512x64.ShapeCasts S512x64x1
  concatenates_S512x64x1_S512x64x1_S512x64x2_d2 : Shape.Concatenates [S512x64x1, S512x64x1] S512x64x2 2
  shapeCasts_S512x64x2_S512x128 : S512x64x2.ShapeCasts S512x128
  inb_S512x2048_S512x128_0_128 : ∀ a, (![0, 128] : Fin 2 → Nat) a + S512x128.size a ≤ S512x2048.size a
  h_S512x128 : 0 < S512x128.numel
  inb_S1x1024_S1x128_0_128 : ∀ a, (![0, 128] : Fin 2 → Nat) a + S1x128.size a ≤ S1x1024.size a
  h_S1x128 : 0 < S1x128.numel
  shapeCasts_S1x128_S1x128 : S1x128.ShapeCasts S1x128
  shapeCasts_S512x128_S512x128 : S512x128.ShapeCasts S512x128
  broadcasts_S512x1_S512x128 : S512x1.Broadcasts S512x128
  broadcasts_S1x128_S512x128 : S1x128.Broadcasts S512x128
  shapeCasts_S512x128_S512x128x1 : S512x128.ShapeCasts S512x128x1
  concatenates_S512x128x1_S512x128x1_S512x128x2_d2 : Shape.Concatenates [S512x128x1, S512x128x1] S512x128x2 2
  shapeCasts_S512x128x2_S512x256 : S512x128x2.ShapeCasts S512x256
  inb_S512x2048_S512x256_0_256 : ∀ a, (![0, 256] : Fin 2 → Nat) a + S512x256.size a ≤ S512x2048.size a
  h_S512x256 : 0 < S512x256.numel
  inb_S1x1024_S1x256_0_256 : ∀ a, (![0, 256] : Fin 2 → Nat) a + S1x256.size a ≤ S1x1024.size a
  h_S1x256 : 0 < S1x256.numel
  shapeCasts_S1x256_S1x256 : S1x256.ShapeCasts S1x256
  shapeCasts_S512x256_S512x256 : S512x256.ShapeCasts S512x256
  broadcasts_S512x1_S512x256 : S512x1.Broadcasts S512x256
  broadcasts_S1x256_S512x256 : S1x256.Broadcasts S512x256
  shapeCasts_S512x256_S512x256x1 : S512x256.ShapeCasts S512x256x1
  concatenates_S512x256x1_S512x256x1_S512x256x2_d2 : Shape.Concatenates [S512x256x1, S512x256x1] S512x256x2 2
  shapeCasts_S512x256x2_S512x512 : S512x256x2.ShapeCasts S512x512
  inb_S512x2048_S512x512_0_512 : ∀ a, (![0, 512] : Fin 2 → Nat) a + S512x512.size a ≤ S512x2048.size a
  h_S512x512 : 0 < S512x512.numel
  inb_S1x1024_S1x512_0_512 : ∀ a, (![0, 512] : Fin 2 → Nat) a + S1x512.size a ≤ S1x1024.size a
  h_S1x512 : 0 < S1x512.numel
  shapeCasts_S1x512_S1x512 : S1x512.ShapeCasts S1x512
  shapeCasts_S512x512_S512x512 : S512x512.ShapeCasts S512x512
  broadcasts_S512x1_S512x512 : S512x1.Broadcasts S512x512
  broadcasts_S1x512_S512x512 : S1x512.Broadcasts S512x512
  shapeCasts_S512x512_S512x512x1 : S512x512.ShapeCasts S512x512x1
  concatenates_S512x512x1_S512x512x1_S512x512x2_d2 : Shape.Concatenates [S512x512x1, S512x512x1] S512x512x2 2
  shapeCasts_S512x512x2_S512x1024 : S512x512x2.ShapeCasts S512x1024
  inb_S512x2048_S512x1024_0_1024 : ∀ a, (![0, 1024] : Fin 2 → Nat) a + S512x1024.size a ≤ S512x2048.size a
  h_S512x1024 : 0 < S512x1024.numel
  dot_S32768x1_S1x16_S32768x16_1_0_0_1_n_n_wf : DotDims.WF S32768x1 S1x16 S32768x16 [1] [0] [0] [1] [] []
  dot_S32768x16_S16x1_S32768x1_1_0_0_1_n_n_wf : DotDims.WF S32768x16 S16x1 S32768x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S32768x1.size a
  hwx0_0 : ∀ i : grid0.Coords, EltTy.bits .f32 = 32 ∨ (Rect.block (s := S32768x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S32768x1_S1x16_S32768x16_1_0_0_1_n_n : DotDims S32768x1 S1x16 S32768x16 where
  lhsContracting := [1]
  rhsContracting := [0]
  lhsNonContracting := [0]
  rhsNonContracting := [1]
  lhsBatch := []
  rhsBatch := []
  wf := dot_S32768x1_S1x16_S32768x16_1_0_0_1_n_n_wf
def dot_S32768x16_S16x1_S32768x1_1_0_0_1_n_n : DotDims S32768x16 S16x1 S32768x1 where
  lhsContracting := [1]
  rhsContracting := [0]
  lhsNonContracting := [0]
  rhsNonContracting := [1]
  lhsBatch := []
  rhsBatch := []
  wf := dot_S32768x16_S16x1_S32768x1_1_0_0_1_n_n_wf

abbrev win0_0 : Pipeline.Window sig grid0 :=
  Pipeline.Window.ofSpec (Memref.whole main_v49) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1 : Shape := ⟨2, ![32768, 1]⟩
abbrev S16x1 : Shape := ⟨2, ![16, 1]⟩
abbrev S16 : Shape := ⟨1, ![16]⟩
abbrev S1x16 : Shape := ⟨2, ![1, 16]⟩
abbrev S1 : Shape := ⟨1, ![1]⟩
abbrev S1024x1x1 : Shape := ⟨3, ![1024, 1, 1]⟩
abbrev S1024x1 : Shape := ⟨2, ![1024, 1]⟩
abbrev S32768x16 : Shape := ⟨2, ![32768, 16]⟩
abbrev S_ : Shape := ⟨0, ![]⟩
abbrev S1x1 : Shape := ⟨2, ![1, 1]⟩
abbrev S32768x1024x1 : Shape := ⟨3, ![32768, 1024, 1]⟩
abbrev S1x1024x1 : Shape := ⟨3, ![1, 1024, 1]⟩
abbrev S32768x1024x2 : Shape := ⟨3, ![32768, 1024, 2]⟩
abbrev S32768x2x1 : Shape := ⟨3, ![32768, 2, 1]⟩
abbrev S32768x1x1 : Shape := ⟨3, ![32768, 1, 1]⟩
abbrev S1x32768x1x1x1x1 : Shape := ⟨6, ![1, 32768, 1, 1, 1, 1]⟩
abbrev S1x32768x1x1x2x1 : Shape := ⟨6, ![1, 32768, 1, 1, 2, 1]⟩
abbrev S32768x1x2 : Shape := ⟨3, ![32768, 1, 2]⟩
abbrev S32768x4x1 : Shape := ⟨3, ![32768, 4, 1]⟩
abbrev S1x32768x1x2x1x1 : Shape := ⟨6, ![1, 32768, 1, 2, 1, 1]⟩
abbrev S1x32768x1x2x2x1 : Shape := ⟨6, ![1, 32768, 1, 2, 2, 1]⟩
abbrev S32768x2x2 : Shape := ⟨3, ![32768, 2, 2]⟩
abbrev S32768x8x1 : Shape := ⟨3, ![32768, 8, 1]⟩
abbrev S1x32768x1x4x1x1 : Shape := ⟨6, ![1, 32768, 1, 4, 1, 1]⟩
abbrev S1x32768x1x4x2x1 : Shape := ⟨6, ![1, 32768, 1, 4, 2, 1]⟩
abbrev S32768x4x2 : Shape := ⟨3, ![32768, 4, 2]⟩
abbrev S32768x16x1 : Shape := ⟨3, ![32768, 16, 1]⟩
abbrev S1x32768x1x8x1x1 : Shape := ⟨6, ![1, 32768, 1, 8, 1, 1]⟩
abbrev S1x32768x1x8x2x1 : Shape := ⟨6, ![1, 32768, 1, 8, 2, 1]⟩
abbrev S32768x8x2 : Shape := ⟨3, ![32768, 8, 2]⟩
abbrev S32768x32x1 : Shape := ⟨3, ![32768, 32, 1]⟩
abbrev S1x32768x1x16x1x1 : Shape := ⟨6, ![1, 32768, 1, 16, 1, 1]⟩
abbrev S1x32768x1x16x2x1 : Shape := ⟨6, ![1, 32768, 1, 16, 2, 1]⟩
abbrev S32768x16x2 : Shape := ⟨3, ![32768, 16, 2]⟩
abbrev S32768x64x1 : Shape := ⟨3, ![32768, 64, 1]⟩
abbrev S1x32768x1x32x1x1 : Shape := ⟨6, ![1, 32768, 1, 32, 1, 1]⟩
abbrev S1x32768x1x32x2x1 : Shape := ⟨6, ![1, 32768, 1, 32, 2, 1]⟩
abbrev S32768x32x2 : Shape := ⟨3, ![32768, 32, 2]⟩
abbrev S32768x128x1 : Shape := ⟨3, ![32768, 128, 1]⟩
abbrev S1x32768x1x64x1x1 : Shape := ⟨6, ![1, 32768, 1, 64, 1, 1]⟩
abbrev S1x32768x1x64x2x1 : Shape := ⟨6, ![1, 32768, 1, 64, 2, 1]⟩
abbrev S32768x64x2 : Shape := ⟨3, ![32768, 64, 2]⟩
abbrev S32768x256x1 : Shape := ⟨3, ![32768, 256, 1]⟩
abbrev S1x32768x1x128x1x1 : Shape := ⟨6, ![1, 32768, 1, 128, 1, 1]⟩
abbrev S1x32768x1x128x2x1 : Shape := ⟨6, ![1, 32768, 1, 128, 2, 1]⟩
abbrev S32768x128x2 : Shape := ⟨3, ![32768, 128, 2]⟩
abbrev S32768x512x1 : Shape := ⟨3, ![32768, 512, 1]⟩
abbrev S1x32768x1x256x1x1 : Shape := ⟨6, ![1, 32768, 1, 256, 1, 1]⟩
abbrev S1x32768x1x256x2x1 : Shape := ⟨6, ![1, 32768, 1, 256, 2, 1]⟩
abbrev S32768x256x2 : Shape := ⟨3, ![32768, 256, 2]⟩
abbrev S1x32768x1x512x1x1 : Shape := ⟨6, ![1, 32768, 1, 512, 1, 1]⟩
abbrev S1x32768x1x512x2x1 : Shape := ⟨6, ![1, 32768, 1, 512, 2, 1]⟩
abbrev S32768x512x2 : Shape := ⟨3, ![32768, 512, 2]⟩
abbrev S32768x2048x1 : Shape := ⟨3, ![32768, 2048, 1]⟩
abbrev S32768x2048 : Shape := ⟨2, ![32768, 2048]⟩
abbrev S32768 : Shape := ⟨1, ![32768]⟩

abbrev nBuf : Space → Nat
  | .hbm => 229
  | .vmem => 0
  | .smem => 0
  | _ => 0

abbrev hbmTy0_0 (i : Nat) : BufTy := match i % 128 with
  | 0 => ⟨S32768x1, .f32⟩
  | 1 => ⟨S16x1, .f32⟩
  | 2 => ⟨S16, .f32⟩
  | 3 => ⟨S16, .f32⟩
  | 4 => ⟨S16, .f32⟩
  | 5 => ⟨S1x16, .f32⟩
  | 6 => ⟨S1, .f32⟩
  | 7 => ⟨S1, .f32⟩
  | 8 => ⟨S1, .f32⟩
  | 9 => ⟨S1024x1x1, .f32⟩
  | 10 => ⟨S1024x1, .f32⟩
  | 11 => ⟨S1x16, .f32⟩
  | 12 => ⟨S32768x16, .f32⟩
  | 13 => ⟨S1x16, .f32⟩
  | 14 => ⟨S32768x16, .f32⟩
  | 15 => ⟨S32768x16, .f32⟩
  | 16 => ⟨S_, .f32⟩
  | 17 => ⟨S_, .f32⟩
  | 18 => ⟨S32768x16, .f32⟩
  | 19 => ⟨S32768x16, .i1⟩
  | 20 => ⟨S_, .f32⟩
  | 21 => ⟨S32768x16, .f32⟩
  | 22 => ⟨S32768x16, .f32⟩
  | 23 => ⟨S32768x16, .f32⟩
  | 24 => ⟨S_, .f32⟩
  | 25 => ⟨S16, .f32⟩
  | 26 => ⟨S_, .f32⟩
  | 27 => ⟨S16, .f32⟩
  | 28 => ⟨S16, .f32⟩
  | 29 => ⟨S_, .i32⟩
  | 30 => ⟨S_, .f32⟩
  | 31 => ⟨S16, .f32⟩
  | 32 => ⟨S1x16, .f32⟩
  | 33 => ⟨S_, .f32⟩
  | 34 => ⟨S1x16, .f32⟩
  | 35 => ⟨S1x16, .f32⟩
  | 36 => ⟨S32768x16, .f32⟩
  | 37 => ⟨S32768x16, .f32⟩
  | 38 => ⟨S32768x16, .f32⟩
  | 39 => ⟨S_, .f32⟩
  | 40 => ⟨S_, .f32⟩
  | 41 => ⟨S_, .f32⟩
  | 42 => ⟨S_, .f32⟩
  | 43 => ⟨S16, .f32⟩
  | 44 => ⟨S16, .f32⟩
  | 45 => ⟨S16, .f32⟩
  | 46 => ⟨S_, .f32⟩
  | 47 => ⟨S_, .i1⟩
  | 48 => ⟨S_, .f32⟩
  | 49 => ⟨S_, .f32⟩
  | 50 => ⟨S16, .f32⟩
  | 51 => ⟨S16, .f32⟩
  | 52 => ⟨S1x16, .f32⟩
  | 53 => ⟨S32768x16, .f32⟩
  | 54 => ⟨S32768x16, .f32⟩
  | 55 => ⟨S_, .f32⟩
  | 56 => ⟨S16, .f32⟩
  | 57 => ⟨S16, .f32⟩
  | 58 => ⟨S16, .f32⟩
  | 59 => ⟨S1x16, .f32⟩
  | 60 => ⟨S32768x16, .f32⟩
  | 61 => ⟨S32768x16, .f32⟩
  | 62 => ⟨S1x16, .f32⟩
  | 63 => ⟨S32768x16, .f32⟩
  | 64 => ⟨S32768x16, .f32⟩
  | 65 => ⟨S1x16, .f32⟩
  | 66 => ⟨S32768x16, .f32⟩
  | 67 => ⟨S32768x16, .f32⟩
  | 68 => ⟨S16x1, .f32⟩
  | 69 => ⟨S32768x1, .f32⟩
  | 70 => ⟨S1x1, .f32⟩
  | 71 => ⟨S32768x1, .f32⟩
  | 72 => ⟨S32768x1, .f32⟩
  | 73 => ⟨S_, .f32⟩
  | 74 => ⟨S_, .f32⟩
  | 75 => ⟨S32768x1, .f32⟩
  | 76 => ⟨S32768x1, .i1⟩
  | 77 => ⟨S_, .f32⟩
  | 78 => ⟨S32768x1, .f32⟩
  | 79 => ⟨S32768x1, .f32⟩
  | 80 => ⟨S32768x1, .f32⟩
  | 81 => ⟨S_, .f32⟩
  | 82 => ⟨S1, .f32⟩
  | 83 => ⟨S_, .f32⟩
  | 84 => ⟨S1, .f32⟩
  | 85 => ⟨S1, .f32⟩
  | 86 => ⟨S_, .i32⟩
  | 87 => ⟨S_, .f32⟩
  | 88 => ⟨S1, .f32⟩
  | 89 => ⟨S1x1, .f32⟩
  | 90 => ⟨S_, .f32⟩
  | 91 => ⟨S1x1, .f32⟩
  | 92 => ⟨S1x1, .f32⟩
  | 93 => ⟨S32768x1, .f32⟩
  | 94 => ⟨S32768x1, .f32⟩
  | 95 => ⟨S32768x1, .f32⟩
  | 96 => ⟨S_, .f32⟩
  | 97 => ⟨S_, .f32⟩
  | 98 => ⟨S_, .f32⟩
  | 99 => ⟨S_, .f32⟩
  | 100 => ⟨S1, .f32⟩
  | 101 => ⟨S1, .f32⟩
  | 102 => ⟨S1, .f32⟩
  | 103 => ⟨S_, .f32⟩
  | 104 => ⟨S_, .i1⟩
  | 105 => ⟨S_, .f32⟩
  | 106 => ⟨S_, .f32⟩
  | 107 => ⟨S1, .f32⟩
  | 108 => ⟨S1, .f32⟩
  | 109 => ⟨S1x1, .f32⟩
  | 110 => ⟨S32768x1, .f32⟩
  | 111 => ⟨S32768x1, .f32⟩
  | 112 => ⟨S_, .f32⟩
  | 113 => ⟨S1, .f32⟩
  | 114 => ⟨S1, .f32⟩
  | 115 => ⟨S1, .f32⟩
  | 116 => ⟨S1x1, .f32⟩
  | 117 => ⟨S32768x1, .f32⟩
  | 118 => ⟨S32768x1, .f32⟩
  | 119 => ⟨S1x1, .f32⟩
  | 120 => ⟨S32768x1, .f32⟩
  | 121 => ⟨S32768x1, .f32⟩
  | 122 => ⟨S1x1, .f32⟩
  | 123 => ⟨S32768x1, .f32⟩
  | 124 => ⟨S32768x1, .f32⟩
  | 125 => ⟨S32768x1024x1, .f32⟩
  | 126 => ⟨S1x1024x1, .f32⟩
  | 127 => ⟨S32768x1024x1, .f32⟩
  | _ => ⟨S32768x1, .f32⟩

abbrev hbmTy0_1 (i : Nat) : BufTy := match i % 128 with
  | 0 => ⟨S32768x1024x1, .f32⟩
  | 1 => ⟨S32768x1024x1, .f32⟩
  | 2 => ⟨S32768x1024x1, .f32⟩
  | 3 => ⟨S_, .f32⟩
  | 4 => ⟨S32768x1024x1, .f32⟩
  | 5 => ⟨S32768x1024x1, .f32⟩
  | 6 => ⟨S_, .f32⟩
  | 7 => ⟨S32768x1024x1, .f32⟩
  | 8 => ⟨S32768x1024x1, .f32⟩
  | 9 => ⟨S_, .f32⟩
  | 10 => ⟨S32768x1024x1, .f32⟩
  | 11 => ⟨S32768x1024x1, .f32⟩
  | 12 => ⟨S32768x1024x2, .f32⟩
  | 13 => ⟨S_, .f32⟩
  | 14 => ⟨S32768x2x1, .f32⟩
  | 15 => ⟨S32768x1x1, .f32⟩
  | 16 => ⟨S1x32768x1x1x1x1, .f32⟩
  | 17 => ⟨S1x32768x1x1x2x1, .f32⟩
  | 18 => ⟨S32768x1x2, .f32⟩
  | 19 => ⟨S32768x1x2, .f32⟩
  | 20 => ⟨S32768x1x2, .f32⟩
  | 21 => ⟨S32768x2x1, .f32⟩
  | 22 => ⟨S32768x4x1, .f32⟩
  | 23 => ⟨S32768x2x1, .f32⟩
  | 24 => ⟨S1x32768x1x2x1x1, .f32⟩
  | 25 => ⟨S1x32768x1x2x2x1, .f32⟩
  | 26 => ⟨S32768x2x2, .f32⟩
  | 27 => ⟨S32768x2x2, .f32⟩
  | 28 => ⟨S32768x2x2, .f32⟩
  | 29 => ⟨S32768x4x1, .f32⟩
  | 30 => ⟨S32768x8x1, .f32⟩
  | 31 => ⟨S32768x4x1, .f32⟩
  | 32 => ⟨S1x32768x1x4x1x1, .f32⟩
  | 33 => ⟨S1x32768x1x4x2x1, .f32⟩
  | 34 => ⟨S32768x4x2, .f32⟩
  | 35 => ⟨S32768x4x2, .f32⟩
  | 36 => ⟨S32768x4x2, .f32⟩
  | 37 => ⟨S32768x8x1, .f32⟩
  | 38 => ⟨S32768x16x1, .f32⟩
  | 39 => ⟨S32768x8x1, .f32⟩
  | 40 => ⟨S1x32768x1x8x1x1, .f32⟩
  | 41 => ⟨S1x32768x1x8x2x1, .f32⟩
  | 42 => ⟨S32768x8x2, .f32⟩
  | 43 => ⟨S32768x8x2, .f32⟩
  | 44 => ⟨S32768x8x2, .f32⟩
  | 45 => ⟨S32768x16x1, .f32⟩
  | 46 => ⟨S32768x32x1, .f32⟩
  | 47 => ⟨S32768x16x1, .f32⟩
  | 48 => ⟨S1x32768x1x16x1x1, .f32⟩
  | 49 => ⟨S1x32768x1x16x2x1, .f32⟩
  | 50 => ⟨S32768x16x2, .f32⟩
  | 51 => ⟨S32768x16x2, .f32⟩
  | 52 => ⟨S32768x16x2, .f32⟩
  | 53 => ⟨S32768x32x1, .f32⟩
  | 54 => ⟨S32768x64x1, .f32⟩
  | 55 => ⟨S32768x32x1, .f32⟩
  | 56 => ⟨S1x32768x1x32x1x1, .f32⟩
  | 57 => ⟨S1x32768x1x32x2x1, .f32⟩
  | 58 => ⟨S32768x32x2, .f32⟩
  | 59 => ⟨S32768x32x2, .f32⟩
  | 60 => ⟨S32768x32x2, .f32⟩
  | 61 => ⟨S32768x64x1, .f32⟩
  | 62 => ⟨S32768x128x1, .f32⟩
  | 63 => ⟨S32768x64x1, .f32⟩
  | 64 => ⟨S1x32768x1x64x1x1, .f32⟩
  | 65 => ⟨S1x32768x1x64x2x1, .f32⟩
  | 66 => ⟨S32768x64x2, .f32⟩
  | 67 => ⟨S32768x64x2, .f32⟩
  | 68 => ⟨S32768x64x2, .f32⟩
  | 69 => ⟨S32768x128x1, .f32⟩
  | 70 => ⟨S32768x256x1, .f32⟩
  | 71 => ⟨S32768x128x1, .f32⟩
  | 72 => ⟨S1x32768x1x128x1x1, .f32⟩
  | 73 => ⟨S1x32768x1x128x2x1, .f32⟩
  | 74 => ⟨S32768x128x2, .f32⟩
  | 75 => ⟨S32768x128x2, .f32⟩
  | 76 => ⟨S32768x128x2, .f32⟩
  | 77 => ⟨S32768x256x1, .f32⟩
  | 78 => ⟨S32768x512x1, .f32⟩
  | 79 => ⟨S32768x256x1, .f32⟩
  | 80 => ⟨S1x32768x1x256x1x1, .f32⟩
  | 81 => ⟨S1x32768x1x256x2x1, .f32⟩
  | 82 => ⟨S32768x256x2, .f32⟩
  | 83 => ⟨S32768x256x2, .f32⟩
  | 84 => ⟨S32768x256x2, .f32⟩
  | 85 => ⟨S32768x512x1, .f32⟩
  | 86 => ⟨S32768x1024x1, .f32⟩
  | 87 => ⟨S32768x512x1, .f32⟩
  | 88 => ⟨S1x32768x1x512x1x1, .f32⟩
  | 89 => ⟨S1x32768x1x512x2x1, .f32⟩
  | 90 => ⟨S32768x512x2, .f32⟩
  | 91 => ⟨S32768x512x2, .f32⟩
  | 92 => ⟨S32768x512x2, .f32⟩
  | 93 => ⟨S32768x1024x1, .f32⟩
  | 94 => ⟨S32768x2048x1, .f32⟩
  | 95 => ⟨S32768x2048, .f32⟩
  | 96 => ⟨S_, .i32⟩
  | 97 => ⟨S1, .i32⟩
  | 98 => ⟨S_, .f32⟩
  | 99 => ⟨S32768, .f32⟩
  | 100 => ⟨S32768x2048, .f32⟩
  | _ => ⟨S32768x1, .f32⟩

abbrev hbmTy (i : Nat) : BufTy := match i / 128 with
  | 0 => hbmTy0_0 i
  | 1 => hbmTy0_1 i
  | _ => ⟨S32768x1, .f32⟩

abbrev bufTy : (tb : Table) → Fin (tcTables nBuf tb) → BufTy
  | .hbm, ⟨i, _⟩ => hbmTy i
  | _, _ => ⟨S32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_cst_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_cst_1 : Ref sig .tc := ⟨.hbm, 40, rfl⟩
abbrev main_call1_v8 : Ref sig .tc := ⟨.hbm, 41, rfl⟩
abbrev main_call1_cst_2 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_cst_3 : Ref sig .tc := ⟨.hbm, 46, rfl⟩
abbrev main_call1_v12 : Ref sig .tc := ⟨.hbm, 47, rfl⟩
abbrev main_call1_cst_4 : Ref sig .tc := ⟨.hbm, 48, rfl⟩
abbrev main_call1_call0_v0 : Ref sig .tc := ⟨.hbm, 49, rfl⟩
abbrev main_call1_call0_v1 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_3 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v30 : Ref sig .tc := ⟨.hbm, 80, rfl⟩
abbrev main_cst_4 : Ref sig .tc := ⟨.hbm, 81, rfl⟩
abbrev main_v31 : Ref sig .tc := ⟨.hbm, 82, rfl⟩
abbrev main_cst_5 : Ref sig .tc := ⟨.hbm, 83, rfl⟩
abbrev main_v32 : Ref sig .tc := ⟨.hbm, 84, rfl⟩
abbrev main_v33 : Ref sig .tc := ⟨.hbm, 85, rfl⟩
abbrev main_c_6 : Ref sig .tc := ⟨.hbm, 86, rfl⟩
abbrev main_call3_cst : Ref sig .tc := ⟨.hbm, 87, rfl⟩
abbrev main_call3_v0 : Ref sig .tc := ⟨.hbm, 88, rfl⟩
abbrev main_call3_v1 : Ref sig .tc := ⟨.hbm, 89, rfl⟩
abbrev main_call3_cst_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_cst_1 : Ref sig .tc := ⟨.hbm, 97, rfl⟩
abbrev main_call3_v8 : Ref sig .tc := ⟨.hbm, 98, rfl⟩
abbrev main_call3_cst_2 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_cst_3 : Ref sig .tc := ⟨.hbm, 103, rfl⟩
abbrev main_call3_v12 : Ref sig .tc := ⟨.hbm, 104, rfl⟩
abbrev main_call3_cst_4 : Ref sig .tc := ⟨.hbm, 105, rfl⟩
abbrev main_call3_call0_v0 : Ref sig .tc := ⟨.hbm, 106, rfl⟩
abbrev main_call3_call0_v1 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_cst_7 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_cst_8 : Ref sig .tc := ⟨.hbm, 131, rfl⟩
abbrev main_v56 : Ref sig .tc := ⟨.hbm, 132, rfl⟩
abbrev main_v57 : Ref sig .tc := ⟨.hbm, 133, rfl⟩
abbrev main_cst_9 : Ref sig .tc := ⟨.hbm, 134, rfl⟩
abbrev main_v58 : Ref sig .tc := ⟨.hbm, 135, rfl⟩
abbrev main_v59 : Ref sig .tc := ⟨.hbm, 136, rfl⟩
abbrev main_cst_10 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_cst_11 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_c_12 : Ref sig .tc := ⟨.hbm, 224, rfl⟩
abbrev main_v145 : Ref sig .tc := ⟨.hbm, 225, rfl⟩
abbrev main_cst_13 : Ref sig .tc := ⟨.hbm, 226, rfl⟩
abbrev main_v146 : Ref sig .tc := ⟨.hbm, 227, rfl⟩
abbrev main_v147 : Ref sig .tc := ⟨.hbm, 228, rfl⟩

abbrev nD : Nat := 1
abbrev τ : Topo := Topo.v7x

variable {F : FTy → Type} [FloatOps F]

class Facts₀ : Prop where
  transposes_S16x1_S1x16_1_0 : S16x1.Transposes [1, 0] S1x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  bcast_S_S32768x16 : S_.BroadcastsInDim S32768x16 (![] : Fin 0 → Fin S32768x16.rank)
  reducesTo_S32768x16_S16_d0 : S32768x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  transposes_S1x16_S16x1_1_0 : S1x16.Transposes [1, 0] S16x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  reducesTo_S32768x1_S1_d0 : S32768x1.ReducesTo [0] S1
  bcast_S_S1 : S_.BroadcastsInDim S1 (![] : Fin 0 → Fin S1.rank)
  bcast_S_S1x1 : S_.BroadcastsInDim S1x1 (![] : Fin 0 → Fin S1x1.rank)
  bcast_S1024x1_S1x1024x1_1_2 : S1024x1.BroadcastsInDim S1x1024x1 (![1, 2] : Fin 2 → Fin S1x1024x1.rank)
  bcast_S1x1024x1_S32768x1024x1_0_1_2 : S1x1024x1.BroadcastsInDim S32768x1024x1 (![0, 1, 2] : Fin 3 → Fin S32768x1024x1.rank)
  bcast_S_S32768x1024x1 : S_.BroadcastsInDim S32768x1024x1 (![] : Fin 0 → Fin S32768x1024x1.rank)
  concatenates_S32768x1024x1_S32768x1024x1_S32768x1024x2_d2 : Shape.Concatenates [S32768x1024x1, S32768x1024x1] S32768x1024x2 2
  bcast_S_S32768x2x1 : S_.BroadcastsInDim S32768x2x1 (![] : Fin 0 → Fin S32768x2x1.rank)
  slices_S32768x2x1_S32768x1x1_0_1_0 : S32768x2x1.Slices ![0, 1, 0] S32768x1x1
  shapeCasts_S32768x1x1_S1x32768x1x1x1x1 : S32768x1x1.ShapeCasts S1x32768x1x1x1x1
  bcast_S1x32768x1x1x1x1_S1x32768x1x1x2x1_0_1_2_3_4_5 : S1x32768x1x1x1x1.BroadcastsInDim S1x32768x1x1x2x1 (![0, 1, 2, 3, 4, 5] : Fin 6 → Fin S1x32768x1x1x2x1.rank)
  shapeCasts_S1x32768x1x1x2x1_S32768x1x2 : S1x32768x1x1x2x1.ShapeCasts S32768x1x2
  slices_S32768x1024x2_S32768x1x2_0_1_0 : S32768x1024x2.Slices ![0, 1, 0] S32768x1x2
  shapeCasts_S32768x1x2_S32768x2x1 : S32768x1x2.ShapeCasts S32768x2x1
  concatenates_S32768x2x1_S32768x2x1_S32768x4x1_d1 : Shape.Concatenates [S32768x2x1, S32768x2x1] S32768x4x1 1
  slices_S32768x4x1_S32768x2x1_0_2_0 : S32768x4x1.Slices ![0, 2, 0] S32768x2x1
  shapeCasts_S32768x2x1_S1x32768x1x2x1x1 : S32768x2x1.ShapeCasts S1x32768x1x2x1x1
  bcast_S1x32768x1x2x1x1_S1x32768x1x2x2x1_0_1_2_3_4_5 : S1x32768x1x2x1x1.BroadcastsInDim S1x32768x1x2x2x1 (![0, 1, 2, 3, 4, 5] : Fin 6 → Fin S1x32768x1x2x2x1.rank)
  shapeCasts_S1x32768x1x2x2x1_S32768x2x2 : S1x32768x1x2x2x1.ShapeCasts S32768x2x2
  slices_S32768x1024x2_S32768x2x2_0_2_0 : S32768x1024x2.Slices ![0, 2, 0] S32768x2x2
  shapeCasts_S32768x2x2_S32768x4x1 : S32768x2x2.ShapeCasts S32768x4x1
  concatenates_S32768x4x1_S32768x4x1_S32768x8x1_d1 : Shape.Concatenates [S32768x4x1, S32768x4x1] S32768x8x1 1
  slices_S32768x8x1_S32768x4x1_0_4_0 : S32768x8x1.Slices ![0, 4, 0] S32768x4x1
  shapeCasts_S32768x4x1_S1x32768x1x4x1x1 : S32768x4x1.ShapeCasts S1x32768x1x4x1x1
  bcast_S1x32768x1x4x1x1_S1x32768x1x4x2x1_0_1_2_3_4_5 : S1x32768x1x4x1x1.BroadcastsInDim S1x32768x1x4x2x1 (![0, 1, 2, 3, 4, 5] : Fin 6 → Fin S1x32768x1x4x2x1.rank)
  shapeCasts_S1x32768x1x4x2x1_S32768x4x2 : S1x32768x1x4x2x1.ShapeCasts S32768x4x2
  slices_S32768x1024x2_S32768x4x2_0_4_0 : S32768x1024x2.Slices ![0, 4, 0] S32768x4x2
  shapeCasts_S32768x4x2_S32768x8x1 : S32768x4x2.ShapeCasts S32768x8x1
  concatenates_S32768x8x1_S32768x8x1_S32768x16x1_d1 : Shape.Concatenates [S32768x8x1, S32768x8x1] S32768x16x1 1
  slices_S32768x16x1_S32768x8x1_0_8_0 : S32768x16x1.Slices ![0, 8, 0] S32768x8x1
  shapeCasts_S32768x8x1_S1x32768x1x8x1x1 : S32768x8x1.ShapeCasts S1x32768x1x8x1x1
  bcast_S1x32768x1x8x1x1_S1x32768x1x8x2x1_0_1_2_3_4_5 : S1x32768x1x8x1x1.BroadcastsInDim S1x32768x1x8x2x1 (![0, 1, 2, 3, 4, 5] : Fin 6 → Fin S1x32768x1x8x2x1.rank)
  shapeCasts_S1x32768x1x8x2x1_S32768x8x2 : S1x32768x1x8x2x1.ShapeCasts S32768x8x2
  slices_S32768x1024x2_S32768x8x2_0_8_0 : S32768x1024x2.Slices ![0, 8, 0] S32768x8x2
  shapeCasts_S32768x8x2_S32768x16x1 : S32768x8x2.ShapeCasts S32768x16x1
  concatenates_S32768x16x1_S32768x16x1_S32768x32x1_d1 : Shape.Concatenates [S32768x16x1, S32768x16x1] S32768x32x1 1
  slices_S32768x32x1_S32768x16x1_0_16_0 : S32768x32x1.Slices ![0, 16, 0] S32768x16x1
  shapeCasts_S32768x16x1_S1x32768x1x16x1x1 : S32768x16x1.ShapeCasts S1x32768x1x16x1x1
  bcast_S1x32768x1x16x1x1_S1x32768x1x16x2x1_0_1_2_3_4_5 : S1x32768x1x16x1x1.BroadcastsInDim S1x32768x1x16x2x1 (![0, 1, 2, 3, 4, 5] : Fin 6 → Fin S1x32768x1x16x2x1.rank)
  shapeCasts_S1x32768x1x16x2x1_S32768x16x2 : S1x32768x1x16x2x1.ShapeCasts S32768x16x2
  slices_S32768x1024x2_S32768x16x2_0_16_0 : S32768x1024x2.Slices ![0, 16, 0] S32768x16x2
  shapeCasts_S32768x16x2_S32768x32x1 : S32768x16x2.ShapeCasts S32768x32x1
  concatenates_S32768x32x1_S32768x32x1_S32768x64x1_d1 : Shape.Concatenates [S32768x32x1, S32768x32x1] S32768x64x1 1
  slices_S32768x64x1_S32768x32x1_0_32_0 : S32768x64x1.Slices ![0, 32, 0] S32768x32x1
  shapeCasts_S32768x32x1_S1x32768x1x32x1x1 : S32768x32x1.ShapeCasts S1x32768x1x32x1x1
  bcast_S1x32768x1x32x1x1_S1x32768x1x32x2x1_0_1_2_3_4_5 : S1x32768x1x32x1x1.BroadcastsInDim S1x32768x1x32x2x1 (![0, 1, 2, 3, 4, 5] : Fin 6 → Fin S1x32768x1x32x2x1.rank)
  shapeCasts_S1x32768x1x32x2x1_S32768x32x2 : S1x32768x1x32x2x1.ShapeCasts S32768x32x2
  slices_S32768x1024x2_S32768x32x2_0_32_0 : S32768x1024x2.Slices ![0, 32, 0] S32768x32x2
  shapeCasts_S32768x32x2_S32768x64x1 : S32768x32x2.ShapeCasts S32768x64x1
  concatenates_S32768x64x1_S32768x64x1_S32768x128x1_d1 : Shape.Concatenates [S32768x64x1, S32768x64x1] S32768x128x1 1
  slices_S32768x128x1_S32768x64x1_0_64_0 : S32768x128x1.Slices ![0, 64, 0] S32768x64x1
  shapeCasts_S32768x64x1_S1x32768x1x64x1x1 : S32768x64x1.ShapeCasts S1x32768x1x64x1x1
  bcast_S1x32768x1x64x1x1_S1x32768x1x64x2x1_0_1_2_3_4_5 : S1x32768x1x64x1x1.BroadcastsInDim S1x32768x1x64x2x1 (![0, 1, 2, 3, 4, 5] : Fin 6 → Fin S1x32768x1x64x2x1.rank)
  shapeCasts_S1x32768x1x64x2x1_S32768x64x2 : S1x32768x1x64x2x1.ShapeCasts S32768x64x2
  slices_S32768x1024x2_S32768x64x2_0_64_0 : S32768x1024x2.Slices ![0, 64, 0] S32768x64x2
  shapeCasts_S32768x64x2_S32768x128x1 : S32768x64x2.ShapeCasts S32768x128x1
  concatenates_S32768x128x1_S32768x128x1_S32768x256x1_d1 : Shape.Concatenates [S32768x128x1, S32768x128x1] S32768x256x1 1
  slices_S32768x256x1_S32768x128x1_0_128_0 : S32768x256x1.Slices ![0, 128, 0] S32768x128x1
  shapeCasts_S32768x128x1_S1x32768x1x128x1x1 : S32768x128x1.ShapeCasts S1x32768x1x128x1x1
  bcast_S1x32768x1x128x1x1_S1x32768x1x128x2x1_0_1_2_3_4_5 : S1x32768x1x128x1x1.BroadcastsInDim S1x32768x1x128x2x1 (![0, 1, 2, 3, 4, 5] : Fin 6 → Fin S1x32768x1x128x2x1.rank)
  shapeCasts_S1x32768x1x128x2x1_S32768x128x2 : S1x32768x1x128x2x1.ShapeCasts S32768x128x2
  slices_S32768x1024x2_S32768x128x2_0_128_0 : S32768x1024x2.Slices ![0, 128, 0] S32768x128x2
  shapeCasts_S32768x128x2_S32768x256x1 : S32768x128x2.ShapeCasts S32768x256x1
  concatenates_S32768x256x1_S32768x256x1_S32768x512x1_d1 : Shape.Concatenates [S32768x256x1, S32768x256x1] S32768x512x1 1
  slices_S32768x512x1_S32768x256x1_0_256_0 : S32768x512x1.Slices ![0, 256, 0] S32768x256x1
  shapeCasts_S32768x256x1_S1x32768x1x256x1x1 : S32768x256x1.ShapeCasts S1x32768x1x256x1x1
  bcast_S1x32768x1x256x1x1_S1x32768x1x256x2x1_0_1_2_3_4_5 : S1x32768x1x256x1x1.BroadcastsInDim S1x32768x1x256x2x1 (![0, 1, 2, 3, 4, 5] : Fin 6 → Fin S1x32768x1x256x2x1.rank)
  shapeCasts_S1x32768x1x256x2x1_S32768x256x2 : S1x32768x1x256x2x1.ShapeCasts S32768x256x2
  slices_S32768x1024x2_S32768x256x2_0_256_0 : S32768x1024x2.Slices ![0, 256, 0] S32768x256x2
  shapeCasts_S32768x256x2_S32768x512x1 : S32768x256x2.ShapeCasts S32768x512x1
  concatenates_S32768x512x1_S32768x512x1_S32768x1024x1_d1 : Shape.Concatenates [S32768x512x1, S32768x512x1] S32768x1024x1 1
  slices_S32768x1024x1_S32768x512x1_0_512_0 : S32768x1024x1.Slices ![0, 512, 0] S32768x512x1
  shapeCasts_S32768x512x1_S1x32768x1x512x1x1 : S32768x512x1.ShapeCasts S1x32768x1x512x1x1
  bcast_S1x32768x1x512x1x1_S1x32768x1x512x2x1_0_1_2_3_4_5 : S1x32768x1x512x1x1.BroadcastsInDim S1x32768x1x512x2x1 (![0, 1, 2, 3, 4, 5] : Fin 6 → Fin S1x32768x1x512x2x1.rank)
  shapeCasts_S1x32768x1x512x2x1_S32768x512x2 : S1x32768x1x512x2x1.ShapeCasts S32768x512x2
  slices_S32768x1024x2_S32768x512x2_0_512_0 : S32768x1024x2.Slices ![0, 512, 0] S32768x512x2
  shapeCasts_S32768x512x2_S32768x1024x1 : S32768x512x2.ShapeCasts S32768x1024x1
  concatenates_S32768x1024x1_S32768x1024x1_S32768x2048x1_d1 : Shape.Concatenates [S32768x1024x1, S32768x1024x1] S32768x2048x1 1
  shapeCasts_S32768x2048x1_S32768x2048 : S32768x2048x1.ShapeCasts S32768x2048
  bcast_S_S32768 : S_.BroadcastsInDim S32768 (![] : Fin 0 → Fin S32768.rank)
  dot_S32768x1_S1x16_S32768x16_1_0_0_1_n_n_wf : DotDims.WF S32768x1 S1x16 S32768x16 [1] [0] [0] [1] [] []
  dot_S32768x16_S16x1_S32768x1_1_0_0_1_n_n_wf : DotDims.WF S32768x16 S16x1 S32768x1 [1] [0] [0] [1] [] []
  dot_S32768x1_S1024x1x1_S32768x1024x1_1_2_0_01_n_n_wf : DotDims.WF S32768x1 S1024x1x1 S32768x1024x1 [1] [2] [0] [0, 1] [] []
  scatter_S32768x2048_S1_S32768_0_1_1_0_wf : ScatterDims.WF S32768x2048 S1 S32768 [0] [1] [1] 0

variable [Facts₀]

def dot_S32768x1_S1x16_S32768x16_1_0_0_1_n_n : DotDims S32768x1 S1x16 S32768x16 where
  lhsContracting := [1]
  rhsContracting := [0]
  lhsNonContracting := [0]
  rhsNonContracting := [1]
  lhsBatch := []
  rhsBatch := []
  wf := dot_S32768x1_S1x16_S32768x16_1_0_0_1_n_n_wf
def dot_S32768x16_S16x1_S32768x1_1_0_0_1_n_n : DotDims S32768x16 S16x1 S32768x1 where
  lhsContracting := [1]
  rhsContracting := [0]
  lhsNonContracting := [0]
  rhsNonContracting := [1]
  lhsBatch := []
  rhsBatch := []
  wf := dot_S32768x16_S16x1_S32768x1_1_0_0_1_n_n_wf
def dot_S32768x1_S1024x1x1_S32768x1024x1_1_2_0_01_n_n : DotDims S32768x1 S1024x1x1 S32768x1024x1 where
  lhsContracting := [1]
  rhsContracting := [2]
  lhsNonContracting := [0]
  rhsNonContracting := [0, 1]
  lhsBatch := []
  rhsBatch := []
  wf := dot_S32768x1_S1024x1x1_S32768x1024x1_1_2_0_01_n_n_wf
def scatter_S32768x2048_S1_S32768_0_1_1_0 : ScatterDims S32768x2048 S1 S32768 where
  updateWindowDims := [0]
  insertedWindowDims := [1]
  scatterDimsToOperandDims := [1]
  indexVectorDim := 0
  wf := scatter_S32768x2048_S1_S32768_0_1_1_0_wf

class Facts : Prop extends Facts₀ where

variable [Facts]
-- ==== Proof.CoverStep.lean ====
/-
  Column bands that cover a block, one store on top of another.

  A block of `R` rows and `N` columns is written in column bands, each band spanning every row. Listing the stores
  last first, a list that covers the columns below `W`, with a store of the band `[W, W')` on top, covers the
  columns below `W'` (`cover_cons`); and a band of all rows and the columns `[o, o + w)` holds exactly the
  indices whose column lies in that range (`mem_band`). With bands `[0, 1)`, `[1, 2)`, `[2, 4)`, …, whose ends
  double, the recursion reaches every column of the block.
-/
import Idealize.ShloMosaic.Lib.Pipeline.Value

noncomputable section

namespace Cert.Tree

open Idealize.ShloMosaic

variable {Val : EltTy → Type} {e : EltTy} {R N : ℕ}

/-- A store whose rectangle holds every index with column in `[W, W')`, on top of stores that cover the columns below
    `W`, covers the columns below `W'`. -/
theorem cover_cons (p : View.Piece Val (⟨2, ![R, N]⟩ : Shape) e) (L : List (View.Piece Val (⟨2, ![R, N]⟩ : Shape) e)) (W W' : ℕ)
    (hp : ∀ y : (⟨2, ![R, N]⟩ : Shape).Idx, W ≤ (y 1).val → (y 1).val < W' → y ∈ p.1.set)
    (hL : ∀ y : (⟨2, ![R, N]⟩ : Shape).Idx, (y 1).val < W → ∃ pc ∈ L, y ∈ pc.1.set)
    (y : (⟨2, ![R, N]⟩ : Shape).Idx) (hy : (y 1).val < W') : ∃ pc ∈ p :: L, y ∈ pc.1.set := by
  by_cases h : (y 1).val < W
  · obtain ⟨pc, hpc, hm⟩ := hL y h
    exact ⟨pc, List.mem_cons_of_mem _ hpc, hm⟩
  · exact ⟨p, List.mem_cons_self, hp y (by omega) hy⟩

/-- A band of all `R` rows and the columns `[o, o + w)` holds every index whose column is in that range. -/
theorem mem_band (o w : ℕ) (off size : Fin 2 → ℕ) (hoff : off = ![0, o]) (hsize : size = ![R, w])
    (inb : ∀ a, off a + size a ≤ (⟨2, ![R, N]⟩ : Shape).size a)
    (y : (⟨2, ![R, N]⟩ : Shape).Idx) (h1 : o ≤ (y 1).val) (h2 : (y 1).val < o + w) :
    y ∈ (Rect.unit (s := ⟨2, ![R, N]⟩) off size inb).set := by
  subst hoff hsize
  rw [Rect.mem_set_unit]
  intro a
  match a with
  | ⟨0, _⟩ => exact ⟨Nat.zero_le _, by have := (y 0).isLt; show (y 0).val < 0 + R; simpa using this⟩
  | ⟨1, _⟩ => exact ⟨h1, h2⟩

end Cert.Tree

end
-- ==== Proof.KernelCover.lean ====
/-
  The stores of one grid point cover the output block.

  The body writes the [512, 2048] block in twelve column bands, each spanning all 512 rows: column 0, column 1, then
  for each of the ten levels of the tree the band [2W, 4W) (W = 1, 2, ..., 512). The bands [0, 1), [1, 2), [2, 4),
  [4, 8), ..., [1024, 2048) partition the columns. The stores are listed last first, each list the next band's store
  on top of the list before it; the cover follows the same recursion (CoverStep.lean: a list covering the columns
  below W, with a store of the band [W, W') on top, covers the columns below W'), once per band. -/
import proofs.«132556_j49718541418874_1_alg».proof.Proof.Gen.Kernel.Frame.RunA
import proofs.«132556_j49718541418874_1_alg».proof.Proof.CoverStep

set_option maxRecDepth 16384

noncomputable section

namespace Cert.Kernel.Cover

open Cert.Kernel Cert.Kernel.Gen Cert.Tree Idealize.ShloMosaic Idealize.ShloMosaic.TcCoe Idealize.SL.Sem

variable {F : FTy → Type} [FloatOps F]

/-- The two constant columns cover the columns below 2. -/
theorem cover2 (y : S512x2048.Idx) (hy : (y 1).val < 2) :
    ∃ pc ∈ (kernelRun0_A.sl.H3_2 (F := F)), y ∈ pc.1.set := by
  unfold kernelRun0_A.sl.H3_2
  refine cover_cons _ _ 1 2 ?_ ?_ y hy
  · intro y h1 h2
    dsimp only
    exact mem_band 1 1 _ _ rfl rfl _ y h1 (by omega)
  · intro y h
    refine ⟨_, List.mem_singleton_self _, ?_⟩
    dsimp only
    exact mem_band 0 1 _ _ rfl rfl _ y (Nat.zero_le _) (by omega)

variable (c : Dev nD) (arg1 : Memref sig .tc .vmem S512x1 .f32) (harg1 : arg1.IsWhole)
  (arg2 : Memref sig .tc .vmem S1x1024 .f32) (harg2 : arg2.IsWhole)
  (arg3 : Memref sig .tc .vmem S1x1024 .f32) (harg3 : arg3.IsWhole) (arg4 : Memref sig .tc .vmem S512x2048 .f32)
  (x0 : Vec F S512x1 .f32) (x1 : Vec F S1x1024 .f32) (x2 : Vec F S1x1024 .f32)

/-- With the band [2, 4) on top, the columns below 4 are covered. -/
theorem cover4 (y : S512x2048.Idx) (hy : (y 1).val < 4) :
    ∃ pc ∈ kernelRun0_A.sl.H3_3 c arg1 harg1 arg2 harg2 arg3 harg3 arg4 x0 x1 x2, y ∈ pc.1.set := by
  unfold kernelRun0_A.sl.H3_3
  refine cover_cons _ _ 2 4 ?_ (cover2) y hy
  intro y h1 h2
  dsimp only
  exact mem_band 2 2 _ _ rfl rfl _ y h1 (by omega)

/-- With the band [4, 8) on top, the columns below 8 are covered. -/
theorem cover8 (y : S512x2048.Idx) (hy : (y 1).val < 8) :
    ∃ pc ∈ kernelRun0_A.sl.H3_4 c arg1 harg1 arg2 harg2 arg3 harg3 arg4 x0 x1 x2, y ∈ pc.1.set := by
  unfold kernelRun0_A.sl.H3_4
  refine cover_cons _ _ 4 8 ?_ (cover4 c arg1 harg1 arg2 harg2 arg3 harg3 arg4 x0 x1 x2) y hy
  intro y h1 h2
  dsimp only
  exact mem_band 4 4 _ _ rfl rfl _ y h1 (by omega)

/-- With the band [8, 16) on top, the columns below 16 are covered. -/
theorem cover16 (y : S512x2048.Idx) (hy : (y 1).val < 16) :
    ∃ pc ∈ kernelRun0_A.sl.H3_5 c arg1 harg1 arg2 harg2 arg3 harg3 arg4 x0 x1 x2, y ∈ pc.1.set := by
  unfold kernelRun0_A.sl.H3_5
  refine cover_cons _ _ 8 16 ?_ (cover8 c arg1 harg1 arg2 harg2 arg3 harg3 arg4 x0 x1 x2) y hy
  intro y h1 h2
  dsimp only
  exact mem_band 8 8 _ _ rfl rfl _ y h1 (by omega)

/-- With the band [16, 32) on top, the columns below 32 are covered. -/
theorem cover32 (y : S512x2048.Idx) (hy : (y 1).val < 32) :
    ∃ pc ∈ kernelRun0_A.sl.H3_6 c arg1 harg1 arg2 harg2 arg3 harg3 arg4 x0 x1 x2, y ∈ pc.1.set := by
  unfold kernelRun0_A.sl.H3_6
  refine cover_cons _ _ 16 32 ?_ (cover16 c arg1 harg1 arg2 harg2 arg3 harg3 arg4 x0 x1 x2) y hy
  intro y h1 h2
  dsimp only
  exact mem_band 16 16 _ _ rfl rfl _ y h1 (by omega)

/-- With the band [32, 64) on top, the columns below 64 are covered. -/
theorem cover64 (y : S512x2048.Idx) (hy : (y 1).val < 64) :
    ∃ pc ∈ kernelRun0_A.sl.H3_7 c arg1 harg1 arg2 harg2 arg3 harg3 arg4 x0 x1 x2, y ∈ pc.1.set := by
  unfold kernelRun0_A.sl.H3_7
  refine cover_cons _ _ 32 64 ?_ (cover32 c arg1 harg1 arg2 harg2 arg3 harg3 arg4 x0 x1 x2) y hy
  intro y h1 h2
  dsimp only
  exact mem_band 32 32 _ _ rfl rfl _ y h1 (by omega)

/-- With the band [64, 128) on top, the columns below 128 are covered. -/
theorem cover128 (y : S512x2048.Idx) (hy : (y 1).val < 128) :
    ∃ pc ∈ kernelRun0_A.sl.H3_8 c arg1 harg1 arg2 harg2 arg3 harg3 arg4 x0 x1 x2, y ∈ pc.1.set := by
  unfold kernelRun0_A.sl.H3_8
  refine cover_cons _ _ 64 128 ?_ (cover64 c arg1 harg1 arg2 harg2 arg3 harg3 arg4 x0 x1 x2) y hy
  intro y h1 h2
  dsimp only
  exact mem_band 64 64 _ _ rfl rfl _ y h1 (by omega)

/-- With the band [128, 256) on top, the columns below 256 are covered. -/
theorem cover256 (y : S512x2048.Idx) (hy : (y 1).val < 256) :
    ∃ pc ∈ kernelRun0_A.sl.H3_9 c arg1 harg1 arg2 harg2 arg3 harg3 arg4 x0 x1 x2, y ∈ pc.1.set := by
  unfold kernelRun0_A.sl.H3_9
  refine cover_cons _ _ 128 256 ?_ (cover128 c arg1 harg1 arg2 harg2 arg3 harg3 arg4 x0 x1 x2) y hy
  intro y h1 h2
  dsimp only
  exact mem_band 128 128 _ _ rfl rfl _ y h1 (by omega)

/-- With the band [256, 512) on top, the columns below 512 are covered. -/
theorem cover512 (y : S512x2048.Idx) (hy : (y 1).val < 512) :
    ∃ pc ∈ kernelRun0_A.sl.H3_10 c arg1 harg1 arg2 harg2 arg3 harg3 arg4 x0 x1 x2, y ∈ pc.1.set := by
  unfold kernelRun0_A.sl.H3_10
  refine cover_cons _ _ 256 512 ?_ (cover256 c arg1 harg1 arg2 harg2 arg3 harg3 arg4 x0 x1 x2) y hy
  intro y h1 h2
  dsimp only
  exact mem_band 256 256 _ _ rfl rfl _ y h1 (by omega)

/-- With the band [512, 1024) on top, the columns below 1024 are covered. -/
theorem cover1024 (y : S512x2048.Idx) (hy : (y 1).val < 1024) :
    ∃ pc ∈ kernelRun0_A.sl.H3_11 c arg1 harg1 arg2 harg2 arg3 harg3 arg4 x0 x1 x2, y ∈ pc.1.set := by
  unfold kernelRun0_A.sl.H3_11
  refine cover_cons _ _ 512 1024 ?_ (cover512 c arg1 harg1 arg2 harg2 arg3 harg3 arg4 x0 x1 x2) y hy
  intro y h1 h2
  dsimp only
  exact mem_band 512 512 _ _ rfl rfl _ y h1 (by omega)

/-- Every index of the block lies in one of the twelve stores' rectangles. -/
theorem cover (i : grid0.Coords) (harg4 : arg4.IsWhole) (y : S512x2048.Idx) :
    ∃ pc ∈ (kernelRun0_A c i arg1 harg1 arg2 harg2 arg3 harg3 arg4 harg4 x0 x1 x2).1, y ∈ pc.1.set := by
  unfold kernelRun0_A
  dsimp only
  refine cover_cons _ _ 1024 2048 ?_ (cover1024 c arg1 harg1 arg2 harg2 arg3 harg3 arg4 x0 x1 x2) y
    (by have := (y 1).isLt; simpa using this)
  intro y h1 h2
  dsimp only
  exact mem_band 1024 1024 _ _ rfl rfl _ y h1 (by omega)

end Cert.Kernel.Cover

end
-- ==== Proof.KernelIdealCover.lean ====
/-
  The stores of one grid point cover the output block.

  The body writes the [512, 2048] block in twelve column bands, each spanning all 512 rows: column 0, column 1, then
  for each of the ten levels of the tree the band [2W, 4W) (W = 1, 2, ..., 512). The bands [0, 1), [1, 2), [2, 4),
  [4, 8), ..., [1024, 2048) partition the columns. The stores are listed last first, each list the next band's store
  on top of the list before it; the cover follows the same recursion (CoverStep.lean: a list covering the columns
  below W, with a store of the band [W, W') on top, covers the columns below W'), once per band. -/
import proofs.«132556_j49718541418874_1_alg».proof.Proof.Gen.KernelIdeal.Frame.RunA
import proofs.«132556_j49718541418874_1_alg».proof.Proof.CoverStep

set_option maxRecDepth 16384

noncomputable section

namespace Cert.KernelIdeal.Cover

open Cert.KernelIdeal Cert.KernelIdeal.Gen Cert.Tree Idealize.ShloMosaic Idealize.ShloMosaic.TcCoe Idealize.SL.Sem

variable {F : FTy → Type} [FloatOps F]

/-- The two constant columns cover the columns below 2. -/
theorem cover2 (y : S512x2048.Idx) (hy : (y 1).val < 2) :
    ∃ pc ∈ (kernelRun0_A.sl.H3_2 (F := F)), y ∈ pc.1.set := by
  unfold kernelRun0_A.sl.H3_2
  refine cover_cons _ _ 1 2 ?_ ?_ y hy
  · intro y h1 h2
    dsimp only
    exact mem_band 1 1 _ _ rfl rfl _ y h1 (by omega)
  · intro y h
    refine ⟨_, List.mem_singleton_self _, ?_⟩
    dsimp only
    exact mem_band 0 1 _ _ rfl rfl _ y (Nat.zero_le _) (by omega)

variable (c : Dev nD) (arg1 : Memref sig .tc .vmem S512x1 .f32) (harg1 : arg1.IsWhole)
  (arg2 : Memref sig .tc .vmem S1x1024 .f32) (harg2 : arg2.IsWhole)
  (arg3 : Memref sig .tc .vmem S1x1024 .f32) (harg3 : arg3.IsWhole) (arg4 : Memref sig .tc .vmem S512x2048 .f32)
  (x0 : Vec F S512x1 .f32) (x1 : Vec F S1x1024 .f32) (x2 : Vec F S1x1024 .f32)

/-- With the band [2, 4) on top, the columns below 4 are covered. -/
theorem cover4 (y : S512x2048.Idx) (hy : (y 1).val < 4) :
    ∃ pc ∈ kernelRun0_A.sl.H3_3 c arg1 harg1 arg2 harg2 arg3 harg3 arg4 x0 x1 x2, y ∈ pc.1.set := by
  unfold kernelRun0_A.sl.H3_3
  refine cover_cons _ _ 2 4 ?_ (cover2) y hy
  intro y h1 h2
  dsimp only
  exact mem_band 2 2 _ _ rfl rfl _ y h1 (by omega)

/-- With the band [4, 8) on top, the columns below 8 are covered. -/
theorem cover8 (y : S512x2048.Idx) (hy : (y 1).val < 8) :
    ∃ pc ∈ kernelRun0_A.sl.H3_4 c arg1 harg1 arg2 harg2 arg3 harg3 arg4 x0 x1 x2, y ∈ pc.1.set := by
  unfold kernelRun0_A.sl.H3_4
  refine cover_cons _ _ 4 8 ?_ (cover4 c arg1 harg1 arg2 harg2 arg3 harg3 arg4 x0 x1 x2) y hy
  intro y h1 h2
  dsimp only
  exact mem_band 4 4 _ _ rfl rfl _ y h1 (by omega)

/-- With the band [8, 16) on top, the columns below 16 are covered. -/
theorem cover16 (y : S512x2048.Idx) (hy : (y 1).val < 16) :
    ∃ pc ∈ kernelRun0_A.sl.H3_5 c arg1 harg1 arg2 harg2 arg3 harg3 arg4 x0 x1 x2, y ∈ pc.1.set := by
  unfold kernelRun0_A.sl.H3_5
  refine cover_cons _ _ 8 16 ?_ (cover8 c arg1 harg1 arg2 harg2 arg3 harg3 arg4 x0 x1 x2) y hy
  intro y h1 h2
  dsimp only
  exact mem_band 8 8 _ _ rfl rfl _ y h1 (by omega)

/-- With the band [16, 32) on top, the columns below 32 are covered. -/
theorem cover32 (y : S512x2048.Idx) (hy : (y 1).val < 32) :
    ∃ pc ∈ kernelRun0_A.sl.H3_6 c arg1 harg1 arg2 harg2 arg3 harg3 arg4 x0 x1 x2, y ∈ pc.1.set := by
  unfold kernelRun0_A.sl.H3_6
  refine cover_cons _ _ 16 32 ?_ (cover16 c arg1 harg1 arg2 harg2 arg3 harg3 arg4 x0 x1 x2) y hy
  intro y h1 h2
  dsimp only
  exact mem_band 16 16 _ _ rfl rfl _ y h1 (by omega)

/-- With the band [32, 64) on top, the columns below 64 are covered. -/
theorem cover64 (y : S512x2048.Idx) (hy : (y 1).val < 64) :
    ∃ pc ∈ kernelRun0_A.sl.H3_7 c arg1 harg1 arg2 harg2 arg3 harg3 arg4 x0 x1 x2, y ∈ pc.1.set := by
  unfold kernelRun0_A.sl.H3_7
  refine cover_cons _ _ 32 64 ?_ (cover32 c arg1 harg1 arg2 harg2 arg3 harg3 arg4 x0 x1 x2) y hy
  intro y h1 h2
  dsimp only
  exact mem_band 32 32 _ _ rfl rfl _ y h1 (by omega)

/-- With the band [64, 128) on top, the columns below 128 are covered. -/
theorem cover128 (y : S512x2048.Idx) (hy : (y 1).val < 128) :
    ∃ pc ∈ kernelRun0_A.sl.H3_8 c arg1 harg1 arg2 harg2 arg3 harg3 arg4 x0 x1 x2, y ∈ pc.1.set := by
  unfold kernelRun0_A.sl.H3_8
  refine cover_cons _ _ 64 128 ?_ (cover64 c arg1 harg1 arg2 harg2 arg3 harg3 arg4 x0 x1 x2) y hy
  intro y h1 h2
  dsimp only
  exact mem_band 64 64 _ _ rfl rfl _ y h1 (by omega)

/-- With the band [128, 256) on top, the columns below 256 are covered. -/
theorem cover256 (y : S512x2048.Idx) (hy : (y 1).val < 256) :
    ∃ pc ∈ kernelRun0_A.sl.H3_9 c arg1 harg1 arg2 harg2 arg3 harg3 arg4 x0 x1 x2, y ∈ pc.1.set := by
  unfold kernelRun0_A.sl.H3_9
  refine cover_cons _ _ 128 256 ?_ (cover128 c arg1 harg1 arg2 harg2 arg3 harg3 arg4 x0 x1 x2) y hy
  intro y h1 h2
  dsimp only
  exact mem_band 128 128 _ _ rfl rfl _ y h1 (by omega)

/-- With the band [256, 512) on top, the columns below 512 are covered. -/
theorem cover512 (y : S512x2048.Idx) (hy : (y 1).val < 512) :
    ∃ pc ∈ kernelRun0_A.sl.H3_10 c arg1 harg1 arg2 harg2 arg3 harg3 arg4 x0 x1 x2, y ∈ pc.1.set := by
  unfold kernelRun0_A.sl.H3_10
  refine cover_cons _ _ 256 512 ?_ (cover256 c arg1 harg1 arg2 harg2 arg3 harg3 arg4 x0 x1 x2) y hy
  intro y h1 h2
  dsimp only
  exact mem_band 256 256 _ _ rfl rfl _ y h1 (by omega)

/-- With the band [512, 1024) on top, the columns below 1024 are covered. -/
theorem cover1024 (y : S512x2048.Idx) (hy : (y 1).val < 1024) :
    ∃ pc ∈ kernelRun0_A.sl.H3_11 c arg1 harg1 arg2 harg2 arg3 harg3 arg4 x0 x1 x2, y ∈ pc.1.set := by
  unfold kernelRun0_A.sl.H3_11
  refine cover_cons _ _ 512 1024 ?_ (cover512 c arg1 harg1 arg2 harg2 arg3 harg3 arg4 x0 x1 x2) y hy
  intro y h1 h2
  dsimp only
  exact mem_band 512 512 _ _ rfl rfl _ y h1 (by omega)

/-- Every index of the block lies in one of the twelve stores' rectangles. -/
theorem cover (i : grid0.Coords) (harg4 : arg4.IsWhole) (y : S512x2048.Idx) :
    ∃ pc ∈ (kernelRun0_A c i arg1 harg1 arg2 harg2 arg3 harg3 arg4 harg4 x0 x1 x2).1, y ∈ pc.1.set := by
  unfold kernelRun0_A
  dsimp only
  refine cover_cons _ _ 1024 2048 ?_ (cover1024 c arg1 harg1 arg2 harg2 arg3 harg3 arg4 x0 x1 x2) y
    (by have := (y 1).isLt; simpa using this)
  intro y h1 h2
  dsimp only
  exact mem_band 1024 1024 _ _ rfl rfl _ y h1 (by omega)

end Cert.KernelIdeal.Cover

end
-- ==== Proof.TreeSpec.lean ====
/-
  The routing tree as ONE function of a heap position.

  A complete binary tree is laid out by heap index: node `n` has children `2n` and `2n + 1`. Each node `n`
  carries a decision `σ n`; the mass reaching a position is the product of the shares taken on the way down
  from the root: position `1` (the root) holds `1`, an even child `2n` takes the share `σ n` of its parent's
  mass and an odd child `2n + 1` the share `1 - σ n`. Position `0` is no node of the tree and holds `0`.

  Both programs fill the positions level by level: the level `[W, 2W)` gives the level `[2W, 4W)`, child
  `2W + j` lying under parent `W + j / 2` on the side `j % 2` (`mu_child`). Nothing here needs the values to
  be finite: the recursion only multiplies, and the two programs multiply the same factors in the same order.
-/
import Idealize.ShloMosaic.PureOps.Ideal
import Idealize.ShloMosaic.PureOps.IdealRules
import Idealize.ShloMosaic.Lib.ValueIdx

noncomputable section

namespace Cert.Tree

open Idealize.ShloMosaic Idealize.ShloMosaic.ValueIdx

/-- The share of its parent's mass that position `p` takes when the parent's decision is `σ`: an even position
    (a left child) takes `σ`, an odd one (a right child) `1 - σ`. -/
def gate (σ : EReal) (p : ℕ) : EReal := if p % 2 = 0 then σ else 1 - σ

/-- The side only depends on the parity: shifting a position by an even amount keeps its share. -/
theorem gate_add_even (σ : EReal) (W j : ℕ) : gate σ (2 * W + j) = gate σ j := by
  unfold gate
  rw [Nat.mul_add_mod]

/-- The mass at heap position `p` under the decisions `σ`. -/
def mu (σ : ℕ → EReal) : ℕ → EReal
  | 0 => 0
  | 1 => 1
  | (p + 2) => mu σ ((p + 2) / 2) * gate (σ ((p + 2) / 2)) (p + 2)
decreasing_by omega

theorem mu_zero (σ : ℕ → EReal) : mu σ 0 = 0 := by rw [mu]
theorem mu_one (σ : ℕ → EReal) : mu σ 1 = 1 := by rw [mu]

/-- A position from `2` on holds its parent's mass times its share. -/
theorem mu_of_two_le (σ : ℕ → EReal) (p : ℕ) (hp : 2 ≤ p) : mu σ p = mu σ (p / 2) * gate (σ (p / 2)) p := by
  obtain ⟨q, rfl⟩ : ∃ q, p = q + 2 := ⟨p - 2, by omega⟩
  rw [mu]

/-- The level step: child `2W + j` of the level `[2W, 4W)` lies under parent `W + j / 2` of the level
    `[W, 2W)`, on the side `j % 2`. -/
theorem mu_child (σ : ℕ → EReal) (W j : ℕ) (hW : 1 ≤ W) :
    mu σ (2 * W + j) = mu σ (W + j / 2) * gate (σ (W + j / 2)) j := by
  rw [mu_of_two_le σ (2 * W + j) (by omega), Nat.mul_add_div (by norm_num : 0 < 2), gate_add_even]

/-- The f32 word `0x3F800000` is the real number one. -/
theorem ofBits_one : Ideal.ofBits .f32 0x3F800000#32 = 1 := IdealRules.sign_bit.ideal_onePat .f32

/-! ## The decisions of a row, and the whole array

A row whose prenet output is `x` decides at node `n` by the logistic function of `x · w n + b n`. The node weights
come as a `[1024, 1, 1]` array and the biases as a `[1024, 1]` array (the reference reads them so), or both laid out
as rows `[1, 1024]` (the kernel's windows): the same numbers at other indices. Positions from `1024` on have no
decision (the recursion never asks for one below position `2048`); the value there is arbitrary, `0`. -/

/-- Node `n`'s decision for a row of value `x`, the weights a `[1024, 1, 1]` array and the biases a `[1024, 1]` array. -/
def sigma (x : EReal) (fw : (⟨3, ![1024, 1, 1]⟩ : Shape).Idx → EReal) (fb : (⟨2, ![1024, 1]⟩ : Shape).Idx → EReal) (n : ℕ) : EReal :=
  if h : n < 1024 then Ideal.logistic (x * fw (ix3 ⟨n, h⟩ 0 0) + fb (ix2 ⟨n, h⟩ 0)) else 0

/-- The same with the weights and the biases laid out as rows `[1, 1024]`. -/
def sigmaRow (x : EReal) (w b : (⟨2, ![1, 1024]⟩ : Shape).Idx → EReal) (n : ℕ) : EReal :=
  if h : n < 1024 then Ideal.logistic (x * w (ix2 0 ⟨n, h⟩) + b (ix2 0 ⟨n, h⟩)) else 0

theorem sigma_of_lt (x : EReal) (fw : (⟨3, ![1024, 1, 1]⟩ : Shape).Idx → EReal) (fb : (⟨2, ![1024, 1]⟩ : Shape).Idx → EReal)
    (n : ℕ) (h : n < 1024) : sigma x fw fb n = Ideal.logistic (x * fw (ix3 ⟨n, h⟩ 0 0) + fb (ix2 ⟨n, h⟩ 0)) := by
  rw [sigma, dif_pos h]

theorem sigmaRow_of_lt (x : EReal) (w b : (⟨2, ![1, 1024]⟩ : Shape).Idx → EReal) (n : ℕ) (h : n < 1024) :
    sigmaRow x w b n = Ideal.logistic (x * w (ix2 0 ⟨n, h⟩) + b (ix2 0 ⟨n, h⟩)) := by
  rw [sigmaRow, dif_pos h]

/-- Rows that hold the arrays' numbers give the same decisions. -/
theorem sigmaRow_eq_sigma (x : EReal) (w b : (⟨2, ![1, 1024]⟩ : Shape).Idx → EReal)
    (fw : (⟨3, ![1024, 1, 1]⟩ : Shape).Idx → EReal) (fb : (⟨2, ![1024, 1]⟩ : Shape).Idx → EReal)
    (hw : ∀ n : Fin 1024, w (ix2 0 n) = fw (ix3 n 0 0)) (hb : ∀ n : Fin 1024, b (ix2 0 n) = fb (ix2 n 0)) :
    sigmaRow x w b = sigma x fw fb := by
  funext n
  unfold sigmaRow sigma
  by_cases h : n < 1024
  · rw [dif_pos h, dif_pos h, hw, hb]
  · rw [dif_neg h, dif_neg h]

/-- The routing array: row `b`, position `p` holds the mass at `p` under row `b`'s decisions. -/
def G (xp : (⟨2, ![32768, 1]⟩ : Shape).Idx → EReal) (fw : (⟨3, ![1024, 1, 1]⟩ : Shape).Idx → EReal)
    (fb : (⟨2, ![1024, 1]⟩ : Shape).Idx → EReal) : (⟨2, ![32768, 2048]⟩ : Shape).Idx → EReal :=
  fun i => mu (sigma (xp (ix2 (n0 := 32768) (i 0) 0)) fw fb) (i 1).val

theorem G_apply (xp : (⟨2, ![32768, 1]⟩ : Shape).Idx → EReal) (fw : (⟨3, ![1024, 1, 1]⟩ : Shape).Idx → EReal)
    (fb : (⟨2, ![1024, 1]⟩ : Shape).Idx → EReal) (b : Fin 32768) (p : Fin 2048) :
    G xp fw fb (ix2 b p) = mu (sigma (xp (ix2 b 0)) fw fb) p.val := rfl

end Cert.Tree

end
-- ==== Proof.Interleave.lean ====
/-
  Two arrays interleaved along the last axis, read at an index.

  Stacking two `[R, W]` arrays on a NEW last axis gives `[R, W, 2]`; flattening the last two axes gives
  `[R, 2W]`, whose column `j` is column `j / 2` of the first array when `j` is even and of the second when
  `j` is odd: the two arrays' columns alternate. Row-major positions decide it: `(a, q, s)` of `[R, W, 2]`
  and `(a, 2q + s)` of `[R, 2W]` are the same position. The statement is generic in the extents, so one
  lemma serves every level of a tree whose levels double in width.
-/
import Idealize.ShloMosaic.Lib.ValueIdx
import Idealize.ShloMosaic.Lib.Pipeline.Value

noncomputable section

namespace Cert.Tree

open Idealize.ShloMosaic Idealize.ShloMosaic.ValueIdx

variable {α : Type}

/-- An `[R, W]` array viewed `[R, W, 1]` reads `(a, q, 0)` at `(a, q)`. -/
theorem addLastUnit_apply {R W : ℕ} (x : (⟨2, ![R, W]⟩ : Shape).Idx → α)
    (h1 : (⟨2, ![R, W]⟩ : Shape).ShapeCasts ⟨3, ![R, W, 1]⟩) (a : Fin R) (q : Fin W) (z : Fin 1) :
    shapeCast ⟨3, ![R, W, 1]⟩ x h1 (ix3 a q z) = x (ix2 a q) := by
  refine shapeCast_apply x h1 (ix3 a q z) (ix2 a q) ?_
  rw [Shape.rowMajor_val_three, Shape.rowMajor_val_two]
  show a.val * W + q.val = (a.val * W + q.val) * 1 + z.val
  have := z.isLt
  omega

/-- Two `[R, W]` arrays stacked on a new last axis and flattened to `[R, 2W]`: column `j` is column `j / 2` of
    the first for even `j`, of the second for odd `j`. -/
theorem interleave_apply {R W W2 : ℕ} (hW2 : W2 = 2 * W) (l r : (⟨2, ![R, W]⟩ : Shape).Idx → α)
    (h1 : (⟨2, ![R, W]⟩ : Shape).ShapeCasts ⟨3, ![R, W, 1]⟩)
    (hc : Shape.Concatenates [(⟨3, ![R, W, 1]⟩ : Shape), ⟨3, ![R, W, 1]⟩] ⟨3, ![R, W, 2]⟩ 2)
    (h2 : (⟨3, ![R, W, 2]⟩ : Shape).ShapeCasts ⟨2, ![R, W2]⟩)
    (a : Fin R) (j : Fin W2) (q : Fin W) (hq : q.val = j.val / 2) :
    shapeCast ⟨2, ![R, W2]⟩
        (concatenate ⟨3, ![R, W, 2]⟩ 2
          [⟨⟨3, ![R, W, 1]⟩, shapeCast ⟨3, ![R, W, 1]⟩ l h1⟩, ⟨⟨3, ![R, W, 1]⟩, shapeCast ⟨3, ![R, W, 1]⟩ r h1⟩] hc)
        h2 (ix2 a j)
      = if j.val % 2 = 0 then l (ix2 a q) else r (ix2 a q) := by
  have hs : j.val % 2 < 2 := Nat.mod_lt _ (by norm_num)
  refine (shapeCast_apply _ h2 (ix2 a j) (ix3 a q ⟨j.val % 2, hs⟩) ?_).trans ?_
  · rw [Shape.rowMajor_val_three, Shape.rowMajor_val_two]
    show (a.val * W + q.val) * 2 + j.val % 2 = a.val * W2 + j.val
    subst hW2
    have e : a.val * (2 * W) = (a.val * W) * 2 := by ring
    rw [e, hq]
    have := Nat.div_add_mod j.val 2
    omega
  · by_cases h0 : j.val % 2 = 0
    · rw [if_pos h0]
      refine (concatenate_pair_apply_left (2 : Fin 3) _ _ hc (ix3 a q ⟨j.val % 2, hs⟩) rfl (ix3 a q (0 : Fin 1)) ?_).trans
        (addLastUnit_apply l h1 a q 0)
      intro b
      match b with
      | ⟨0, _⟩ => rfl
      | ⟨1, _⟩ => rfl
      | ⟨2, _⟩ => show (0 : ℕ) = j.val % 2; omega
    · rw [if_neg h0]
      refine (concatenate_pair_apply_right (2 : Fin 3) _ _ hc (ix3 a q ⟨j.val % 2, hs⟩) rfl rfl (ix3 a q (0 : Fin 1)) ?_ ?_).trans
        (addLastUnit_apply r h1 a q 0)
      · intro b hb
        match b, hb with
        | ⟨0, _⟩, _ => rfl
        | ⟨1, _⟩, _ => rfl
        | ⟨2, _⟩, hb => exact absurd rfl hb
      · show (0 : ℕ) + 1 = j.val % 2
        omega

end Cert.Tree

end
-- ==== Proof.KernelLevel.lean ====
/-
  One level of the kernel's tree step, read at an index.

  From the masses `P` of the `W` parents of a level, a row of decisions' arguments `x · w + b` (the row's value `x`
  spread over the columns, the parents' weights `w` and biases `b` spread over the rows), the body forms the left
  children `P · σ` and the right children `P · (1 - σ)`, `σ` the logistic function of the argument, and interleaves
  them: child `j` of the `2W` children lies under parent `j / 2`, on the side `j % 2`. At the ideal instance every
  operation is the extended reals' own, so the entry `(a, j)` is `P (a, j / 2)` times the share `gate σ j`.
-/
import proofs.«132556_j49718541418874_1_alg».proof.Proof.TreeSpec
import proofs.«132556_j49718541418874_1_alg».proof.Proof.Interleave

noncomputable section

namespace Cert.Tree

open Idealize.ShloMosaic Idealize.ShloMosaic.ValueIdx

/-- A column `[R, 1]` spread over `W` columns reads its row's entry everywhere. -/
theorem spreadColumn_apply {α : Type} {R W : ℕ} (x : (⟨2, ![R, 1]⟩ : Shape).Idx → α)
    (h : (⟨2, ![R, 1]⟩ : Shape).Broadcasts ⟨2, ![R, W]⟩) (a : Fin R) (q : Fin W) :
    broadcastTo ⟨2, ![R, W]⟩ x h (ix2 a q) = x (ix2 a 0) := by
  refine broadcastTo_apply x h (ix2 a q) (ix2 a 0) ?_
  intro d
  match d with
  | ⟨0, _⟩ =>
    show a.val = if R = 1 then 0 else a.val
    split
    · have := a.isLt; omega
    · rfl
  | ⟨1, _⟩ =>
    show (0 : ℕ) = if (1 : ℕ) = 1 then 0 else q.val
    rw [if_pos rfl]

/-- A row `[1, W]` spread over `R` rows reads its column's entry everywhere. -/
theorem spreadRow_apply {α : Type} {R W : ℕ} (w : (⟨2, ![1, W]⟩ : Shape).Idx → α)
    (h : (⟨2, ![1, W]⟩ : Shape).Broadcasts ⟨2, ![R, W]⟩) (a : Fin R) (q : Fin W) :
    broadcastTo ⟨2, ![R, W]⟩ w h (ix2 a q) = w (ix2 0 q) := by
  refine broadcastTo_apply w h (ix2 a q) (ix2 0 q) ?_
  intro d
  match d with
  | ⟨0, _⟩ =>
    show (0 : ℕ) = if (1 : ℕ) = 1 then 0 else a.val
    rw [if_pos rfl]
  | ⟨1, _⟩ =>
    show q.val = if W = 1 then 0 else q.val
    split
    · have := q.isLt; omega
    · rfl

/-- The children of a level: entry `(a, j)` is the parent `j / 2`'s mass times the share of the side `j % 2`, the
    decision being the logistic function of `x · w + b` at the parent's column. -/
theorem children_apply {R W W2 : ℕ} (hW2 : W2 = 2 * W) (xs ws bs P : FVec Ideal (⟨2, ![R, W]⟩ : Shape) .f32)
    (h1 : (⟨2, ![R, W]⟩ : Shape).ShapeCasts ⟨3, ![R, W, 1]⟩)
    (hc : Shape.Concatenates [(⟨3, ![R, W, 1]⟩ : Shape), ⟨3, ![R, W, 1]⟩] ⟨3, ![R, W, 2]⟩ 2)
    (h2 : (⟨3, ![R, W, 2]⟩ : Shape).ShapeCasts ⟨2, ![R, W2]⟩)
    (a : Fin R) (j : Fin W2) (q : Fin W) (hq : q.val = j.val / 2) :
    shapeCast ⟨2, ![R, W2]⟩
        (concatenate ⟨3, ![R, W, 2]⟩ 2
          [⟨⟨3, ![R, W, 1]⟩, shapeCast ⟨3, ![R, W, 1]⟩ (mulf P (logistic (addf (mulf xs ws) bs))) h1⟩,
           ⟨⟨3, ![R, W, 1]⟩, shapeCast ⟨3, ![R, W, 1]⟩
              (mulf P (subf (broadcast ⟨2, ![R, W]⟩ (Scalar.ofBits .f32 0x3F800000#32)) (logistic (addf (mulf xs ws) bs)))) h1⟩] hc)
        h2 (ix2 a j)
      = P (ix2 a q) * gate (Ideal.logistic (xs (ix2 a q) * ws (ix2 a q) + bs (ix2 a q))) j.val := by
  rw [interleave_apply hW2 _ _ h1 hc h2 a j q hq]
  unfold gate
  by_cases h0 : j.val % 2 = 0
  · rw [if_pos h0, if_pos h0]
    rfl
  · rw [if_neg h0, if_neg h0]
    show P (ix2 a q) * (Ideal.ofBits .f32 0x3F800000#32 - Ideal.logistic (xs (ix2 a q) * ws (ix2 a q) + bs (ix2 a q))) = _
    rw [ofBits_one]

end Cert.Tree

end
-- ==== Proof.BandCanon.lean ====
/-
  What a list of column-band stores leaves, read at an index.

  The contents a list of stores (last first) leaves at an index is the payload of the first store of the list whose
  rectangle holds the index. For stores that are column bands of a `[R, N]` block, each spanning every row: an index
  whose column lies in the top store's band `[o, o + w)` reads that store's payload at the same row and at the column
  counted from the band's first (`canon_band_hit`); an index whose column lies outside reads what the stores below
  left (`canon_band_miss`). A load through such a band of what earlier stores left reads, at `(r, j)`, what they left
  at `(r, o + j)` (`readCov_band_apply`).
-/
import Idealize.ShloMosaic.Lib.ValueIdx
import Idealize.ShloMosaic.Lib.Pipeline.Value

noncomputable section

namespace Cert.Tree

open Idealize.ShloMosaic Idealize.ShloMosaic.ValueIdx

variable {Val : EltTy → Type} [∀ e, Nonempty (Val e)] {e : EltTy} {R N : ℕ}

/-- The band's local index `(r, j)` is the block's index `(r, o + j)`. -/
theorem band_idx (o wd : ℕ) (inb : ∀ a, (![0, o] : Fin 2 → ℕ) a + (![R, wd] : Fin 2 → ℕ) a ≤ (⟨2, ![R, N]⟩ : Shape).size a)
    (r : Fin R) (c : Fin N) (j : Fin wd) (hc : c.val = o + j.val) :
    (Rect.unit (s := ⟨2, ![R, N]⟩) ![0, o] ![R, wd] inb).idx (ix2 r j) = ix2 r c := by
  funext a
  apply Fin.ext
  match a with
  | ⟨0, _⟩ => show 0 + 1 * r.val = r.val; omega
  | ⟨1, _⟩ => show o + 1 * j.val = c.val; omega

/-- Inside the top store's band the contents are that store's payload at the local index. -/
theorem canon_band_hit (o wd : ℕ) (inb : ∀ a, (![0, o] : Fin 2 → ℕ) a + (![R, wd] : Fin 2 → ℕ) a ≤ (⟨2, ![R, N]⟩ : Shape).size a)
    (w : (⟨2, ![R, wd]⟩ : Shape).Idx → Val e) (L : List (View.Piece Val (⟨2, ![R, N]⟩ : Shape) e))
    (r : Fin R) (c : Fin N) (j : Fin wd) (hc : c.val = o + j.val) :
    View.canon ((⟨Rect.unit (s := ⟨2, ![R, N]⟩) ![0, o] ![R, wd] inb, w⟩ : View.Piece Val (⟨2, ![R, N]⟩ : Shape) e) :: L) (ix2 r c)
      = w (ix2 r j) := by
  rw [← band_idx o wd inb r c j hc]
  exact View.canon_cons_emb (Rect.unit (s := ⟨2, ![R, N]⟩) ![0, o] ![R, wd] inb) w L (ix2 r j)

/-- Outside the top store's band the contents are what the stores below left. -/
theorem canon_band_miss (o wd : ℕ) (inb : ∀ a, (![0, o] : Fin 2 → ℕ) a + (![R, wd] : Fin 2 → ℕ) a ≤ (⟨2, ![R, N]⟩ : Shape).size a)
    (w : (⟨2, ![R, wd]⟩ : Shape).Idx → Val e) (L : List (View.Piece Val (⟨2, ![R, N]⟩ : Shape) e))
    (r : Fin R) (c : Fin N) (hc : c.val < o ∨ o + wd ≤ c.val) :
    View.canon ((⟨Rect.unit (s := ⟨2, ![R, N]⟩) ![0, o] ![R, wd] inb, w⟩ : View.Piece Val (⟨2, ![R, N]⟩ : Shape) e) :: L) (ix2 r c)
      = View.canon L (ix2 r c) := by
  refine View.canon_cons_of_not_mem _ L ?_
  show ix2 r c ∉ (Rect.unit (s := ⟨2, ![R, N]⟩) ![0, o] ![R, wd] inb).set
  rw [Rect.mem_set_unit]
  intro h
  have h1' : o ≤ c.val ∧ c.val < o + wd := h (1 : Fin 2)
  omega

/-- A load through a band of what earlier stores left reads, at `(r, j)`, what they left at `(r, o + j)`. -/
theorem readCov_band_apply {sig : RefSig} {κ : Kind} {sp : Space} (v : View sig κ sp (⟨2, ![R, N]⟩ : Shape) e)
    (L : List (View.Piece Val (⟨2, ![R, N]⟩ : Shape) e)) (o wd : ℕ)
    (inb : ∀ a, (![0, o] : Fin 2 → ℕ) a + (![R, wd] : Fin 2 → ℕ) a ≤ (⟨2, ![R, N]⟩ : Shape).size a)
    (r : Fin R) (c : Fin N) (j : Fin wd) (hc : c.val = o + j.val) :
    v.readCov L (Rect.unit (s := ⟨2, ![R, N]⟩) ![0, o] ![R, wd] inb).toLoadRect (ix2 r j) = View.canon L (ix2 r c) := by
  rw [View.readCov_eq_canon']
  show View.canon L ((Rect.unit (s := ⟨2, ![R, N]⟩) ![0, o] ![R, wd] inb).idx (ix2 r j)) = _
  rw [band_idx o wd inb r c j hc]

/-- A load through a band of a whole array reads, at `(r, j)`, the array at `(r, o + j)`. -/
theorem ld_band_apply (X : (⟨2, ![R, N]⟩ : Shape).Idx → Val e) (o wd : ℕ)
    (inb : ∀ a, (![0, o] : Fin 2 → ℕ) a + (![R, wd] : Fin 2 → ℕ) a ≤ (⟨2, ![R, N]⟩ : Shape).size a)
    (r : Fin R) (c : Fin N) (j : Fin wd) (hc : c.val = o + j.val) :
    View.ld X (Rect.unit (s := ⟨2, ![R, N]⟩) ![0, o] ![R, wd] inb) (ix2 r j) = X (ix2 r c) := by
  show X ((Rect.unit (s := ⟨2, ![R, N]⟩) ![0, o] ![R, wd] inb).idx (ix2 r j)) = _
  rw [band_idx o wd inb r c j hc]

end Cert.Tree

end
-- ==== Proof.KernelBlockStep.lean ====
/-
  One grid point's output block is the tree's masses: the argument.

  The body's stores are column bands of the [512, 2048] block. Columns 0 and 1 hold the constants zero and one. For
  each level the band `[2W, 4W)` holds the children formed from four things the body loads: the block's one-column input
  `x` (the rows' prenet outputs), the columns `[W, 2W)` of the two rows of weights and biases, and the band `[W, 2W)` of
  the block itself, read back after the earlier stores. Over a list of stores that already holds the tree's masses
  below `2W` under each row's decisions, the new band holds the masses at `[2W, 4W)` (`level_step`: the children's
  formula at an index, then the tree's recursion). The loads read through: a whole memref at given contents reads those
  contents, a band of it the contents at the band's columns, and a reshape to the same shape changes nothing.
-/
import proofs.«132556_j49718541418874_1_alg».proof.Proof.Gen.KernelIdeal.Frame.RunA
import proofs.«132556_j49718541418874_1_alg».proof.Proof.KernelLevel
import proofs.«132556_j49718541418874_1_alg».proof.Proof.BandCanon

set_option maxRecDepth 16384

noncomputable section

namespace Cert.KernelIdeal.Block

open Cert.KernelIdeal Cert.KernelIdeal.Gen Cert.Tree Idealize.ShloMosaic Idealize.ShloMosaic.TcCoe Idealize.ShloMosaic.ValueIdx Idealize.SL.Sem

variable (c : Dev nD) (arg1 : Memref sig .tc .vmem S512x1 .f32) (harg1 : arg1.IsWhole)
  (arg2 : Memref sig .tc .vmem S1x1024 .f32) (harg2 : arg2.IsWhole)
  (arg3 : Memref sig .tc .vmem S1x1024 .f32) (harg3 : arg3.IsWhole) (arg4 : Memref sig .tc .vmem S512x2048 .f32)
  (x0 : Vec Ideal S512x1 .f32) (x1 : Vec Ideal S1x1024 .f32) (x2 : Vec Ideal S1x1024 .f32)

/-- Row `r`'s decisions. -/
abbrev σ (r : Fin 512) : ℕ → EReal := sigmaRow (x0 (ix2 r 0)) x1 x2

/-- The block's row values as the body reads them: a load of the whole one-column block. -/
theorem xrow (r : Fin 512) :
    k0_pay2 (F := Ideal) (View.readAt (Elt Ideal) arg1.view (Rect.unit ![0, 0] S512x1.size inb_S512x1_S512x1_0_0).toLoadRect (harg1.unread x0)) (ix2 r 0)
      = x0 (ix2 r 0) := by
  unfold k0_pay2
  dsimp only
  rw [shapeCast_self, View.readAt_eq_ld, harg1.read_unread]
  exact ld_band_apply x0 0 1 _ r 0 0 rfl

/-- A band `[W, 2W)` of a row of weights or biases, loaded, reshaped to its own shape and spread over the rows, reads the
    row's entry at the band's column. -/
theorem wrow {W : ℕ} (arg : Memref sig .tc .vmem S1x1024 .f32) (harg : arg.IsWhole) (X : Vec Ideal S1x1024 .f32)
    (inb : ∀ a, (![0, W] : Fin 2 → ℕ) a + (![1, W] : Fin 2 → ℕ) a ≤ S1x1024.size a)
    (hsc : (⟨2, ![1, W]⟩ : Shape).ShapeCasts ⟨2, ![1, W]⟩) (hbw : (⟨2, ![1, W]⟩ : Shape).Broadcasts ⟨2, ![512, W]⟩)
    (r : Fin 512) (q : Fin W) (n : Fin 1024) (hn : n.val = W + q.val) :
    broadcastTo ⟨2, ![512, W]⟩
        (shapeCast ⟨2, ![1, W]⟩ (View.readAt (Elt Ideal) arg.view (Rect.unit (s := S1x1024) ![0, W] ![1, W] inb).toLoadRect (harg.unread X)) hsc)
        hbw (ix2 r q)
      = X (ix2 0 n) := by
  refine (spreadRow_apply _ hbw r q).trans ((congrFun (shapeCast_self (s := ⟨2, ![1, W]⟩) _ hsc) _).trans ?_)
  rw [View.readAt_eq_ld, harg.read_unread]
  exact ld_band_apply X W W inb 0 n q hn

/-- The band `[W, 2W)` of the block, read back out of a list of stores and reshaped to its own shape, reads what the list
    left at the band's column. -/
theorem prow {W : ℕ} (L : List (View.Piece (Elt Ideal) S512x2048 .f32))
    (inb : ∀ a, (![0, W] : Fin 2 → ℕ) a + (![512, W] : Fin 2 → ℕ) a ≤ S512x2048.size a)
    (hsc : (⟨2, ![512, W]⟩ : Shape).ShapeCasts ⟨2, ![512, W]⟩)
    (r : Fin 512) (q : Fin W) (n : Fin 2048) (hn : n.val = W + q.val) :
    shapeCast ⟨2, ![512, W]⟩ (arg4.view.readCov L (Rect.unit (s := S512x2048) ![0, W] ![512, W] inb).toLoadRect) hsc (ix2 r q)
      = View.canon L (ix2 r n) :=
  (congrFun (shapeCast_self (s := ⟨2, ![512, W]⟩) _ hsc) _).trans (readCov_band_apply arg4.view L W W inb r n q hn)

/-- The two constant columns: column 0 holds zero, column 1 holds one. -/
theorem canon2 (r : Fin 512) (p : Fin 2048) (hp : p.val < 2) :
    View.canon (kernelRun0_A.sl.H3_2 (F := Ideal)) (ix2 r p) = mu (σ x0 x1 x2 r) p.val := by
  unfold kernelRun0_A.sl.H3_2
  by_cases h : p.val = 1
  · refine (canon_band_hit 1 1 _ _ _ r p (0 : Fin 1) (by show p.val = 1 + 0; omega)).trans ?_
    rw [h, mu_one]
    unfold k0_pay4
    exact ofBits_one
  · have h0 : p.val = 0 := by omega
    refine (canon_band_miss 1 1 _ _ _ r p (Or.inl (by omega))).trans ?_
    refine (canon_band_hit 0 1 _ _ _ r p (0 : Fin 1) (by show p.val = 0 + 0; omega)).trans ?_
    rw [h0, mu_zero]
    unfold k0_pay3
    exact IdealRules.sign_bit.ideal_zero .f32

/-- One level: children formed from a row value array `xs`, weights `ws`, biases `bs` and parents' masses `P` that read,
    at `(r, q)`, the row's value, the weight and the bias of node `W + q` and the mass at position `W + q`, are the tree's
    masses at the positions `[2W, 4W)`. -/
theorem level_step {W W2 : ℕ} (hW : 1 ≤ W) (hW2 : W2 = 2 * W) (hN : W2 ≤ 1024)
    (xs ws bs P : FVec Ideal (⟨2, ![512, W]⟩ : Shape) .f32)
    (hxs : ∀ (r : Fin 512) (q : Fin W), xs (ix2 r q) = x0 (ix2 r 0))
    (hws : ∀ (r : Fin 512) (q : Fin W) (n : Fin 1024), n.val = W + q.val → ws (ix2 r q) = x1 (ix2 0 n))
    (hbs : ∀ (r : Fin 512) (q : Fin W) (n : Fin 1024), n.val = W + q.val → bs (ix2 r q) = x2 (ix2 0 n))
    (hP : ∀ (r : Fin 512) (q : Fin W) (n : Fin 2048), n.val = W + q.val → P (ix2 r q) = mu (σ x0 x1 x2 r) n.val)
    (h1 : (⟨2, ![512, W]⟩ : Shape).ShapeCasts ⟨3, ![512, W, 1]⟩)
    (hc : Shape.Concatenates [(⟨3, ![512, W, 1]⟩ : Shape), ⟨3, ![512, W, 1]⟩] ⟨3, ![512, W, 2]⟩ 2)
    (h2 : (⟨3, ![512, W, 2]⟩ : Shape).ShapeCasts ⟨2, ![512, W2]⟩)
    (r : Fin 512) (j : Fin W2) (p : Fin 2048) (hp : p.val = W2 + j.val) :
    shapeCast ⟨2, ![512, W2]⟩
        (concatenate ⟨3, ![512, W, 2]⟩ 2
          [⟨⟨3, ![512, W, 1]⟩, shapeCast ⟨3, ![512, W, 1]⟩ (mulf P (logistic (addf (mulf xs ws) bs))) h1⟩,
           ⟨⟨3, ![512, W, 1]⟩, shapeCast ⟨3, ![512, W, 1]⟩
              (mulf P (subf (broadcast ⟨2, ![512, W]⟩ (Scalar.ofBits .f32 0x3F800000#32)) (logistic (addf (mulf xs ws) bs)))) h1⟩] hc)
        h2 (ix2 r j)
      = mu (σ x0 x1 x2 r) p.val := by
  subst hW2
  have hj := j.isLt
  have hq : j.val / 2 < W := by omega
  have hn : W + j.val / 2 < 1024 := by omega
  have hc4 : W + j.val / 2 < 2048 := by omega
  refine (children_apply rfl _ _ _ _ h1 hc h2 r j ⟨j.val / 2, hq⟩ rfl).trans ?_
  rw [hxs, hws r ⟨j.val / 2, hq⟩ ⟨W + j.val / 2, hn⟩ rfl, hbs r ⟨j.val / 2, hq⟩ ⟨W + j.val / 2, hn⟩ rfl,
    hP r ⟨j.val / 2, hq⟩ ⟨W + j.val / 2, hc4⟩ rfl,
    ← sigmaRow_of_lt (x0 (ix2 r 0)) x1 x2 (W + j.val / 2) hn, hp]
  exact (mu_child (σ x0 x1 x2 r) W j.val hW).symm

end Cert.KernelIdeal.Block

end
-- ==== Proof.KernelBlock.lean ====
/-
  One grid point's output block is the tree's masses, level by level.

  The stores of one grid point are listed last first, each level's band on top of the list before it. Starting from the
  two constant columns (KernelBlockStep.lean, canon2) each level's list holds, at every column below its band's end, the
  tree's mass at that column under the row's decisions: below the band by the list before, inside it by the level step
  (KernelBlockStep.lean, level_step) applied to what that level's store holds. After the tenth level that is every
  column of the block. -/
import proofs.«132556_j49718541418874_1_alg».proof.Proof.KernelBlockStep

set_option maxRecDepth 16384

noncomputable section

namespace Cert.KernelIdeal.Block

open Cert.KernelIdeal Cert.KernelIdeal.Gen Cert.Tree Idealize.ShloMosaic Idealize.ShloMosaic.TcCoe Idealize.ShloMosaic.ValueIdx Idealize.SL.Sem

variable (c : Dev nD) (arg1 : Memref sig .tc .vmem S512x1 .f32) (harg1 : arg1.IsWhole)
  (arg2 : Memref sig .tc .vmem S1x1024 .f32) (harg2 : arg2.IsWhole)
  (arg3 : Memref sig .tc .vmem S1x1024 .f32) (harg3 : arg3.IsWhole) (arg4 : Memref sig .tc .vmem S512x2048 .f32)
  (x0 : Vec Ideal S512x1 .f32) (x1 : Vec Ideal S1x1024 .f32) (x2 : Vec Ideal S1x1024 .f32)

/-- With the band [2, 4) on top, the columns below 4 hold the tree's masses. -/
theorem canon4 (r : Fin 512) (p : Fin 2048) (hp : p.val < 4) :
    View.canon (kernelRun0_A.sl.H3_3 c arg1 harg1 arg2 harg2 arg3 harg3 arg4 x0 x1 x2) (ix2 r p) = mu (σ x0 x1 x2 r) p.val := by
  unfold kernelRun0_A.sl.H3_3
  by_cases h : p.val < 2
  · exact (canon_band_miss 2 2 _ _ _ r p (Or.inl h)).trans (canon2 x0 x1 x2 r p h)
  · have hj : p.val - 2 < 2 := by omega
    refine (canon_band_hit 2 2 _ _ _ r p ⟨p.val - 2, hj⟩ (by show p.val = 2 + (p.val - 2); omega)).trans ?_
    unfold k0_pay5 kernelRun0_A.sl.v10
    dsimp only
    refine level_step x0 x1 x2 (W := 1) (W2 := 2) (by norm_num) rfl (by norm_num) _ _ _ _ ?_ ?_ ?_ ?_ _ _ _
      r ⟨p.val - 2, hj⟩ p (by show p.val = 2 + (p.val - 2); omega)
    · exact fun r q => by rw [Subsingleton.elim q 0]; exact xrow arg1 harg1 x0 r
    · exact fun r q n hn => wrow arg2 harg2 x1 _ _ _ r q n hn
    · exact fun r q n hn => wrow arg3 harg3 x2 _ _ _ r q n hn
    · exact fun r q n hn => (prow arg4 _ _ _ r q n hn).trans (canon2 x0 x1 x2 r n (by have := q.isLt; omega))

/-- With the band [4, 8) on top, the columns below 8 hold the tree's masses. -/
theorem canon8 (r : Fin 512) (p : Fin 2048) (hp : p.val < 8) :
    View.canon (kernelRun0_A.sl.H3_4 c arg1 harg1 arg2 harg2 arg3 harg3 arg4 x0 x1 x2) (ix2 r p) = mu (σ x0 x1 x2 r) p.val := by
  unfold kernelRun0_A.sl.H3_4
  by_cases h : p.val < 4
  · exact (canon_band_miss 4 4 _ _ _ r p (Or.inl h)).trans (canon4 c arg1 harg1 arg2 harg2 arg3 harg3 arg4 x0 x1 x2 r p h)
  · have hj : p.val - 4 < 4 := by omega
    refine (canon_band_hit 4 4 _ _ _ r p ⟨p.val - 4, hj⟩ (by show p.val = 4 + (p.val - 4); omega)).trans ?_
    unfold k0_pay10 kernelRun0_A.sl.r_1 kernelRun0_A.sl.r_2 kernelRun0_A.sl.r_3 kernelRun0_A.sl.r_4 k0_pay6 k0_pay7 k0_pay8 k0_pay9 kernelRun0_A.sl.v30
    dsimp only
    refine level_step x0 x1 x2 (W := 2) (W2 := 4) (by norm_num) rfl (by norm_num) _ _ _ _ ?_ ?_ ?_ ?_ _ _ _
      r ⟨p.val - 4, hj⟩ p (by show p.val = 4 + (p.val - 4); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon4 c arg1 harg1 arg2 harg2 arg3 harg3 arg4 x0 x1 x2 r n (by have := q.isLt; omega))

/-- With the band [8, 16) on top, the columns below 16 hold the tree's masses. -/
theorem canon16 (r : Fin 512) (p : Fin 2048) (hp : p.val < 16) :
    View.canon (kernelRun0_A.sl.H3_5 c arg1 harg1 arg2 harg2 arg3 harg3 arg4 x0 x1 x2) (ix2 r p) = mu (σ x0 x1 x2 r) p.val := by
  unfold kernelRun0_A.sl.H3_5
  by_cases h : p.val < 8
  · exact (canon_band_miss 8 8 _ _ _ r p (Or.inl h)).trans (canon8 c arg1 harg1 arg2 harg2 arg3 harg3 arg4 x0 x1 x2 r p h)
  · have hj : p.val - 8 < 8 := by omega
    refine (canon_band_hit 8 8 _ _ _ r p ⟨p.val - 8, hj⟩ (by show p.val = 8 + (p.val - 8); omega)).trans ?_
    unfold k0_pay11 kernelRun0_A.sl.r kernelRun0_A.sl.v51
    dsimp only
    refine level_step x0 x1 x2 (W := 4) (W2 := 8) (by norm_num) rfl (by norm_num) _ _ _ _ ?_ ?_ ?_ ?_ _ _ _
      r ⟨p.val - 8, hj⟩ p (by show p.val = 8 + (p.val - 8); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon8 c arg1 harg1 arg2 harg2 arg3 harg3 arg4 x0 x1 x2 r n (by have := q.isLt; omega))

/-- With the band [16, 32) on top, the columns below 32 hold the tree's masses. -/
theorem canon32 (r : Fin 512) (p : Fin 2048) (hp : p.val < 32) :
    View.canon (kernelRun0_A.sl.H3_6 c arg1 harg1 arg2 harg2 arg3 harg3 arg4 x0 x1 x2) (ix2 r p) = mu (σ x0 x1 x2 r) p.val := by
  unfold kernelRun0_A.sl.H3_6
  by_cases h : p.val < 16
  · exact (canon_band_miss 16 16 _ _ _ r p (Or.inl h)).trans (canon16 c arg1 harg1 arg2 harg2 arg3 harg3 arg4 x0 x1 x2 r p h)
  · have hj : p.val - 16 < 16 := by omega
    refine (canon_band_hit 16 16 _ _ _ r p ⟨p.val - 16, hj⟩ (by show p.val = 16 + (p.val - 16); omega)).trans ?_
    unfold k0_pay14 kernelRun0_A.sl.r kernelRun0_A.sl.r_5 kernelRun0_A.sl.r_6 k0_pay12 k0_pay13 kernelRun0_A.sl.v72
    dsimp only
    refine level_step x0 x1 x2 (W := 8) (W2 := 16) (by norm_num) rfl (by norm_num) _ _ _ _ ?_ ?_ ?_ ?_ _ _ _
      r ⟨p.val - 16, hj⟩ p (by show p.val = 16 + (p.val - 16); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon16 c arg1 harg1 arg2 harg2 arg3 harg3 arg4 x0 x1 x2 r n (by have := q.isLt; omega))

/-- With the band [32, 64) on top, the columns below 64 hold the tree's masses. -/
theorem canon64 (r : Fin 512) (p : Fin 2048) (hp : p.val < 64) :
    View.canon (kernelRun0_A.sl.H3_7 c arg1 harg1 arg2 harg2 arg3 harg3 arg4 x0 x1 x2) (ix2 r p) = mu (σ x0 x1 x2 r) p.val := by
  unfold kernelRun0_A.sl.H3_7
  by_cases h : p.val < 32
  · exact (canon_band_miss 32 32 _ _ _ r p (Or.inl h)).trans (canon32 c arg1 harg1 arg2 harg2 arg3 harg3 arg4 x0 x1 x2 r p h)
  · have hj : p.val - 32 < 32 := by omega
    refine (canon_band_hit 32 32 _ _ _ r p ⟨p.val - 32, hj⟩ (by show p.val = 32 + (p.val - 32); omega)).trans ?_
    unfold k0_pay15 kernelRun0_A.sl.r kernelRun0_A.sl.v93
    dsimp only
    refine level_step x0 x1 x2 (W := 16) (W2 := 32) (by norm_num) rfl (by norm_num) _ _ _ _ ?_ ?_ ?_ ?_ _ _ _
      r ⟨p.val - 32, hj⟩ p (by show p.val = 32 + (p.val - 32); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon32 c arg1 harg1 arg2 harg2 arg3 harg3 arg4 x0 x1 x2 r n (by have := q.isLt; omega))

/-- With the band [64, 128) on top, the columns below 128 hold the tree's masses. -/
theorem canon128 (r : Fin 512) (p : Fin 2048) (hp : p.val < 128) :
    View.canon (kernelRun0_A.sl.H3_8 c arg1 harg1 arg2 harg2 arg3 harg3 arg4 x0 x1 x2) (ix2 r p) = mu (σ x0 x1 x2 r) p.val := by
  unfold kernelRun0_A.sl.H3_8
  by_cases h : p.val < 64
  · exact (canon_band_miss 64 64 _ _ _ r p (Or.inl h)).trans (canon64 c arg1 harg1 arg2 harg2 arg3 harg3 arg4 x0 x1 x2 r p h)
  · have hj : p.val - 64 < 64 := by omega
    refine (canon_band_hit 64 64 _ _ _ r p ⟨p.val - 64, hj⟩ (by show p.val = 64 + (p.val - 64); omega)).trans ?_
    unfold k0_pay18 kernelRun0_A.sl.r kernelRun0_A.sl.r_7 kernelRun0_A.sl.r_8 k0_pay16 k0_pay17 kernelRun0_A.sl.v114
    dsimp only
    refine level_step x0 x1 x2 (W := 32) (W2 := 64) (by norm_num) rfl (by norm_num) _ _ _ _ ?_ ?_ ?_ ?_ _ _ _
      r ⟨p.val - 64, hj⟩ p (by show p.val = 64 + (p.val - 64); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon64 c arg1 harg1 arg2 harg2 arg3 harg3 arg4 x0 x1 x2 r n (by have := q.isLt; omega))

/-- With the band [128, 256) on top, the columns below 256 hold the tree's masses. -/
theorem canon256 (r : Fin 512) (p : Fin 2048) (hp : p.val < 256) :
    View.canon (kernelRun0_A.sl.H3_9 c arg1 harg1 arg2 harg2 arg3 harg3 arg4 x0 x1 x2) (ix2 r p) = mu (σ x0 x1 x2 r) p.val := by
  unfold kernelRun0_A.sl.H3_9
  by_cases h : p.val < 128
  · exact (canon_band_miss 128 128 _ _ _ r p (Or.inl h)).trans (canon128 c arg1 harg1 arg2 harg2 arg3 harg3 arg4 x0 x1 x2 r p h)
  · have hj : p.val - 128 < 128 := by omega
    refine (canon_band_hit 128 128 _ _ _ r p ⟨p.val - 128, hj⟩ (by show p.val = 128 + (p.val - 128); omega)).trans ?_
    unfold k0_pay19 kernelRun0_A.sl.r kernelRun0_A.sl.v135
    dsimp only
    refine level_step x0 x1 x2 (W := 64) (W2 := 128) (by norm_num) rfl (by norm_num) _ _ _ _ ?_ ?_ ?_ ?_ _ _ _
      r ⟨p.val - 128, hj⟩ p (by show p.val = 128 + (p.val - 128); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon128 c arg1 harg1 arg2 harg2 arg3 harg3 arg4 x0 x1 x2 r n (by have := q.isLt; omega))

/-- With the band [256, 512) on top, the columns below 512 hold the tree's masses. -/
theorem canon512 (r : Fin 512) (p : Fin 2048) (hp : p.val < 512) :
    View.canon (kernelRun0_A.sl.H3_10 c arg1 harg1 arg2 harg2 arg3 harg3 arg4 x0 x1 x2) (ix2 r p) = mu (σ x0 x1 x2 r) p.val := by
  unfold kernelRun0_A.sl.H3_10
  by_cases h : p.val < 256
  · exact (canon_band_miss 256 256 _ _ _ r p (Or.inl h)).trans (canon256 c arg1 harg1 arg2 harg2 arg3 harg3 arg4 x0 x1 x2 r p h)
  · have hj : p.val - 256 < 256 := by omega
    refine (canon_band_hit 256 256 _ _ _ r p ⟨p.val - 256, hj⟩ (by show p.val = 256 + (p.val - 256); omega)).trans ?_
    unfold k0_pay21 kernelRun0_A.sl.r kernelRun0_A.sl.r_9 kernelRun0_A.sl.r_10 k0_pay20 kernelRun0_A.sl.v156
    dsimp only
    refine level_step x0 x1 x2 (W := 128) (W2 := 256) (by norm_num) rfl (by norm_num) _ _ _ _ ?_ ?_ ?_ ?_ _ _ _
      r ⟨p.val - 256, hj⟩ p (by show p.val = 256 + (p.val - 256); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon256 c arg1 harg1 arg2 harg2 arg3 harg3 arg4 x0 x1 x2 r n (by have := q.isLt; omega))

/-- With the band [512, 1024) on top, the columns below 1024 hold the tree's masses. -/
theorem canon1024 (r : Fin 512) (p : Fin 2048) (hp : p.val < 1024) :
    View.canon (kernelRun0_A.sl.H3_11 c arg1 harg1 arg2 harg2 arg3 harg3 arg4 x0 x1 x2) (ix2 r p) = mu (σ x0 x1 x2 r) p.val := by
  unfold kernelRun0_A.sl.H3_11
  by_cases h : p.val < 512
  · exact (canon_band_miss 512 512 _ _ _ r p (Or.inl h)).trans (canon512 c arg1 harg1 arg2 harg2 arg3 harg3 arg4 x0 x1 x2 r p h)
  · have hj : p.val - 512 < 512 := by omega
    refine (canon_band_hit 512 512 _ _ _ r p ⟨p.val - 512, hj⟩ (by show p.val = 512 + (p.val - 512); omega)).trans ?_
    unfold k0_pay22 kernelRun0_A.sl.r kernelRun0_A.sl.v177
    dsimp only
    refine level_step x0 x1 x2 (W := 256) (W2 := 512) (by norm_num) rfl (by norm_num) _ _ _ _ ?_ ?_ ?_ ?_ _ _ _
      r ⟨p.val - 512, hj⟩ p (by show p.val = 512 + (p.val - 512); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon512 c arg1 harg1 arg2 harg2 arg3 harg3 arg4 x0 x1 x2 r n (by have := q.isLt; omega))

/-- The leaves, the band [1024, 2048): with it every column of the block holds the tree's mass under its row's decisions. -/
theorem block (i : grid0.Coords) (harg4 : arg4.IsWhole) (r : Fin 512) (p : Fin 2048) :
    View.canon (kernelRun0_A (F := Ideal) c i arg1 harg1 arg2 harg2 arg3 harg3 arg4 harg4 x0 x1 x2).1 (ix2 r p) = mu (σ x0 x1 x2 r) p.val := by
  have hp : p.val < 2048 := p.isLt
  unfold kernelRun0_A
  dsimp only
  by_cases h : p.val < 1024
  · exact (canon_band_miss 1024 1024 _ _ _ r p (Or.inl h)).trans (canon1024 c arg1 harg1 arg2 harg2 arg3 harg3 arg4 x0 x1 x2 r p h)
  · have hj : p.val - 1024 < 1024 := by omega
    refine (canon_band_hit 1024 1024 _ _ _ r p ⟨p.val - 1024, hj⟩ (by show p.val = 1024 + (p.val - 1024); omega)).trans ?_
    unfold k0_pay1 kernelRun0_A.sl.r kernelRun0_A.sl.r_11 k0_pay23 kernelRun0_A.sl.v198
    dsimp only
    refine level_step x0 x1 x2 (W := 512) (W2 := 1024) (by norm_num) rfl (by norm_num) _ _ _ _ ?_ ?_ ?_ ?_ _ _ _
      r ⟨p.val - 1024, hj⟩ p (by show p.val = 1024 + (p.val - 1024); omega)
    · exact fun r q => (spreadColumn_apply _ _ r q).trans (xrow arg1 harg1 x0 r)
    · exact fun r q n hn => wrow arg2 harg2 x1 _ _ _ r q n hn
    · exact fun r q n hn => wrow arg3 harg3 x2 _ _ _ r q n hn
    · exact fun r q n hn => (prow arg4 _ _ _ r q n hn).trans (canon1024 c arg1 harg1 arg2 harg2 arg3 harg3 arg4 x0 x1 x2 r n (by have := q.isLt; omega))

end Cert.KernelIdeal.Block

end
-- ==== Proof.KernelValue.lean ====
/-
  The kernel's result array is the routing array of what its region finds.

  The region's 64 grid points each take a tile of 512 rows: point `t` reads rows `[512 t, 512 t + 512)` of the prenet's
  output (one column), the whole rows of weights and biases, and writes back the same rows of the `[32768, 2048]` result.
  One point's block is the tree's masses under each of its rows' decisions (KernelBlock.lean); a row of the tile is row
  `512 t + r` of the array, and the weights and biases are the same for every tile. So every point's write-back is block
  `t` of ONE array — row `b`, column `p`: the mass at position `p` under row `b`'s decisions —, the 64 blocks cover the
  rows, and the result array after the run is that array.
-/
import proofs.«132556_j49718541418874_1_alg».proof.Proof.KernelIdealValueP
import proofs.«132556_j49718541418874_1_alg».proof.Proof.KernelBlock

set_option maxRecDepth 16384

noncomputable section

namespace Cert.KernelIdeal.Array

open Cert.KernelIdeal Cert.KernelIdeal.Gen Cert.KernelIdeal.GenP Cert.KernelIdeal.ValueP Cert.Tree
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three arrays the region finds, and a point's three input blocks, at their literal types. -/
abbrev xarr (c : Dev nD) : Vec Ideal S32768x1 .f32 := V m c main_v49
abbrev warr (c : Dev nD) : Vec Ideal S1x1024 .f32 := V m c main_v52
abbrev barr (c : Dev nD) : Vec Ideal S1x1024 .f32 := V m c main_v53
abbrev xblk (c : Dev nD) (t : Fin cfg0.N) : Vec Ideal S512x1 .f32 := iblk m c 0 t
abbrev wblk (c : Dev nD) (t : Fin cfg0.N) : Vec Ideal S1x1024 .f32 := iblk m c 1 t
abbrev bblk (c : Dev nD) (t : Fin cfg0.N) : Vec Ideal S1x1024 .f32 := iblk m c 2 t

/-- The routing array over the rows' values `x` and the two rows of weights and biases: row `b`, column `p` holds the mass
    at position `p` under row `b`'s decisions. -/
def rows (x : Vec Ideal S32768x1 .f32) (w b : Vec Ideal S1x1024 .f32) : S32768x2048.Idx → EReal :=
  fun i => mu (sigmaRow (x (ix2 (n0 := 32768) (i 0) 0)) w b) (i 1).val

/-- The index maps over the 64 points: the row tiles move with the point, everything else stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the routing array of what the region finds. -/
theorem flushed3_eq (c : Dev nD) (t : Fin cfg0.N) :
    (dats m 0 c).flushed 3 t = ((cfg0.win 3).blk t).view.read (Elt Ideal) (rows (xarr m c) (warr m c) (barr m c)) := by
  rw [flushed3_A]
  unfold out0_A_3
  rw [View.read_writes_junk_eq_canon]
  obtain ⟨e0, e1, e2, e3, e4, e5, e6, e7⟩ := idx_facts t
  refine funext fun (j : S512x2048.Idx) => ?_
  obtain ⟨r, p, rfl⟩ : ∃ (r : Fin 512) (p : Fin 2048), j = ix2 r p := ⟨j 0, j 1, eq_ix2 j⟩
  show View.canon (kernelRun0_A (F := Ideal) c (grid0.coords t) (ms0_0 t) (hs0_0 t) (ms0_1 t) (hs0_1 t) (ms0_2 t) (hs0_2 t) (ms0_3 t) (hs0_3 t)
        (xblk m c t) (wblk m c t) (bblk m c t)).1 (ix2 r p)
      = rows (xarr m c) (warr m c) (barr m c) (((cfg0.win 3).blk t).view.emb (ix2 r p))
  rw [Block.block c (ms0_0 t) (hs0_0 t) (ms0_1 t) (hs0_1 t) (ms0_2 t) (hs0_2 t) (ms0_3 t) (xblk m c t) (wblk m c t) (bblk m c t)
    (grid0.coords t) (hs0_3 t) r p]
  have hx : xblk m c t (ix2 r 0) = xarr m c (ix2 (n0 := 32768) ((((cfg0.win 3).blk t).view.emb (ix2 r p)) 0) 0) := by
    show xarr m c (((cfg0.win 0).blk t).view.emb (ix2 r 0)) = _
    congr 1
    funext a
    apply Fin.ext
    match a with
    | ⟨0, _⟩ => show win0_0.index t (0 : Fin 2) * 512 + 1 * r.val = win0_3.index t (0 : Fin 2) * 512 + 1 * r.val; omega
    | ⟨1, _⟩ => show win0_0.index t (1 : Fin 2) * 1 + 1 * 0 = 0; omega
  have hw : wblk m c t = warr m c := by
    funext y
    show warr m c (((cfg0.win 1).blk t).view.emb y) = warr m c y
    congr 1
    funext a
    apply Fin.ext
    match a with
    | ⟨0, _⟩ => show win0_1.index t (0 : Fin 2) * 1 + 1 * (y 0).val = (y 0).val; omega
    | ⟨1, _⟩ => show win0_1.index t (1 : Fin 2) * 1024 + 1 * (y 1).val = (y 1).val; omega
  have hb : bblk m c t = barr m c := by
    funext y
    show barr m c (((cfg0.win 2).blk t).view.emb y) = barr m c y
    congr 1
    funext a
    apply Fin.ext
    match a with
    | ⟨0, _⟩ => show win0_2.index t (0 : Fin 2) * 1 + 1 * (y 0).val = (y 0).val; omega
    | ⟨1, _⟩ => show win0_2.index t (1 : Fin 2) * 1024 + 1 * (y 1).val = (y 1).val; omega
  have hp : ((((cfg0.win 3).blk t).view.emb (ix2 r p)) 1).val = p.val := by
    show win0_3.index t (1 : Fin 2) * 2048 + 1 * p.val = p.val
    omega
  show mu (sigmaRow (xblk m c t (ix2 r 0)) (wblk m c t) (bblk m c t)) p.val = _
  unfold rows
  rw [hx, hw, hb, hp]

/-- The result array after the region: the routing array of what the region finds. -/
theorem final (c : Dev nD) : (dats m 0 c).arrAt 3 cfg0.N = rows (xarr m c) (warr m c) (barr m c) :=
  (dats m 0 c).arrAt_eq_of_cover 3 _ (fun t _ => flushed3_eq m c t) fun i => by
    have hi0 : (i 0 : ℕ) < 32768 := (i 0).isLt
    have hi1 : (i 1 : ℕ) < 2048 := (i 1).isLt
    have htl : (i 0 : ℕ) / 512 < cfg0.N := by
      show (i 0 : ℕ) / 512 < grid0.N
      rw [N_0]
      omega
    obtain ⟨-, -, -, -, -, -, e6, e7⟩ := idx_facts ⟨(i 0 : ℕ) / 512, htl⟩
    refine ⟨⟨(i 0 : ℕ) / 512, htl⟩, flush0_3 _, ?_⟩
    show i ∈ ((View.whole main_v54).slice (win0_3.rect ⟨(i 0 : ℕ) / 512, htl⟩)).set
    rw [View.set_slice_whole, Rect.mem_set_unit]
    intro a
    match a with
    | ⟨0, _⟩ =>
      show win0_3.index ⟨(i 0 : ℕ) / 512, htl⟩ (0 : Fin 2) * 512 ≤ (i 0 : ℕ) ∧ (i 0 : ℕ) < win0_3.index ⟨(i 0 : ℕ) / 512, htl⟩ (0 : Fin 2) * 512 + 512
      rw [e6]
      show (i 0 : ℕ) / 512 * 512 ≤ (i 0 : ℕ) ∧ (i 0 : ℕ) < (i 0 : ℕ) / 512 * 512 + 512
      omega
    | ⟨1, _⟩ =>
      show win0_3.index ⟨(i 0 : ℕ) / 512, htl⟩ (1 : Fin 2) * 2048 ≤ (i 1 : ℕ) ∧ (i 1 : ℕ) < win0_3.index ⟨(i 0 : ℕ) / 512, htl⟩ (1 : Fin 2) * 2048 + 2048
      rw [e7]
      omega

/-- The kernel's run: the result ends at the routing array of what the region finds, the arguments unchanged. -/
theorem run : θ_run defs (onTc (τ := τ) (main (F := Ideal))) ⟨m, fun _ => 0, ρ⟩ fun r => ∀ c : Dev nD,
      r.2.mem ((c : Thread nD τ).loc main_v54) = rows (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.Array

end
-- ==== Proof.RefOps.lean ====
/-
  The reference program's @main as a sequence of host operations, and its run.

  @main is a straight line of 218 tensor operations once the four calls of module-local functions are replaced by
  the callees' bodies over the calls' own buffers. The line is cut into lists: nine for statements 1 ... 60 (a cut at
  every call), then the decision values, the root of the tree, one list per tree level, and the closing operations.
  @main equals the sequence of the whole line: each printed window equals the sequence of its lists by unfolding, and
  sequences of lists compose to the sequence of their concatenation. Every operation reads and writes TensorCore
  references only and determines its results, list by list, hence over the concatenation. So every weakly fair
  execution terminates with each buffer at the fold of the operations' results over the launch contents. -/
import proofs.«132556_j49718541418874_1_alg».proof.Proof.Gen.ReferenceIdeal
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The program type of @main's windows. -/
abbrev MainProg (F : FTy → Type) [FloatOps F] : Type 1 :=
  Prog (TpuEff nD τ sig (Elt F) (Pipeline.Sig Λ₀ (Fin 0) fun p => (pcfgs (F := F) p).Adm) .tc) PUnit

/-- @main's own operations between two calls (statements 1 ... 60, piece 0 of 9). -/
abbrev opsPre0 : List (HloOp τ sig (Elt F)) :=
  [ StableHlo.unary main_arg1 main_v0 ((transpose S1x16 [1, 0] · transposes_S16x1_S1x16_1_0) : (⟨S16x1, .f32⟩ : BufTy).Contents (Elt F) → (⟨S1x16, .f32⟩ : BufTy).Contents (Elt F)),
    StableHlo.binary main_arg0 main_v0 main_v1 ((fun l r => Host.dotGeneral dot_S32768x1_S1x16_S32768x16_1_0_0_1_n_n none l r) : (⟨S32768x1, .f32⟩ : BufTy).Contents (Elt F) → (⟨S1x16, .f32⟩ : BufTy).Contents (Elt F) → (⟨S32768x16, .f32⟩ : BufTy).Contents (Elt F)),
    StableHlo.unary main_arg2 main_v2 (broadcastInDim S1x16 ![1] bcast_S16_S1x16_1 : (⟨S16, .f32⟩ : BufTy).Contents (Elt F) → (⟨S1x16, .f32⟩ : BufTy).Contents (Elt F)),
    StableHlo.unary main_v2 main_v3 (broadcastInDim S32768x16 ![0, 1] bcast_S1x16_S32768x16_0_1 : (⟨S1x16, .f32⟩ : BufTy).Contents (Elt F) → (⟨S32768x16, .f32⟩ : BufTy).Contents (Elt F)),
    StableHlo.binary main_v1 main_v3 main_v4 (addf : (⟨S32768x16, .f32⟩ : BufTy).Contents (Elt F) → (⟨S32768x16, .f32⟩ : BufTy).Contents (Elt F) → (⟨S32768x16, .f32⟩ : BufTy).Contents (Elt F)),
    StableHlo.nullary main_cst (constant S_ .f32 0x3C23D70A#32) ]
theorem opsPre0_sub : (opsPre0 : List (HloOp τ sig (Elt F))).Forall fun op => op.bufs ⊆ tcRefs τ sig :=
  ⟨unary_bufs_sub .., binary_bufs_sub .., unary_bufs_sub .., unary_bufs_sub .., binary_bufs_sub .., nullary_bufs_sub ..⟩
theorem opsPre0_fresh : (opsPre0 : List (HloOp τ sig (Elt F))).Forall fun op => op.fresh = ∅ :=
  ⟨rfl, rfl, rfl, rfl, rfl, rfl⟩

/-- The operations of the call of a module-local function, in order, over that call's buffers (statements 1 ... 60, piece 1 of 9). -/
abbrev opsPre1 : List (HloOp τ sig (Elt F)) :=
  [ StableHlo.TRef.nullary main_call0.cst (constant S_ .f32 0x00000000#32),
    StableHlo.TRef.unary main_call0.cst main_call0.v0 (broadcastInDim S32768x16 ![] bcast_S_S32768x16),
    StableHlo.TRef.binary (.of main_v4 : StableHlo.TRef sig ⟨S32768x16, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S32768x16 ![] bcast_S_S32768x16),
    StableHlo.TRef.binary main_call0.v3 (.of main_v4 : StableHlo.TRef sig ⟨S32768x16, .f32⟩) main_call0.v4 mulf,
    StableHlo.TRef.ternary main_call0.v1 (.of main_v4 : StableHlo.TRef sig ⟨S32768x16, .f32⟩) main_call0.v4 main_call0.call0.v0 select ]
theorem opsPre1_sub : (opsPre1 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem opsPre1_fresh : (opsPre1 : List (HloOp τ sig (Elt F))).Forall fun op => op.fresh = ∅ :=
  ⟨rfl, rfl, rfl, rfl, rfl, rfl, rfl⟩

/-- @main's own operations between two calls (statements 1 ... 60, piece 2 of 9). -/
abbrev opsPre2 : List (HloOp τ sig (Elt F)) :=
  [ StableHlo.nullary main_cst_0 (constant S_ .f32 0x00000000#32),
    StableHlo.binary main_v5 main_cst_0 main_v6 ((fun x v => Host.reduceAdd x v reducesTo_S32768x16_S16_d0 h_S_) : (⟨S32768x16, .f32⟩ : BufTy).Contents (Elt F) → (⟨S_, .f32⟩ : BufTy).Contents (Elt F) → (⟨S16, .f32⟩ : BufTy).Contents (Elt F)),
    StableHlo.nullary main_cst_1 (constant S_ .f32 0x47000000#32),
    StableHlo.unary main_cst_1 main_v7 (broadcastInDim S16 ![] bcast_S_S16 : (⟨S_, .f32⟩ : BufTy).Contents (Elt F) → (⟨S16, .f32⟩ : BufTy).Contents (Elt F)),
    StableHlo.binary main_v6 main_v7 main_v8 (Host.divf : (⟨S16, .f32⟩ : BufTy).Contents (Elt F) → (⟨S16, .f32⟩ : BufTy).Contents (Elt F) → (⟨S16, .f32⟩ : BufTy).Contents (Elt F)),
    StableHlo.nullary main_c (constantI S_ 32 0#32) ]
theorem opsPre2_sub : (opsPre2 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem opsPre2_fresh : (opsPre2 : List (HloOp τ sig (Elt F))).Forall fun op => op.fresh = ∅ :=
  ⟨rfl, rfl, rfl, rfl, rfl, rfl⟩

/-- The operations of the call of a module-local function, in order, over that call's buffers (statements 1 ... 60, piece 3 of 9). -/
abbrev opsPre3 : List (HloOp τ sig (Elt F)) :=
  [ StableHlo.TRef.nullary main_call1.cst (constant S_ .f32 0x00000000#32),
    StableHlo.TRef.binary (.of main_v5 : StableHlo.TRef sig ⟨S32768x16, .f32⟩) main_call1.cst main_call1.v0 (fun x v => Host.reduceAdd x v reducesTo_S32768x16_S16_d0 h_S_),
    StableHlo.TRef.unary main_call1.v0 main_call1.v1 (broadcastInDim S1x16 ![1] bcast_S16_S1x16_1),
    StableHlo.TRef.nullary main_call1.cst_0 (constant S_ .f32 0x47000000#32),
    StableHlo.TRef.unary main_call1.cst_0 main_call1.v2 (broadcastInDim S1x16 ![] bcast_S_S1x16),
    StableHlo.TRef.binary main_call1.v1 main_call1.v2 main_call1.v3 Host.divf,
    StableHlo.TRef.unary main_call1.v3 main_call1.v4 (broadcastInDim S32768x16 ![0, 1] bcast_S1x16_S32768x16_0_1),
    StableHlo.TRef.binary (.of main_v5 : StableHlo.TRef sig ⟨S32768x16, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x47000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S32768x16_S16_d0 h_S_),
    StableHlo.TRef.unary main_call1.v8 main_call1.v10 (broadcastInDim S16 ![] bcast_S_S16),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S16 ![] bcast_S_S16),
    StableHlo.TRef.ternary main_call1.v12 main_call1.v11 main_call1.call0.v1 main_call1.call0.v2 (fun p a b => select (broadcastInDim S16 ![] bcast_S_S16 p) a b) ]
theorem opsPre3_sub : (opsPre3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsPre3_fresh : (opsPre3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- @main's own operations between two calls (statements 1 ... 60, piece 4 of 9). -/
abbrev opsPre4 : List (HloOp τ sig (Elt F)) :=
  [ StableHlo.unary main_v8 main_v10 (broadcastInDim S1x16 ![1] bcast_S16_S1x16_1 : (⟨S16, .f32⟩ : BufTy).Contents (Elt F) → (⟨S1x16, .f32⟩ : BufTy).Contents (Elt F)),
    StableHlo.unary main_v10 main_v11 (broadcastInDim S32768x16 ![0, 1] bcast_S1x16_S32768x16_0_1 : (⟨S1x16, .f32⟩ : BufTy).Contents (Elt F) → (⟨S32768x16, .f32⟩ : BufTy).Contents (Elt F)),
    StableHlo.binary main_v5 main_v11 main_v12 (subf : (⟨S32768x16, .f32⟩ : BufTy).Contents (Elt F) → (⟨S32768x16, .f32⟩ : BufTy).Contents (Elt F) → (⟨S32768x16, .f32⟩ : BufTy).Contents (Elt F)),
    StableHlo.nullary main_cst_2 (constant S_ .f32 0x3727C5AC#32),
    StableHlo.unary main_cst_2 main_v13 (broadcastInDim S16 ![] bcast_S_S16 : (⟨S_, .f32⟩ : BufTy).Contents (Elt F) → (⟨S16, .f32⟩ : BufTy).Contents (Elt F)),
    StableHlo.binary main_v9 main_v13 main_v14 (addf : (⟨S16, .f32⟩ : BufTy).Contents (Elt F) → (⟨S16, .f32⟩ : BufTy).Contents (Elt F) → (⟨S16, .f32⟩ : BufTy).Contents (Elt F)),
    StableHlo.unary main_v14 main_v15 (Host.rsqrt : (⟨S16, .f32⟩ : BufTy).Contents (Elt F) → (⟨S16, .f32⟩ : BufTy).Contents (Elt F)),
    StableHlo.unary main_v15 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S32768x16 ![0, 1] bcast_S1x16_S32768x16_0_1 : (⟨S1x16, .f32⟩ : BufTy).Contents (Elt F) → (⟨S32768x16, .f32⟩ : BufTy).Contents (Elt F)),
    StableHlo.binary main_v12 main_v17 main_v18 (mulf : (⟨S32768x16, .f32⟩ : BufTy).Contents (Elt F) → (⟨S32768x16, .f32⟩ : BufTy).Contents (Elt F) → (⟨S32768x16, .f32⟩ : BufTy).Contents (Elt F)),
    StableHlo.unary main_arg3 main_v19 (broadcastInDim S1x16 ![1] bcast_S16_S1x16_1 : (⟨S16, .f32⟩ : BufTy).Contents (Elt F) → (⟨S1x16, .f32⟩ : BufTy).Contents (Elt F)),
    StableHlo.unary main_v19 main_v20 (broadcastInDim S32768x16 ![0, 1] bcast_S1x16_S32768x16_0_1 : (⟨S1x16, .f32⟩ : BufTy).Contents (Elt F) → (⟨S32768x16, .f32⟩ : BufTy).Contents (Elt F)),
    StableHlo.binary main_v18 main_v20 main_v21 (mulf : (⟨S32768x16, .f32⟩ : BufTy).Contents (Elt F) → (⟨S32768x16, .f32⟩ : BufTy).Contents (Elt F) → (⟨S32768x16, .f32⟩ : BufTy).Contents (Elt F)),
    StableHlo.unary main_arg4 main_v22 (broadcastInDim S1x16 ![1] bcast_S16_S1x16_1 : (⟨S16, .f32⟩ : BufTy).Contents (Elt F) → (⟨S1x16, .f32⟩ : BufTy).Contents (Elt F)),
    StableHlo.unary main_v22 main_v23 (broadcastInDim S32768x16 ![0, 1] bcast_S1x16_S32768x16_0_1 : (⟨S1x16, .f32⟩ : BufTy).Contents (Elt F) → (⟨S32768x16, .f32⟩ : BufTy).Contents (Elt F)),
    StableHlo.binary main_v21 main_v23 main_v24 (addf : (⟨S32768x16, .f32⟩ : BufTy).Contents (Elt F) → (⟨S32768x16, .f32⟩ : BufTy).Contents (Elt F) → (⟨S32768x16, .f32⟩ : BufTy).Contents (Elt F)),
    StableHlo.unary main_arg5 main_v25 ((transpose S16x1 [1, 0] · transposes_S1x16_S16x1_1_0) : (⟨S1x16, .f32⟩ : BufTy).Contents (Elt F) → (⟨S16x1, .f32⟩ : BufTy).Contents (Elt F)),
    StableHlo.binary main_v24 main_v25 main_v26 ((fun l r => Host.dotGeneral dot_S32768x16_S16x1_S32768x1_1_0_0_1_n_n none l r) : (⟨S32768x16, .f32⟩ : BufTy).Contents (Elt F) → (⟨S16x1, .f32⟩ : BufTy).Contents (Elt F) → (⟨S32768x1, .f32⟩ : BufTy).Contents (Elt F)),
    StableHlo.unary main_arg6 main_v27 (broadcastInDim S1x1 ![1] bcast_S1_S1x1_1 : (⟨S1, .f32⟩ : BufTy).Contents (Elt F) → (⟨S1x1, .f32⟩ : BufTy).Contents (Elt F)),
    StableHlo.unary main_v27 main_v28 (broadcastInDim S32768x1 ![0, 1] bcast_S1x1_S32768x1_0_1 : (⟨S1x1, .f32⟩ : BufTy).Contents (Elt F) → (⟨S32768x1, .f32⟩ : BufTy).Contents (Elt F)),
    StableHlo.binary main_v26 main_v28 main_v29 (addf : (⟨S32768x1, .f32⟩ : BufTy).Contents (Elt F) → (⟨S32768x1, .f32⟩ : BufTy).Contents (Elt F) → (⟨S32768x1, .f32⟩ : BufTy).Contents (Elt F)),
    StableHlo.nullary main_cst_3 (constant S_ .f32 0x3C23D70A#32) ]
theorem opsPre4_sub : (opsPre4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub ..⟩
theorem opsPre4_fresh : (opsPre4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The operations of the call of a module-local function, in order, over that call's buffers (statements 1 ... 60, piece 5 of 9). -/
abbrev opsPre5 : List (HloOp τ sig (Elt F)) :=
  [ StableHlo.TRef.nullary main_call2.cst (constant S_ .f32 0x00000000#32),
    StableHlo.TRef.unary main_call2.cst main_call2.v0 (broadcastInDim S32768x1 ![] bcast_S_S32768x1),
    StableHlo.TRef.binary (.of main_v29 : StableHlo.TRef sig ⟨S32768x1, .f32⟩) main_call2.v0 main_call2.v1 (cmpf .oge),
    StableHlo.TRef.unary (.of main_cst_3 : StableHlo.TRef sig ⟨S_, .f32⟩) main_call2.v2 id,
    StableHlo.TRef.unary main_call2.v2 main_call2.v3 (broadcastInDim S32768x1 ![] bcast_S_S32768x1),
    StableHlo.TRef.binary main_call2.v3 (.of main_v29 : StableHlo.TRef sig ⟨S32768x1, .f32⟩) main_call2.v4 mulf,
    StableHlo.TRef.ternary main_call2.v1 (.of main_v29 : StableHlo.TRef sig ⟨S32768x1, .f32⟩) main_call2.v4 main_call2.call0.v0 select ]
theorem opsPre5_sub : (opsPre5 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem opsPre5_fresh : (opsPre5 : List (HloOp τ sig (Elt F))).Forall fun op => op.fresh = ∅ :=
  ⟨rfl, rfl, rfl, rfl, rfl, rfl, rfl⟩

/-- @main's own operations between two calls (statements 1 ... 60, piece 6 of 9). -/
abbrev opsPre6 : List (HloOp τ sig (Elt F)) :=
  [ StableHlo.nullary main_cst_4 (constant S_ .f32 0x00000000#32),
    StableHlo.binary main_v30 main_cst_4 main_v31 ((fun x v => Host.reduceAdd x v reducesTo_S32768x1_S1_d0 h_S_) : (⟨S32768x1, .f32⟩ : BufTy).Contents (Elt F) → (⟨S_, .f32⟩ : BufTy).Contents (Elt F) → (⟨S1, .f32⟩ : BufTy).Contents (Elt F)),
    StableHlo.nullary main_cst_5 (constant S_ .f32 0x47000000#32),
    StableHlo.unary main_cst_5 main_v32 (broadcastInDim S1 ![] bcast_S_S1 : (⟨S_, .f32⟩ : BufTy).Contents (Elt F) → (⟨S1, .f32⟩ : BufTy).Contents (Elt F)),
    StableHlo.binary main_v31 main_v32 main_v33 (Host.divf : (⟨S1, .f32⟩ : BufTy).Contents (Elt F) → (⟨S1, .f32⟩ : BufTy).Contents (Elt F) → (⟨S1, .f32⟩ : BufTy).Contents (Elt F)),
    StableHlo.nullary main_c_6 (constantI S_ 32 0#32) ]
theorem opsPre6_sub : (opsPre6 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem opsPre6_fresh : (opsPre6 : List (HloOp τ sig (Elt F))).Forall fun op => op.fresh = ∅ :=
  ⟨rfl, rfl, rfl, rfl, rfl, rfl⟩

/-- The operations of the call of a module-local function, in order, over that call's buffers (statements 1 ... 60, piece 7 of 9). -/
abbrev opsPre7 : List (HloOp τ sig (Elt F)) :=
  [ StableHlo.TRef.nullary main_call3.cst (constant S_ .f32 0x00000000#32),
    StableHlo.TRef.binary (.of main_v30 : StableHlo.TRef sig ⟨S32768x1, .f32⟩) main_call3.cst main_call3.v0 (fun x v => Host.reduceAdd x v reducesTo_S32768x1_S1_d0 h_S_),
    StableHlo.TRef.unary main_call3.v0 main_call3.v1 (broadcastInDim S1x1 ![1] bcast_S1_S1x1_1),
    StableHlo.TRef.nullary main_call3.cst_0 (constant S_ .f32 0x47000000#32),
    StableHlo.TRef.unary main_call3.cst_0 main_call3.v2 (broadcastInDim S1x1 ![] bcast_S_S1x1),
    StableHlo.TRef.binary main_call3.v1 main_call3.v2 main_call3.v3 Host.divf,
    StableHlo.TRef.unary main_call3.v3 main_call3.v4 (broadcastInDim S32768x1 ![0, 1] bcast_S1x1_S32768x1_0_1),
    StableHlo.TRef.binary (.of main_v30 : StableHlo.TRef sig ⟨S32768x1, .f32⟩) main_call3.v4 main_call3.v5 subf,
    StableHlo.TRef.binary main_call3.v5 main_call3.v5 main_call3.v6 mulf,
    StableHlo.TRef.unary (.of main_c_6 : StableHlo.TRef sig ⟨S_, .i32⟩) main_call3.v7 (sitofp .f32),
    StableHlo.TRef.nullary main_call3.cst_1 (constant S_ .f32 0x47000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S32768x1_S1_d0 h_S_),
    StableHlo.TRef.unary main_call3.v8 main_call3.v10 (broadcastInDim S1 ![] bcast_S_S1),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1 ![] bcast_S_S1),
    StableHlo.TRef.ternary main_call3.v12 main_call3.v11 main_call3.call0.v1 main_call3.call0.v2 (fun p a b => select (broadcastInDim S1 ![] bcast_S_S1 p) a b) ]
theorem opsPre7_sub : (opsPre7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsPre7_fresh : (opsPre7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- @main's own operations between two calls (statements 1 ... 60, piece 8 of 9). -/
abbrev opsPre8 : List (HloOp τ sig (Elt F)) :=
  [ StableHlo.unary main_v33 main_v35 (broadcastInDim S1x1 ![1] bcast_S1_S1x1_1 : (⟨S1, .f32⟩ : BufTy).Contents (Elt F) → (⟨S1x1, .f32⟩ : BufTy).Contents (Elt F)),
    StableHlo.unary main_v35 main_v36 (broadcastInDim S32768x1 ![0, 1] bcast_S1x1_S32768x1_0_1 : (⟨S1x1, .f32⟩ : BufTy).Contents (Elt F) → (⟨S32768x1, .f32⟩ : BufTy).Contents (Elt F)),
    StableHlo.binary main_v30 main_v36 main_v37 (subf : (⟨S32768x1, .f32⟩ : BufTy).Contents (Elt F) → (⟨S32768x1, .f32⟩ : BufTy).Contents (Elt F) → (⟨S32768x1, .f32⟩ : BufTy).Contents (Elt F)),
    StableHlo.nullary main_cst_7 (constant S_ .f32 0x3727C5AC#32),
    StableHlo.unary main_cst_7 main_v38 (broadcastInDim S1 ![] bcast_S_S1 : (⟨S_, .f32⟩ : BufTy).Contents (Elt F) → (⟨S1, .f32⟩ : BufTy).Contents (Elt F)),
    StableHlo.binary main_v34 main_v38 main_v39 (addf : (⟨S1, .f32⟩ : BufTy).Contents (Elt F) → (⟨S1, .f32⟩ : BufTy).Contents (Elt F) → (⟨S1, .f32⟩ : BufTy).Contents (Elt F)),
    StableHlo.unary main_v39 main_v40 (Host.rsqrt : (⟨S1, .f32⟩ : BufTy).Contents (Elt F) → (⟨S1, .f32⟩ : BufTy).Contents (Elt F)),
    StableHlo.unary main_v40 main_v41 (broadcastInDim S1x1 ![1] bcast_S1_S1x1_1 : (⟨S1, .f32⟩ : BufTy).Contents (Elt F) → (⟨S1x1, .f32⟩ : BufTy).Contents (Elt F)),
    StableHlo.unary main_v41 main_v42 (broadcastInDim S32768x1 ![0, 1] bcast_S1x1_S32768x1_0_1 : (⟨S1x1, .f32⟩ : BufTy).Contents (Elt F) → (⟨S32768x1, .f32⟩ : BufTy).Contents (Elt F)),
    StableHlo.binary main_v37 main_v42 main_v43 (mulf : (⟨S32768x1, .f32⟩ : BufTy).Contents (Elt F) → (⟨S32768x1, .f32⟩ : BufTy).Contents (Elt F) → (⟨S32768x1, .f32⟩ : BufTy).Contents (Elt F)),
    StableHlo.unary main_arg7 main_v44 (broadcastInDim S1x1 ![1] bcast_S1_S1x1_1 : (⟨S1, .f32⟩ : BufTy).Contents (Elt F) → (⟨S1x1, .f32⟩ : BufTy).Contents (Elt F)),
    StableHlo.unary main_v44 main_v45 (broadcastInDim S32768x1 ![0, 1] bcast_S1x1_S32768x1_0_1 : (⟨S1x1, .f32⟩ : BufTy).Contents (Elt F) → (⟨S32768x1, .f32⟩ : BufTy).Contents (Elt F)),
    StableHlo.binary main_v43 main_v45 main_v46 (mulf : (⟨S32768x1, .f32⟩ : BufTy).Contents (Elt F) → (⟨S32768x1, .f32⟩ : BufTy).Contents (Elt F) → (⟨S32768x1, .f32⟩ : BufTy).Contents (Elt F)),
    StableHlo.unary main_arg8 main_v47 (broadcastInDim S1x1 ![1] bcast_S1_S1x1_1 : (⟨S1, .f32⟩ : BufTy).Contents (Elt F) → (⟨S1x1, .f32⟩ : BufTy).Contents (Elt F)),
    StableHlo.unary main_v47 main_v48 (broadcastInDim S32768x1 ![0, 1] bcast_S1x1_S32768x1_0_1 : (⟨S1x1, .f32⟩ : BufTy).Contents (Elt F) → (⟨S32768x1, .f32⟩ : BufTy).Contents (Elt F)),
    StableHlo.binary main_v46 main_v48 main_v49 (addf : (⟨S32768x1, .f32⟩ : BufTy).Contents (Elt F) → (⟨S32768x1, .f32⟩ : BufTy).Contents (Elt F) → (⟨S32768x1, .f32⟩ : BufTy).Contents (Elt F)) ]
theorem opsPre8_sub : (opsPre8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsPre8_fresh : (opsPre8 : List (HloOp τ sig (Elt F))).Forall fun op => op.fresh = ∅ :=
  ⟨rfl, rfl, rfl, rfl, rfl, rfl, rfl, rfl, rfl, rfl, rfl, rfl, rfl, rfl, rfl, rfl⟩

/-- The sixteen operations of the decision values: the dot product with the node weights, the bias, the logistic function, its complement, the two stacked on a new last axis. -/
abbrev opsDec : List (HloOp τ sig (Elt F)) :=
  [ StableHlo.binary main_v49 main_arg9 main_v50 ((fun l r => Host.dotGeneral dot_S32768x1_S1024x1x1_S32768x1024x1_1_2_0_01_n_n none l r) : (⟨S32768x1, .f32⟩ : BufTy).Contents (Elt F) → (⟨S1024x1x1, .f32⟩ : BufTy).Contents (Elt F) → (⟨S32768x1024x1, .f32⟩ : BufTy).Contents (Elt F)),
    StableHlo.unary main_arg10 main_v51 (broadcastInDim S1x1024x1 ![1, 2] bcast_S1024x1_S1x1024x1_1_2 : (⟨S1024x1, .f32⟩ : BufTy).Contents (Elt F) → (⟨S1x1024x1, .f32⟩ : BufTy).Contents (Elt F)),
    StableHlo.unary main_v51 main_v52 (broadcastInDim S32768x1024x1 ![0, 1, 2] bcast_S1x1024x1_S32768x1024x1_0_1_2 : (⟨S1x1024x1, .f32⟩ : BufTy).Contents (Elt F) → (⟨S32768x1024x1, .f32⟩ : BufTy).Contents (Elt F)),
    StableHlo.binary main_v50 main_v52 main_v53 (addf : (⟨S32768x1024x1, .f32⟩ : BufTy).Contents (Elt F) → (⟨S32768x1024x1, .f32⟩ : BufTy).Contents (Elt F) → (⟨S32768x1024x1, .f32⟩ : BufTy).Contents (Elt F)),
    StableHlo.unary main_v53 main_v54 (Host.negf : (⟨S32768x1024x1, .f32⟩ : BufTy).Contents (Elt F) → (⟨S32768x1024x1, .f32⟩ : BufTy).Contents (Elt F)),
    StableHlo.unary main_v54 main_v55 (Host.exp : (⟨S32768x1024x1, .f32⟩ : BufTy).Contents (Elt F) → (⟨S32768x1024x1, .f32⟩ : BufTy).Contents (Elt F)),
    StableHlo.nullary main_cst_8 (constant S_ .f32 0x3F800000#32),
    StableHlo.unary main_cst_8 main_v56 (broadcastInDim S32768x1024x1 ![] bcast_S_S32768x1024x1 : (⟨S_, .f32⟩ : BufTy).Contents (Elt F) → (⟨S32768x1024x1, .f32⟩ : BufTy).Contents (Elt F)),
    StableHlo.binary main_v56 main_v55 main_v57 (addf : (⟨S32768x1024x1, .f32⟩ : BufTy).Contents (Elt F) → (⟨S32768x1024x1, .f32⟩ : BufTy).Contents (Elt F) → (⟨S32768x1024x1, .f32⟩ : BufTy).Contents (Elt F)),
    StableHlo.nullary main_cst_9 (constant S_ .f32 0x3F800000#32),
    StableHlo.unary main_cst_9 main_v58 (broadcastInDim S32768x1024x1 ![] bcast_S_S32768x1024x1 : (⟨S_, .f32⟩ : BufTy).Contents (Elt F) → (⟨S32768x1024x1, .f32⟩ : BufTy).Contents (Elt F)),
    StableHlo.binary main_v58 main_v57 main_v59 (Host.divf : (⟨S32768x1024x1, .f32⟩ : BufTy).Contents (Elt F) → (⟨S32768x1024x1, .f32⟩ : BufTy).Contents (Elt F) → (⟨S32768x1024x1, .f32⟩ : BufTy).Contents (Elt F)),
    StableHlo.nullary main_cst_10 (constant S_ .f32 0x3F800000#32),
    StableHlo.unary main_cst_10 main_v60 (broadcastInDim S32768x1024x1 ![] bcast_S_S32768x1024x1 : (⟨S_, .f32⟩ : BufTy).Contents (Elt F) → (⟨S32768x1024x1, .f32⟩ : BufTy).Contents (Elt F)),
    StableHlo.binary main_v60 main_v59 main_v61 (subf : (⟨S32768x1024x1, .f32⟩ : BufTy).Contents (Elt F) → (⟨S32768x1024x1, .f32⟩ : BufTy).Contents (Elt F) → (⟨S32768x1024x1, .f32⟩ : BufTy).Contents (Elt F)),
    StableHlo.binary main_v59 main_v61 main_v62 ((fun a b => concatenate S32768x1024x2 2 [⟨S32768x1024x1, a⟩, ⟨S32768x1024x1, b⟩] concatenates_S32768x1024x1_S32768x1024x1_S32768x1024x2_d2) : (⟨S32768x1024x1, .f32⟩ : BufTy).Contents (Elt F) → (⟨S32768x1024x1, .f32⟩ : BufTy).Contents (Elt F) → (⟨S32768x1024x2, .f32⟩ : BufTy).Contents (Elt F)) ]
theorem opsDec_sub : (opsDec : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
theorem opsDec_fresh : (opsDec : List (HloOp τ sig (Elt F))).Forall fun op => op.fresh = ∅ :=
  ⟨rfl, rfl, rfl, rfl, rfl, rfl, rfl, rfl, rfl, rfl, rfl, rfl, rfl, rfl, rfl, rfl⟩

/-- The root of the tree: the constant one, broadcast. -/
abbrev opsInit : List (HloOp τ sig (Elt F)) :=
  [ StableHlo.nullary main_cst_11 (constant S_ .f32 0x3F800000#32),
    StableHlo.unary main_cst_11 main_v63 (broadcastInDim S32768x2x1 ![] bcast_S_S32768x2x1 : (⟨S_, .f32⟩ : BufTy).Contents (Elt F) → (⟨S32768x2x1, .f32⟩ : BufTy).Contents (Elt F)) ]
theorem opsInit_sub : (opsInit : List (HloOp τ sig (Elt F))).Forall fun op => op.bufs ⊆ tcRefs τ sig :=
  ⟨nullary_bufs_sub .., unary_bufs_sub ..⟩
theorem opsInit_fresh : (opsInit : List (HloOp τ sig (Elt F))).Forall fun op => op.fresh = ∅ :=
  ⟨rfl, rfl⟩

/-- Tree level 0: the upper half of the level before, each entry doubled, times the level's two decision values, appended to the level before. -/
abbrev opsL0 : List (HloOp τ sig (Elt F)) :=
  [ StableHlo.unary main_v63 main_v64 ((extractStridedSlice S32768x1x1 ![0, 1, 0] · slices_S32768x2x1_S32768x1x1_0_1_0) : (⟨S32768x2x1, .f32⟩ : BufTy).Contents (Elt F) → (⟨S32768x1x1, .f32⟩ : BufTy).Contents (Elt F)),
    StableHlo.reshape main_v64 main_v65 rfl shapeCasts_S32768x1x1_S1x32768x1x1x1x1,
    StableHlo.unary main_v65 main_v66 (broadcastInDim S1x32768x1x1x2x1 ![0, 1, 2, 3, 4, 5] bcast_S1x32768x1x1x1x1_S1x32768x1x1x2x1_0_1_2_3_4_5 : (⟨S1x32768x1x1x1x1, .f32⟩ : BufTy).Contents (Elt F) → (⟨S1x32768x1x1x2x1, .f32⟩ : BufTy).Contents (Elt F)),
    StableHlo.reshape main_v66 main_v67 rfl shapeCasts_S1x32768x1x1x2x1_S32768x1x2,
    StableHlo.unary main_v62 main_v68 ((extractStridedSlice S32768x1x2 ![0, 1, 0] · slices_S32768x1024x2_S32768x1x2_0_1_0) : (⟨S32768x1024x2, .f32⟩ : BufTy).Contents (Elt F) → (⟨S32768x1x2, .f32⟩ : BufTy).Contents (Elt F)),
    StableHlo.binary main_v67 main_v68 main_v69 (mulf : (⟨S32768x1x2, .f32⟩ : BufTy).Contents (Elt F) → (⟨S32768x1x2, .f32⟩ : BufTy).Contents (Elt F) → (⟨S32768x1x2, .f32⟩ : BufTy).Contents (Elt F)),
    StableHlo.reshape main_v69 main_v70 rfl shapeCasts_S32768x1x2_S32768x2x1,
    StableHlo.binary main_v63 main_v70 main_v71 ((fun a b => concatenate S32768x4x1 1 [⟨S32768x2x1, a⟩, ⟨S32768x2x1, b⟩] concatenates_S32768x2x1_S32768x2x1_S32768x4x1_d1) : (⟨S32768x2x1, .f32⟩ : BufTy).Contents (Elt F) → (⟨S32768x2x1, .f32⟩ : BufTy).Contents (Elt F) → (⟨S32768x4x1, .f32⟩ : BufTy).Contents (Elt F)) ]
theorem opsL0_sub : (opsL0 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL0_fresh : (opsL0 : List (HloOp τ sig (Elt F))).Forall fun op => op.fresh = ∅ :=
  ⟨rfl, rfl, rfl, rfl, rfl, rfl, rfl, rfl⟩

/-- Tree level 1: the upper half of the level before, each entry doubled, times the level's two decision values, appended to the level before. -/
abbrev opsL1 : List (HloOp τ sig (Elt F)) :=
  [ StableHlo.unary main_v71 main_v72 ((extractStridedSlice S32768x2x1 ![0, 2, 0] · slices_S32768x4x1_S32768x2x1_0_2_0) : (⟨S32768x4x1, .f32⟩ : BufTy).Contents (Elt F) → (⟨S32768x2x1, .f32⟩ : BufTy).Contents (Elt F)),
    StableHlo.reshape main_v72 main_v73 rfl shapeCasts_S32768x2x1_S1x32768x1x2x1x1,
    StableHlo.unary main_v73 main_v74 (broadcastInDim S1x32768x1x2x2x1 ![0, 1, 2, 3, 4, 5] bcast_S1x32768x1x2x1x1_S1x32768x1x2x2x1_0_1_2_3_4_5 : (⟨S1x32768x1x2x1x1, .f32⟩ : BufTy).Contents (Elt F) → (⟨S1x32768x1x2x2x1, .f32⟩ : BufTy).Contents (Elt F)),
    StableHlo.reshape main_v74 main_v75 rfl shapeCasts_S1x32768x1x2x2x1_S32768x2x2,
    StableHlo.unary main_v62 main_v76 ((extractStridedSlice S32768x2x2 ![0, 2, 0] · slices_S32768x1024x2_S32768x2x2_0_2_0) : (⟨S32768x1024x2, .f32⟩ : BufTy).Contents (Elt F) → (⟨S32768x2x2, .f32⟩ : BufTy).Contents (Elt F)),
    StableHlo.binary main_v75 main_v76 main_v77 (mulf : (⟨S32768x2x2, .f32⟩ : BufTy).Contents (Elt F) → (⟨S32768x2x2, .f32⟩ : BufTy).Contents (Elt F) → (⟨S32768x2x2, .f32⟩ : BufTy).Contents (Elt F)),
    StableHlo.reshape main_v77 main_v78 rfl shapeCasts_S32768x2x2_S32768x4x1,
    StableHlo.binary main_v71 main_v78 main_v79 ((fun a b => concatenate S32768x8x1 1 [⟨S32768x4x1, a⟩, ⟨S32768x4x1, b⟩] concatenates_S32768x4x1_S32768x4x1_S32768x8x1_d1) : (⟨S32768x4x1, .f32⟩ : BufTy).Contents (Elt F) → (⟨S32768x4x1, .f32⟩ : BufTy).Contents (Elt F) → (⟨S32768x8x1, .f32⟩ : BufTy).Contents (Elt F)) ]
theorem opsL1_sub : (opsL1 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL1_fresh : (opsL1 : List (HloOp τ sig (Elt F))).Forall fun op => op.fresh = ∅ :=
  ⟨rfl, rfl, rfl, rfl, rfl, rfl, rfl, rfl⟩

/-- Tree level 2: the upper half of the level before, each entry doubled, times the level's two decision values, appended to the level before. -/
abbrev opsL2 : List (HloOp τ sig (Elt F)) :=
  [ StableHlo.unary main_v79 main_v80 ((extractStridedSlice S32768x4x1 ![0, 4, 0] · slices_S32768x8x1_S32768x4x1_0_4_0) : (⟨S32768x8x1, .f32⟩ : BufTy).Contents (Elt F) → (⟨S32768x4x1, .f32⟩ : BufTy).Contents (Elt F)),
    StableHlo.reshape main_v80 main_v81 rfl shapeCasts_S32768x4x1_S1x32768x1x4x1x1,
    StableHlo.unary main_v81 main_v82 (broadcastInDim S1x32768x1x4x2x1 ![0, 1, 2, 3, 4, 5] bcast_S1x32768x1x4x1x1_S1x32768x1x4x2x1_0_1_2_3_4_5 : (⟨S1x32768x1x4x1x1, .f32⟩ : BufTy).Contents (Elt F) → (⟨S1x32768x1x4x2x1, .f32⟩ : BufTy).Contents (Elt F)),
    StableHlo.reshape main_v82 main_v83 rfl shapeCasts_S1x32768x1x4x2x1_S32768x4x2,
    StableHlo.unary main_v62 main_v84 ((extractStridedSlice S32768x4x2 ![0, 4, 0] · slices_S32768x1024x2_S32768x4x2_0_4_0) : (⟨S32768x1024x2, .f32⟩ : BufTy).Contents (Elt F) → (⟨S32768x4x2, .f32⟩ : BufTy).Contents (Elt F)),
    StableHlo.binary main_v83 main_v84 main_v85 (mulf : (⟨S32768x4x2, .f32⟩ : BufTy).Contents (Elt F) → (⟨S32768x4x2, .f32⟩ : BufTy).Contents (Elt F) → (⟨S32768x4x2, .f32⟩ : BufTy).Contents (Elt F)),
    StableHlo.reshape main_v85 main_v86 rfl shapeCasts_S32768x4x2_S32768x8x1,
    StableHlo.binary main_v79 main_v86 main_v87 ((fun a b => concatenate S32768x16x1 1 [⟨S32768x8x1, a⟩, ⟨S32768x8x1, b⟩] concatenates_S32768x8x1_S32768x8x1_S32768x16x1_d1) : (⟨S32768x8x1, .f32⟩ : BufTy).Contents (Elt F) → (⟨S32768x8x1, .f32⟩ : BufTy).Contents (Elt F) → (⟨S32768x16x1, .f32⟩ : BufTy).Contents (Elt F)) ]
theorem opsL2_sub : (opsL2 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL2_fresh : (opsL2 : List (HloOp τ sig (Elt F))).Forall fun op => op.fresh = ∅ :=
  ⟨rfl, rfl, rfl, rfl, rfl, rfl, rfl, rfl⟩

/-- Tree level 3: the upper half of the level before, each entry doubled, times the level's two decision values, appended to the level before. -/
abbrev opsL3 : List (HloOp τ sig (Elt F)) :=
  [ StableHlo.unary main_v87 main_v88 ((extractStridedSlice S32768x8x1 ![0, 8, 0] · slices_S32768x16x1_S32768x8x1_0_8_0) : (⟨S32768x16x1, .f32⟩ : BufTy).Contents (Elt F) → (⟨S32768x8x1, .f32⟩ : BufTy).Contents (Elt F)),
    StableHlo.reshape main_v88 main_v89 rfl shapeCasts_S32768x8x1_S1x32768x1x8x1x1,
    StableHlo.unary main_v89 main_v90 (broadcastInDim S1x32768x1x8x2x1 ![0, 1, 2, 3, 4, 5] bcast_S1x32768x1x8x1x1_S1x32768x1x8x2x1_0_1_2_3_4_5 : (⟨S1x32768x1x8x1x1, .f32⟩ : BufTy).Contents (Elt F) → (⟨S1x32768x1x8x2x1, .f32⟩ : BufTy).Contents (Elt F)),
    StableHlo.reshape main_v90 main_v91 rfl shapeCasts_S1x32768x1x8x2x1_S32768x8x2,
    StableHlo.unary main_v62 main_v92 ((extractStridedSlice S32768x8x2 ![0, 8, 0] · slices_S32768x1024x2_S32768x8x2_0_8_0) : (⟨S32768x1024x2, .f32⟩ : BufTy).Contents (Elt F) → (⟨S32768x8x2, .f32⟩ : BufTy).Contents (Elt F)),
    StableHlo.binary main_v91 main_v92 main_v93 (mulf : (⟨S32768x8x2, .f32⟩ : BufTy).Contents (Elt F) → (⟨S32768x8x2, .f32⟩ : BufTy).Contents (Elt F) → (⟨S32768x8x2, .f32⟩ : BufTy).Contents (Elt F)),
    StableHlo.reshape main_v93 main_v94 rfl shapeCasts_S32768x8x2_S32768x16x1,
    StableHlo.binary main_v87 main_v94 main_v95 ((fun a b => concatenate S32768x32x1 1 [⟨S32768x16x1, a⟩, ⟨S32768x16x1, b⟩] concatenates_S32768x16x1_S32768x16x1_S32768x32x1_d1) : (⟨S32768x16x1, .f32⟩ : BufTy).Contents (Elt F) → (⟨S32768x16x1, .f32⟩ : BufTy).Contents (Elt F) → (⟨S32768x32x1, .f32⟩ : BufTy).Contents (Elt F)) ]
theorem opsL3_sub : (opsL3 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL3_fresh : (opsL3 : List (HloOp τ sig (Elt F))).Forall fun op => op.fresh = ∅ :=
  ⟨rfl, rfl, rfl, rfl, rfl, rfl, rfl, rfl⟩

/-- Tree level 4: the upper half of the level before, each entry doubled, times the level's two decision values, appended to the level before. -/
abbrev opsL4 : List (HloOp τ sig (Elt F)) :=
  [ StableHlo.unary main_v95 main_v96 ((extractStridedSlice S32768x16x1 ![0, 16, 0] · slices_S32768x32x1_S32768x16x1_0_16_0) : (⟨S32768x32x1, .f32⟩ : BufTy).Contents (Elt F) → (⟨S32768x16x1, .f32⟩ : BufTy).Contents (Elt F)),
    StableHlo.reshape main_v96 main_v97 rfl shapeCasts_S32768x16x1_S1x32768x1x16x1x1,
    StableHlo.unary main_v97 main_v98 (broadcastInDim S1x32768x1x16x2x1 ![0, 1, 2, 3, 4, 5] bcast_S1x32768x1x16x1x1_S1x32768x1x16x2x1_0_1_2_3_4_5 : (⟨S1x32768x1x16x1x1, .f32⟩ : BufTy).Contents (Elt F) → (⟨S1x32768x1x16x2x1, .f32⟩ : BufTy).Contents (Elt F)),
    StableHlo.reshape main_v98 main_v99 rfl shapeCasts_S1x32768x1x16x2x1_S32768x16x2,
    StableHlo.unary main_v62 main_v100 ((extractStridedSlice S32768x16x2 ![0, 16, 0] · slices_S32768x1024x2_S32768x16x2_0_16_0) : (⟨S32768x1024x2, .f32⟩ : BufTy).Contents (Elt F) → (⟨S32768x16x2, .f32⟩ : BufTy).Contents (Elt F)),
    StableHlo.binary main_v99 main_v100 main_v101 (mulf : (⟨S32768x16x2, .f32⟩ : BufTy).Contents (Elt F) → (⟨S32768x16x2, .f32⟩ : BufTy).Contents (Elt F) → (⟨S32768x16x2, .f32⟩ : BufTy).Contents (Elt F)),
    StableHlo.reshape main_v101 main_v102 rfl shapeCasts_S32768x16x2_S32768x32x1,
    StableHlo.binary main_v95 main_v102 main_v103 ((fun a b => concatenate S32768x64x1 1 [⟨S32768x32x1, a⟩, ⟨S32768x32x1, b⟩] concatenates_S32768x32x1_S32768x32x1_S32768x64x1_d1) : (⟨S32768x32x1, .f32⟩ : BufTy).Contents (Elt F) → (⟨S32768x32x1, .f32⟩ : BufTy).Contents (Elt F) → (⟨S32768x64x1, .f32⟩ : BufTy).Contents (Elt F)) ]
theorem opsL4_sub : (opsL4 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL4_fresh : (opsL4 : List (HloOp τ sig (Elt F))).Forall fun op => op.fresh = ∅ :=
  ⟨rfl, rfl, rfl, rfl, rfl, rfl, rfl, rfl⟩

/-- Tree level 5: the upper half of the level before, each entry doubled, times the level's two decision values, appended to the level before. -/
abbrev opsL5 : List (HloOp τ sig (Elt F)) :=
  [ StableHlo.unary main_v103 main_v104 ((extractStridedSlice S32768x32x1 ![0, 32, 0] · slices_S32768x64x1_S32768x32x1_0_32_0) : (⟨S32768x64x1, .f32⟩ : BufTy).Contents (Elt F) → (⟨S32768x32x1, .f32⟩ : BufTy).Contents (Elt F)),
    StableHlo.reshape main_v104 main_v105 rfl shapeCasts_S32768x32x1_S1x32768x1x32x1x1,
    StableHlo.unary main_v105 main_v106 (broadcastInDim S1x32768x1x32x2x1 ![0, 1, 2, 3, 4, 5] bcast_S1x32768x1x32x1x1_S1x32768x1x32x2x1_0_1_2_3_4_5 : (⟨S1x32768x1x32x1x1, .f32⟩ : BufTy).Contents (Elt F) → (⟨S1x32768x1x32x2x1, .f32⟩ : BufTy).Contents (Elt F)),
    StableHlo.reshape main_v106 main_v107 rfl shapeCasts_S1x32768x1x32x2x1_S32768x32x2,
    StableHlo.unary main_v62 main_v108 ((extractStridedSlice S32768x32x2 ![0, 32, 0] · slices_S32768x1024x2_S32768x32x2_0_32_0) : (⟨S32768x1024x2, .f32⟩ : BufTy).Contents (Elt F) → (⟨S32768x32x2, .f32⟩ : BufTy).Contents (Elt F)),
    StableHlo.binary main_v107 main_v108 main_v109 (mulf : (⟨S32768x32x2, .f32⟩ : BufTy).Contents (Elt F) → (⟨S32768x32x2, .f32⟩ : BufTy).Contents (Elt F) → (⟨S32768x32x2, .f32⟩ : BufTy).Contents (Elt F)),
    StableHlo.reshape main_v109 main_v110 rfl shapeCasts_S32768x32x2_S32768x64x1,
    StableHlo.binary main_v103 main_v110 main_v111 ((fun a b => concatenate S32768x128x1 1 [⟨S32768x64x1, a⟩, ⟨S32768x64x1, b⟩] concatenates_S32768x64x1_S32768x64x1_S32768x128x1_d1) : (⟨S32768x64x1, .f32⟩ : BufTy).Contents (Elt F) → (⟨S32768x64x1, .f32⟩ : BufTy).Contents (Elt F) → (⟨S32768x128x1, .f32⟩ : BufTy).Contents (Elt F)) ]
theorem opsL5_sub : (opsL5 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL5_fresh : (opsL5 : List (HloOp τ sig (Elt F))).Forall fun op => op.fresh = ∅ :=
  ⟨rfl, rfl, rfl, rfl, rfl, rfl, rfl, rfl⟩

/-- Tree level 6: the upper half of the level before, each entry doubled, times the level's two decision values, appended to the level before. -/
abbrev opsL6 : List (HloOp τ sig (Elt F)) :=
  [ StableHlo.unary main_v111 main_v112 ((extractStridedSlice S32768x64x1 ![0, 64, 0] · slices_S32768x128x1_S32768x64x1_0_64_0) : (⟨S32768x128x1, .f32⟩ : BufTy).Contents (Elt F) → (⟨S32768x64x1, .f32⟩ : BufTy).Contents (Elt F)),
    StableHlo.reshape main_v112 main_v113 rfl shapeCasts_S32768x64x1_S1x32768x1x64x1x1,
    StableHlo.unary main_v113 main_v114 (broadcastInDim S1x32768x1x64x2x1 ![0, 1, 2, 3, 4, 5] bcast_S1x32768x1x64x1x1_S1x32768x1x64x2x1_0_1_2_3_4_5 : (⟨S1x32768x1x64x1x1, .f32⟩ : BufTy).Contents (Elt F) → (⟨S1x32768x1x64x2x1, .f32⟩ : BufTy).Contents (Elt F)),
    StableHlo.reshape main_v114 main_v115 rfl shapeCasts_S1x32768x1x64x2x1_S32768x64x2,
    StableHlo.unary main_v62 main_v116 ((extractStridedSlice S32768x64x2 ![0, 64, 0] · slices_S32768x1024x2_S32768x64x2_0_64_0) : (⟨S32768x1024x2, .f32⟩ : BufTy).Contents (Elt F) → (⟨S32768x64x2, .f32⟩ : BufTy).Contents (Elt F)),
    StableHlo.binary main_v115 main_v116 main_v117 (mulf : (⟨S32768x64x2, .f32⟩ : BufTy).Contents (Elt F) → (⟨S32768x64x2, .f32⟩ : BufTy).Contents (Elt F) → (⟨S32768x64x2, .f32⟩ : BufTy).Contents (Elt F)),
    StableHlo.reshape main_v117 main_v118 rfl shapeCasts_S32768x64x2_S32768x128x1,
    StableHlo.binary main_v111 main_v118 main_v119 ((fun a b => concatenate S32768x256x1 1 [⟨S32768x128x1, a⟩, ⟨S32768x128x1, b⟩] concatenates_S32768x128x1_S32768x128x1_S32768x256x1_d1) : (⟨S32768x128x1, .f32⟩ : BufTy).Contents (Elt F) → (⟨S32768x128x1, .f32⟩ : BufTy).Contents (Elt F) → (⟨S32768x256x1, .f32⟩ : BufTy).Contents (Elt F)) ]
theorem opsL6_sub : (opsL6 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL6_fresh : (opsL6 : List (HloOp τ sig (Elt F))).Forall fun op => op.fresh = ∅ :=
  ⟨rfl, rfl, rfl, rfl, rfl, rfl, rfl, rfl⟩

/-- Tree level 7: the upper half of the level before, each entry doubled, times the level's two decision values, appended to the level before. -/
abbrev opsL7 : List (HloOp τ sig (Elt F)) :=
  [ StableHlo.unary main_v119 main_v120 ((extractStridedSlice S32768x128x1 ![0, 128, 0] · slices_S32768x256x1_S32768x128x1_0_128_0) : (⟨S32768x256x1, .f32⟩ : BufTy).Contents (Elt F) → (⟨S32768x128x1, .f32⟩ : BufTy).Contents (Elt F)),
    StableHlo.reshape main_v120 main_v121 rfl shapeCasts_S32768x128x1_S1x32768x1x128x1x1,
    StableHlo.unary main_v121 main_v122 (broadcastInDim S1x32768x1x128x2x1 ![0, 1, 2, 3, 4, 5] bcast_S1x32768x1x128x1x1_S1x32768x1x128x2x1_0_1_2_3_4_5 : (⟨S1x32768x1x128x1x1, .f32⟩ : BufTy).Contents (Elt F) → (⟨S1x32768x1x128x2x1, .f32⟩ : BufTy).Contents (Elt F)),
    StableHlo.reshape main_v122 main_v123 rfl shapeCasts_S1x32768x1x128x2x1_S32768x128x2,
    StableHlo.unary main_v62 main_v124 ((extractStridedSlice S32768x128x2 ![0, 128, 0] · slices_S32768x1024x2_S32768x128x2_0_128_0) : (⟨S32768x1024x2, .f32⟩ : BufTy).Contents (Elt F) → (⟨S32768x128x2, .f32⟩ : BufTy).Contents (Elt F)),
    StableHlo.binary main_v123 main_v124 main_v125 (mulf : (⟨S32768x128x2, .f32⟩ : BufTy).Contents (Elt F) → (⟨S32768x128x2, .f32⟩ : BufTy).Contents (Elt F) → (⟨S32768x128x2, .f32⟩ : BufTy).Contents (Elt F)),
    StableHlo.reshape main_v125 main_v126 rfl shapeCasts_S32768x128x2_S32768x256x1,
    StableHlo.binary main_v119 main_v126 main_v127 ((fun a b => concatenate S32768x512x1 1 [⟨S32768x256x1, a⟩, ⟨S32768x256x1, b⟩] concatenates_S32768x256x1_S32768x256x1_S32768x512x1_d1) : (⟨S32768x256x1, .f32⟩ : BufTy).Contents (Elt F) → (⟨S32768x256x1, .f32⟩ : BufTy).Contents (Elt F) → (⟨S32768x512x1, .f32⟩ : BufTy).Contents (Elt F)) ]
theorem opsL7_sub : (opsL7 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL7_fresh : (opsL7 : List (HloOp τ sig (Elt F))).Forall fun op => op.fresh = ∅ :=
  ⟨rfl, rfl, rfl, rfl, rfl, rfl, rfl, rfl⟩

/-- Tree level 8: the upper half of the level before, each entry doubled, times the level's two decision values, appended to the level before. -/
abbrev opsL8 : List (HloOp τ sig (Elt F)) :=
  [ StableHlo.unary main_v127 main_v128 ((extractStridedSlice S32768x256x1 ![0, 256, 0] · slices_S32768x512x1_S32768x256x1_0_256_0) : (⟨S32768x512x1, .f32⟩ : BufTy).Contents (Elt F) → (⟨S32768x256x1, .f32⟩ : BufTy).Contents (Elt F)),
    StableHlo.reshape main_v128 main_v129 rfl shapeCasts_S32768x256x1_S1x32768x1x256x1x1,
    StableHlo.unary main_v129 main_v130 (broadcastInDim S1x32768x1x256x2x1 ![0, 1, 2, 3, 4, 5] bcast_S1x32768x1x256x1x1_S1x32768x1x256x2x1_0_1_2_3_4_5 : (⟨S1x32768x1x256x1x1, .f32⟩ : BufTy).Contents (Elt F) → (⟨S1x32768x1x256x2x1, .f32⟩ : BufTy).Contents (Elt F)),
    StableHlo.reshape main_v130 main_v131 rfl shapeCasts_S1x32768x1x256x2x1_S32768x256x2,
    StableHlo.unary main_v62 main_v132 ((extractStridedSlice S32768x256x2 ![0, 256, 0] · slices_S32768x1024x2_S32768x256x2_0_256_0) : (⟨S32768x1024x2, .f32⟩ : BufTy).Contents (Elt F) → (⟨S32768x256x2, .f32⟩ : BufTy).Contents (Elt F)),
    StableHlo.binary main_v131 main_v132 main_v133 (mulf : (⟨S32768x256x2, .f32⟩ : BufTy).Contents (Elt F) → (⟨S32768x256x2, .f32⟩ : BufTy).Contents (Elt F) → (⟨S32768x256x2, .f32⟩ : BufTy).Contents (Elt F)),
    StableHlo.reshape main_v133 main_v134 rfl shapeCasts_S32768x256x2_S32768x512x1,
    StableHlo.binary main_v127 main_v134 main_v135 ((fun a b => concatenate S32768x1024x1 1 [⟨S32768x512x1, a⟩, ⟨S32768x512x1, b⟩] concatenates_S32768x512x1_S32768x512x1_S32768x1024x1_d1) : (⟨S32768x512x1, .f32⟩ : BufTy).Contents (Elt F) → (⟨S32768x512x1, .f32⟩ : BufTy).Contents (Elt F) → (⟨S32768x1024x1, .f32⟩ : BufTy).Contents (Elt F)) ]
theorem opsL8_sub : (opsL8 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL8_fresh : (opsL8 : List (HloOp τ sig (Elt F))).Forall fun op => op.fresh = ∅ :=
  ⟨rfl, rfl, rfl, rfl, rfl, rfl, rfl, rfl⟩

/-- Tree level 9: the upper half of the level before, each entry doubled, times the level's two decision values, appended to the level before. -/
abbrev opsL9 : List (HloOp τ sig (Elt F)) :=
  [ StableHlo.unary main_v135 main_v136 ((extractStridedSlice S32768x512x1 ![0, 512, 0] · slices_S32768x1024x1_S32768x512x1_0_512_0) : (⟨S32768x1024x1, .f32⟩ : BufTy).Contents (Elt F) → (⟨S32768x512x1, .f32⟩ : BufTy).Contents (Elt F)),
    StableHlo.reshape main_v136 main_v137 rfl shapeCasts_S32768x512x1_S1x32768x1x512x1x1,
    StableHlo.unary main_v137 main_v138 (broadcastInDim S1x32768x1x512x2x1 ![0, 1, 2, 3, 4, 5] bcast_S1x32768x1x512x1x1_S1x32768x1x512x2x1_0_1_2_3_4_5 : (⟨S1x32768x1x512x1x1, .f32⟩ : BufTy).Contents (Elt F) → (⟨S1x32768x1x512x2x1, .f32⟩ : BufTy).Contents (Elt F)),
    StableHlo.reshape main_v138 main_v139 rfl shapeCasts_S1x32768x1x512x2x1_S32768x512x2,
    StableHlo.unary main_v62 main_v140 ((extractStridedSlice S32768x512x2 ![0, 512, 0] · slices_S32768x1024x2_S32768x512x2_0_512_0) : (⟨S32768x1024x2, .f32⟩ : BufTy).Contents (Elt F) → (⟨S32768x512x2, .f32⟩ : BufTy).Contents (Elt F)),
    StableHlo.binary main_v139 main_v140 main_v141 (mulf : (⟨S32768x512x2, .f32⟩ : BufTy).Contents (Elt F) → (⟨S32768x512x2, .f32⟩ : BufTy).Contents (Elt F) → (⟨S32768x512x2, .f32⟩ : BufTy).Contents (Elt F)),
    StableHlo.reshape main_v141 main_v142 rfl shapeCasts_S32768x512x2_S32768x1024x1,
    StableHlo.binary main_v135 main_v142 main_v143 ((fun a b => concatenate S32768x2048x1 1 [⟨S32768x1024x1, a⟩, ⟨S32768x1024x1, b⟩] concatenates_S32768x1024x1_S32768x1024x1_S32768x2048x1_d1) : (⟨S32768x1024x1, .f32⟩ : BufTy).Contents (Elt F) → (⟨S32768x1024x1, .f32⟩ : BufTy).Contents (Elt F) → (⟨S32768x2048x1, .f32⟩ : BufTy).Contents (Elt F)) ]
theorem opsL9_sub : (opsL9 : List (HloOp τ sig (Elt F))).Forall fun op => op.bufs ⊆ tcRefs τ sig :=
  ⟨unary_bufs_sub .., reshape_bufs_sub .., unary_bufs_sub .., reshape_bufs_sub .., unary_bufs_sub .., binary_bufs_sub .., reshape_bufs_sub .., binary_bufs_sub ..⟩
theorem opsL9_fresh : (opsL9 : List (HloOp τ sig (Elt F))).Forall fun op => op.fresh = ∅ :=
  ⟨rfl, rfl, rfl, rfl, rfl, rfl, rfl, rfl⟩

/-- The closing operations: the last level flattened, the start index zero, the column of zeros, the scatter that writes it into column zero. -/
abbrev opsFin : List (HloOp τ sig (Elt F)) :=
  [ StableHlo.reshape main_v143 main_v144 rfl shapeCasts_S32768x2048x1_S32768x2048,
    StableHlo.nullary main_c_12 (constantI S_ 32 0#32),
    StableHlo.unary main_c_12 main_v145 (broadcastInDim S1 ![] bcast_S_S1 : (⟨S_, .i32⟩ : BufTy).Contents (Elt F) → (⟨S1, .i32⟩ : BufTy).Contents (Elt F)),
    StableHlo.nullary main_cst_13 (constant S_ .f32 0x00000000#32),
    StableHlo.unary main_cst_13 main_v146 (broadcastInDim S32768 ![] bcast_S_S32768 : (⟨S_, .f32⟩ : BufTy).Contents (Elt F) → (⟨S32768, .f32⟩ : BufTy).Contents (Elt F)),
    StableHlo.ternary main_v144 main_v145 main_v146 main_v147 ((fun x i u => Host.scatter scatter_S32768x2048_S1_S32768_0_1_1_0 (fun _ b => b) x i u) : (⟨S32768x2048, .f32⟩ : BufTy).Contents (Elt F) → (⟨S1, .i32⟩ : BufTy).Contents (Elt F) → (⟨S32768, .f32⟩ : BufTy).Contents (Elt F) → (⟨S32768x2048, .f32⟩ : BufTy).Contents (Elt F)) ]
theorem opsFin_sub : (opsFin : List (HloOp τ sig (Elt F))).Forall fun op => op.bufs ⊆ tcRefs τ sig :=
  ⟨reshape_bufs_sub .., nullary_bufs_sub .., unary_bufs_sub .., nullary_bufs_sub .., unary_bufs_sub .., ternary_bufs_sub ..⟩
theorem opsFin_fresh : (opsFin : List (HloOp τ sig (Elt F))).Forall fun op => op.fresh = ∅ :=
  ⟨rfl, rfl, rfl, rfl, rfl, rfl⟩

/-- Statements 1 ... 60 with the four calls replaced by the callees' operations. -/
abbrev opsPre : List (HloOp τ sig (Elt F)) :=
  opsPre0 ++ (opsPre1 ++ (opsPre2 ++ (opsPre3 ++ (opsPre4 ++ (opsPre5 ++ (opsPre6 ++ (opsPre7 ++ opsPre8)))))))

/-- The whole line. -/
abbrev ops : List (HloOp τ sig (Elt F)) :=
  opsPre ++ (opsDec ++ (opsInit ++ (opsL0 ++ (opsL1 ++ (opsL2 ++ (opsL3 ++ (opsL4 ++ (opsL5 ++ (opsL6 ++ (opsL7 ++ (opsL8 ++ (opsL9 ++ opsFin))))))))))))

/-! ## @main is the sequence of the line -/

/-- The first window is the sequence of its nine lists, one after the other: both sides unfold to the same chain of
    steps (a callee's body is its operations followed by a return that binds nothing). -/
theorem main_part0_eq (c : Dev nD) : main_part0 (F := F) c =
    (seq opsPre0 >>= fun _ => seq opsPre1 >>= fun _ => seq opsPre2 >>= fun _ => seq opsPre3 >>= fun _ => seq opsPre4 >>= fun _ =>
      seq opsPre5 >>= fun _ => seq opsPre6 >>= fun _ => seq opsPre7 >>= fun _ => seq opsPre8 : MainProg F) := by
  chain_rfl

/-- The second window ends two operations into tree level 5. -/
theorem main_part1_eq (c : Dev nD) : main_part1 (F := F) c =
    (seq opsDec >>= fun _ => seq opsInit >>= fun _ => seq opsL0 >>= fun _ => seq opsL1 >>= fun _ => seq opsL2 >>= fun _ =>
      seq opsL3 >>= fun _ => seq opsL4 >>= fun _ => seq (opsL5.take 2) : MainProg F) := by
  chain_rfl

/-- The third window begins with the other six operations of tree level 5. -/
theorem main_part2_eq (c : Dev nD) : main_part2 (F := F) c =
    (seq (opsL5.drop 2) >>= fun _ => seq opsL6 >>= fun _ => seq opsL7 >>= fun _ => seq opsL8 >>= fun _ => seq opsL9 >>= fun _ =>
      seq opsFin : MainProg F) := by
  chain_rfl

/-- Tree level 5, cut where the window boundary falls. -/
theorem seq_opsL5 : (seq opsL5 : MainProg F) = seq (opsL5.take 2) >>= fun _ => seq (opsL5.drop 2) := by
  rw [← seq_append, List.take_append_drop]

/-- @main is the sequence of the whole line: the three windows one after the other, each the sequence of its lists;
    sequences compose to the sequence of the concatenation (`seq_append`), up to the association of the binds. -/
theorem main_eq (c : Dev nD) : main (F := F) c = seq ops := by
  show (main_part0 (F := F) c >>= fun _ => main_part1 (F := F) c >>= fun _ => main_part2 (F := F) c) = _
  rw [main_part0_eq, main_part1_eq, main_part2_eq]
  simp only [ops, opsPre, seq_append, seq_opsL5, bind_assoc]

/-! ## Every operation touches TensorCore references only and determines its results -/

/-- A property of every element of two lists holds of every element of their concatenation. -/
theorem forall_append_of {α : Type} {p : α → Prop} {xs ys : List α} (h1 : xs.Forall p) (h2 : ys.Forall p) :
    (xs ++ ys).Forall p :=
  List.forall_append.2 ⟨h1, h2⟩

theorem opsPre_sub : (opsPre : List (HloOp τ sig (Elt F))).Forall fun op => op.bufs ⊆ tcRefs τ sig :=
  forall_append_of opsPre0_sub (forall_append_of opsPre1_sub (forall_append_of opsPre2_sub (forall_append_of opsPre3_sub
    (forall_append_of opsPre4_sub (forall_append_of opsPre5_sub (forall_append_of opsPre6_sub (forall_append_of opsPre7_sub opsPre8_sub)))))))

theorem ops_sub : (ops : List (HloOp τ sig (Elt F))).Forall fun op => op.bufs ⊆ tcRefs τ sig :=
  forall_append_of opsPre_sub (forall_append_of opsDec_sub (forall_append_of opsInit_sub (forall_append_of opsL0_sub
    (forall_append_of opsL1_sub (forall_append_of opsL2_sub (forall_append_of opsL3_sub (forall_append_of opsL4_sub
    (forall_append_of opsL5_sub (forall_append_of opsL6_sub (forall_append_of opsL7_sub (forall_append_of opsL8_sub
    (forall_append_of opsL9_sub opsFin_sub))))))))))))

theorem opsPre_fresh : (opsPre : List (HloOp τ sig (Elt F))).Forall fun op => op.fresh = ∅ :=
  forall_append_of opsPre0_fresh (forall_append_of opsPre1_fresh (forall_append_of opsPre2_fresh (forall_append_of opsPre3_fresh
    (forall_append_of opsPre4_fresh (forall_append_of opsPre5_fresh (forall_append_of opsPre6_fresh (forall_append_of opsPre7_fresh opsPre8_fresh)))))))

theorem ops_fresh : ∀ op ∈ (ops : List (HloOp τ sig (Elt F))), op.fresh = ∅ :=
  List.forall_iff_forall_mem.1 (forall_append_of opsPre_fresh (forall_append_of opsDec_fresh (forall_append_of opsInit_fresh
    (forall_append_of opsL0_fresh (forall_append_of opsL1_fresh (forall_append_of opsL2_fresh (forall_append_of opsL3_fresh
    (forall_append_of opsL4_fresh (forall_append_of opsL5_fresh (forall_append_of opsL6_fresh (forall_append_of opsL7_fresh
    (forall_append_of opsL8_fresh (forall_append_of opsL9_fresh opsFin_fresh)))))))))))))

/-! ## The run -/

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.HostDecision.lean ====
/-
  The decisions of every node for every row, read at an index.

  For a row whose prenet output is `x` and a node `n` with weight `w n` and bias `b n`, the decision is the
  logistic function of `x · w n + b n`. The reference computes it for all rows and nodes at once: the product as
  a contraction over an axis of extent one (a sum of one term), the bias broadcast over the rows, and the logistic
  function spelled out as `1 / (1 + exp (-z))`, which on the extended reals IS the logistic function at every
  argument, the two infinities included. It then lays the decision and its complement `1 - decision` side by side
  on a new last axis: entry `(b, n, 0)` is the share of node `n`'s left child in row `b`, entry `(b, n, 1)` the
  share of its right child.
-/
import proofs.«132556_j49718541418874_1_alg».proof.Proof.Gen.ReferenceIdeal
import proofs.«132556_j49718541418874_1_alg».proof.Proof.TreeSpec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.Tree

open Cert.ReferenceIdeal Cert.ReferenceIdeal.Gen Idealize.ShloMosaic Idealize.ShloMosaic.ValueIdx

/-- The reference's decision array, as a term of the prenet output `xp`, the node weights `fw` and the node
    biases `fb`: the host operations that compute it, composed. -/
def decision {F : FTy → Type} [FloatOps F] (xp : FVec F S32768x1 .f32) (fw : FVec F S1024x1x1 .f32) (fb : FVec F S1024x1 .f32) :
    FVec F S32768x1024x2 .f32 :=
  concatenate S32768x1024x2 2
    [⟨S32768x1024x1, (Host.divf (broadcastInDim S32768x1024x1 ![] bcast_S_S32768x1024x1 (constant S_ .f32 0x3F800000#32)) (addf (broadcastInDim S32768x1024x1 ![] bcast_S_S32768x1024x1 (constant S_ .f32 0x3F800000#32)) (Host.exp (Host.negf (addf (Host.dotGeneral dot_S32768x1_S1024x1x1_S32768x1024x1_1_2_0_01_n_n none xp fw) (broadcastInDim S32768x1024x1 ![0, 1, 2] bcast_S1x1024x1_S32768x1024x1_0_1_2 (broadcastInDim S1x1024x1 ![1, 2] bcast_S1024x1_S1x1024x1_1_2 fb)))))))⟩,
     ⟨S32768x1024x1, subf (broadcastInDim S32768x1024x1 ![] bcast_S_S32768x1024x1 (constant S_ .f32 0x3F800000#32)) (Host.divf (broadcastInDim S32768x1024x1 ![] bcast_S_S32768x1024x1 (constant S_ .f32 0x3F800000#32)) (addf (broadcastInDim S32768x1024x1 ![] bcast_S_S32768x1024x1 (constant S_ .f32 0x3F800000#32)) (Host.exp (Host.negf (addf (Host.dotGeneral dot_S32768x1_S1024x1x1_S32768x1024x1_1_2_0_01_n_n none xp fw) (broadcastInDim S32768x1024x1 ![0, 1, 2] bcast_S1x1024x1_S32768x1024x1_0_1_2 (broadcastInDim S1x1024x1 ![1, 2] bcast_S1024x1_S1x1024x1_1_2 fb)))))))⟩]
    concatenates_S32768x1024x1_S32768x1024x1_S32768x1024x2_d2

/-- Two elements of an index range of extent one are equal. -/
theorem fin_eq_of_extent_one {k : ℕ} (hk : k = 1) (x y : Fin k) : x = y := by
  subst hk
  exact Subsingleton.elim x y

/-- The scalar `1.0` broadcast over rows and nodes reads the extended real `1` everywhere. -/
theorem one_apply (i : S32768x1024x1.Idx) :
    broadcastInDim S32768x1024x1 ![] bcast_S_S32768x1024x1 (constant (F := Ideal) S_ .f32 0x3F800000#32) i = 1 := by
  rw [broadcastInDim_scalar_apply]
  exact Cert.Tree.ofBits_one

/-- `one / (one + exp (-z))` in the host's operations, at an index where `one` reads `1`, is the logistic function
    of `z` there: the ideal logistic function is defined by this very expression. -/
theorem logisticSpelt_apply {s : Shape} (one z : FVec Ideal s .f32) (i : s.Idx) (h1 : one i = 1) :
    Host.divf one (addf one (Host.exp (Host.negf z))) i = Ideal.logistic (z i) := by
  show Ideal.div (one i) (one i + Ideal.exp (-(z i))) = Ideal.div 1 (1 + Ideal.exp (-(z i)))
  rw [h1]

/-- The biases broadcast over the rows: entry `(b, n, 0)` is node `n`'s bias. -/
theorem bias_apply (fb : FVec Ideal S1024x1 .f32) (b : Fin 32768) (n : Fin 1024) (z : Fin 1) :
    broadcastInDim S32768x1024x1 ![0, 1, 2] bcast_S1x1024x1_S32768x1024x1_0_1_2
        (broadcastInDim S1x1024x1 ![1, 2] bcast_S1024x1_S1x1024x1_1_2 fb) (ix3 b n z)
      = fb (ix2 n 0) := by
  refine (broadcastInDim_apply _ bcast_S1x1024x1_S32768x1024x1_0_1_2 _ (ix3 b n z) (ix3 (0 : Fin 1) n (0 : Fin 1)) ?_).trans ?_
  · intro a
    match a with
    | ⟨0, _⟩ => rfl
    | ⟨1, _⟩ => rfl
    | ⟨2, _⟩ => rfl
  refine broadcastInDim_apply _ bcast_S1024x1_S1x1024x1_1_2 fb (ix3 (0 : Fin 1) n (0 : Fin 1)) (ix2 n (0 : Fin 1)) ?_
  intro a
  match a with
  | ⟨0, _⟩ => rfl
  | ⟨1, _⟩ => rfl

/-- The product of the prenet output with the node weights contracts an axis of extent one: the sum has the one
    term `x b · w n`. -/
theorem dot_apply (xp : FVec Ideal S32768x1 .f32) (fw : FVec Ideal S1024x1x1 .f32) (b : Fin 32768) (n : Fin 1024) (z : Fin 1) :
    Host.dotGeneral dot_S32768x1_S1024x1x1_S32768x1024x1_1_2_0_01_n_n none xp fw (ix3 b n z)
      = xp (ix2 b 0) * fw (ix3 n 0 0) := by
  refine (Ideal.dotGeneral_apply dot_S32768x1_S1024x1x1_S32768x1024x1_1_2_0_01_n_n none .single xp fw (ix3 b n z)).trans ?_
  -- the contraction index set has one element
  haveI : Unique dot_S32768x1_S1024x1x1_S32768x1024x1_1_2_0_01_n_n.contr.Idx :=
    (contrEquiv1 dot_S32768x1_S1024x1x1_S32768x1024x1_1_2_0_01_n_n 1 rfl rfl).unique
  rw [Fintype.sum_unique]
  -- the left operand is read at `(b, 0)`: the row is the result's row, the contracted axis has extent one
  have hl : ∀ k, dot_S32768x1_S1024x1x1_S32768x1024x1_1_2_0_01_n_n.lhsIdx (ix3 b n z) k = ix2 b 0 := by
    intro k
    funext a
    match a with
    | ⟨0, _⟩ => exact Fin.ext rfl
    | ⟨1, _⟩ => exact fin_eq_of_extent_one rfl _ _
  -- the right operand is read at `(n, 0, 0)`: the node is the result's node, the other two axes have extent one
  have hr : ∀ k, dot_S32768x1_S1024x1x1_S32768x1024x1_1_2_0_01_n_n.rhsIdx (ix3 b n z) k = ix3 n 0 0 := by
    intro k
    funext a
    match a with
    | ⟨0, _⟩ => exact Fin.ext rfl
    | ⟨1, _⟩ => exact fin_eq_of_extent_one rfl _ _
    | ⟨2, _⟩ => exact fin_eq_of_extent_one rfl _ _
  rw [hl, hr]

/-- At `(b, n, s)` the decision array holds the share of side `s` under node `n` for row `b`: the logistic function
    of `x · w + b` for the left side, its complement for the right. -/
theorem decision_apply (xp : FVec Ideal S32768x1 .f32) (fw : FVec Ideal S1024x1x1 .f32) (fb : FVec Ideal S1024x1 .f32)
    (b : Fin 32768) (n : Fin 1024) (s : Fin 2) :
    decision (F := Ideal) xp fw fb (ix3 b n s)
      = Cert.Tree.gate (Ideal.logistic (xp (ix2 b 0) * fw (ix3 n 0 0) + fb (ix2 n 0))) s.val := by
  unfold decision
  match s with
  | ⟨0, _⟩ =>
    -- side `0` falls in the first piece, the decision itself
    refine (concatenate_pair_apply_left (t := S32768x1024x2) (s₁ := S32768x1024x1) (s₂ := S32768x1024x1)
      (2 : Fin 3) _ _ _ (ix3 b n (⟨0, by norm_num⟩ : Fin 2)) rfl (ix3 b n (0 : Fin 1)) ?_).trans ?_
    · intro a
      match a with
      | ⟨0, _⟩ => rfl
      | ⟨1, _⟩ => rfl
      | ⟨2, _⟩ => rfl
    refine (logisticSpelt_apply _ _ _ ?_).trans ?_
    · exact one_apply _
    rw [addf_apply, dot_apply, bias_apply]
    exact (if_pos rfl).symm
  | ⟨1, _⟩ =>
    -- side `1` falls in the second piece, the complement `1 - decision`
    refine (concatenate_pair_apply_right (t := S32768x1024x2) (s₁ := S32768x1024x1) (s₂ := S32768x1024x1)
      (2 : Fin 3) _ _ _ (ix3 b n (⟨1, by norm_num⟩ : Fin 2)) rfl rfl (ix3 b n (0 : Fin 1)) ?_ ?_).trans ?_
    · intro a ha
      match a, ha with
      | ⟨0, _⟩, _ => rfl
      | ⟨1, _⟩, _ => rfl
      | ⟨2, _⟩, ha => exact absurd rfl ha
    · rfl
    rw [subf_apply, one_apply]
    refine (congrArg (fun t => (1 : EReal) - t)
      (?_ : _ = Ideal.logistic (xp (ix2 b 0) * fw (ix3 n 0 0) + fb (ix2 n 0)))).trans ?_
    · refine (logisticSpelt_apply _ _ _ ?_).trans ?_
      · exact one_apply _
      rw [addf_apply, dot_apply, bias_apply]
    exact (if_neg (by norm_num)).symm

end Cert.ReferenceIdeal.Tree

end
-- ==== Proof.HostLevel.lean ====
/-
  One level of the reference's tree step, read at an index.

  The reference keeps the masses of the positions `[0, 2W)` as a `[B, 2W, 1]` array `M` and the decisions as a
  `[B, N, 2]` array `D` (`D (b, n, 0)` the share of node `n`'s left child, `D (b, n, 1)` of its right child).
  One level: cut the last `W` positions `[W, 2W)` out of `M`, repeat each twice along a new axis (a reshape to
  rank six, a broadcast of the fifth axis from `1` to `2`, a reshape to `[B, W, 2]`), multiply by the decisions of
  the nodes `[W, 2W)`, flatten to `[B, 2W, 1]` and append to `M` along the position axis. Position `p` of the
  result is `M`'s position `p` for `p < 2W`, and for `p = 2W + j` the parent `W + j / 2`'s mass times the
  decision `D (b, W + j / 2, j % 2)`. Generic in the extents, so that one lemma serves every level.
-/
import Idealize.ShloMosaic.Lib.ValueIdx
import Idealize.ShloMosaic.Lib.ValueIdxRank6
import Idealize.ShloMosaic.Lib.Pipeline.Value

noncomputable section

namespace Cert.Tree

open Idealize.ShloMosaic Idealize.ShloMosaic.ValueIdx

/-- The appended array at a position below `2W`: the old array's entry. -/
theorem hostLevel_apply_old {B N W W2 W4 : ℕ} (hW2 : W2 = 2 * W) (hW4 : W4 = 2 * W2)
    (M : FVec Ideal (⟨3, ![B, W2, 1]⟩ : Shape) .f32) (D : FVec Ideal (⟨3, ![B, N, 2]⟩ : Shape) .f32)
    (hs1 : (⟨3, ![B, W2, 1]⟩ : Shape).Slices ![0, W, 0] ⟨3, ![B, W, 1]⟩)
    (hr1 : (⟨3, ![B, W, 1]⟩ : Shape).ShapeCasts ⟨6, ![1, B, 1, W, 1, 1]⟩)
    (hb : (⟨6, ![1, B, 1, W, 1, 1]⟩ : Shape).BroadcastsInDim ⟨6, ![1, B, 1, W, 2, 1]⟩ ![0, 1, 2, 3, 4, 5])
    (hr2 : (⟨6, ![1, B, 1, W, 2, 1]⟩ : Shape).ShapeCasts ⟨3, ![B, W, 2]⟩)
    (hs2 : (⟨3, ![B, N, 2]⟩ : Shape).Slices ![0, W, 0] ⟨3, ![B, W, 2]⟩)
    (hr3 : (⟨3, ![B, W, 2]⟩ : Shape).ShapeCasts ⟨3, ![B, W2, 1]⟩)
    (hc : Shape.Concatenates [(⟨3, ![B, W2, 1]⟩ : Shape), ⟨3, ![B, W2, 1]⟩] ⟨3, ![B, W4, 1]⟩ 1)
    (b : Fin B) (p : Fin W4) (p' : Fin W2) (hp : p'.val = p.val) (z : Fin 1) :
    concatenate ⟨3, ![B, W4, 1]⟩ 1
        [⟨⟨3, ![B, W2, 1]⟩, M⟩,
         ⟨⟨3, ![B, W2, 1]⟩, shapeCast ⟨3, ![B, W2, 1]⟩
            (mulf (shapeCast ⟨3, ![B, W, 2]⟩
                (broadcastInDim ⟨6, ![1, B, 1, W, 2, 1]⟩ ![0, 1, 2, 3, 4, 5] hb
                  (shapeCast ⟨6, ![1, B, 1, W, 1, 1]⟩ (extractStridedSlice ⟨3, ![B, W, 1]⟩ ![0, W, 0] M hs1) hr1)) hr2)
              (extractStridedSlice ⟨3, ![B, W, 2]⟩ ![0, W, 0] D hs2)) hr3⟩] hc (ix3 b p z)
      = M (ix3 b p' z) := by
  -- position `p` is below the first piece's extent, so the first piece is read at the same coordinates
  refine concatenate_pair_apply_left (t := ⟨3, ![B, W4, 1]⟩) (s₁ := ⟨3, ![B, W2, 1]⟩) (s₂ := ⟨3, ![B, W2, 1]⟩)
    (1 : Fin 3) M _ hc (ix3 b p z) rfl (ix3 b p' z) ?_
  intro a
  match a with
  | ⟨0, _⟩ => rfl
  | ⟨1, _⟩ => exact hp
  | ⟨2, _⟩ => rfl

/-- The appended array at a position `2W + j`: the parent `W + j / 2`'s entry times the decision of that parent
    for the side `j % 2`. -/
theorem hostLevel_apply_new {B N W W2 W4 : ℕ} (hW2 : W2 = 2 * W) (hW4 : W4 = 2 * W2)
    (M : FVec Ideal (⟨3, ![B, W2, 1]⟩ : Shape) .f32) (D : FVec Ideal (⟨3, ![B, N, 2]⟩ : Shape) .f32)
    (hs1 : (⟨3, ![B, W2, 1]⟩ : Shape).Slices ![0, W, 0] ⟨3, ![B, W, 1]⟩)
    (hr1 : (⟨3, ![B, W, 1]⟩ : Shape).ShapeCasts ⟨6, ![1, B, 1, W, 1, 1]⟩)
    (hb : (⟨6, ![1, B, 1, W, 1, 1]⟩ : Shape).BroadcastsInDim ⟨6, ![1, B, 1, W, 2, 1]⟩ ![0, 1, 2, 3, 4, 5])
    (hr2 : (⟨6, ![1, B, 1, W, 2, 1]⟩ : Shape).ShapeCasts ⟨3, ![B, W, 2]⟩)
    (hs2 : (⟨3, ![B, N, 2]⟩ : Shape).Slices ![0, W, 0] ⟨3, ![B, W, 2]⟩)
    (hr3 : (⟨3, ![B, W, 2]⟩ : Shape).ShapeCasts ⟨3, ![B, W2, 1]⟩)
    (hc : Shape.Concatenates [(⟨3, ![B, W2, 1]⟩ : Shape), ⟨3, ![B, W2, 1]⟩] ⟨3, ![B, W4, 1]⟩ 1)
    (b : Fin B) (p : Fin W4) (j : ℕ) (hp : p.val = W2 + j)
    (q : Fin W2) (hq : q.val = W + j / 2) (n : Fin N) (hn : n.val = W + j / 2) (s : Fin 2) (hs : s.val = j % 2) (z : Fin 1) :
    concatenate ⟨3, ![B, W4, 1]⟩ 1
        [⟨⟨3, ![B, W2, 1]⟩, M⟩,
         ⟨⟨3, ![B, W2, 1]⟩, shapeCast ⟨3, ![B, W2, 1]⟩
            (mulf (shapeCast ⟨3, ![B, W, 2]⟩
                (broadcastInDim ⟨6, ![1, B, 1, W, 2, 1]⟩ ![0, 1, 2, 3, 4, 5] hb
                  (shapeCast ⟨6, ![1, B, 1, W, 1, 1]⟩ (extractStridedSlice ⟨3, ![B, W, 1]⟩ ![0, W, 0] M hs1) hr1)) hr2)
              (extractStridedSlice ⟨3, ![B, W, 2]⟩ ![0, W, 0] D hs2)) hr3⟩] hc (ix3 b p z)
      = M (ix3 b q z) * D (ix3 b n s) := by
  have hpl : p.val < W4 := p.isLt
  have hj : j < W2 := by omega
  have hj2 : j / 2 < W := by omega
  have hz : z.val = 0 := by have := z.isLt; omega
  -- position `2W + j` falls in the second piece, at `(b, j, z)`
  refine (concatenate_pair_apply_right (t := ⟨3, ![B, W4, 1]⟩) (s₁ := ⟨3, ![B, W2, 1]⟩) (s₂ := ⟨3, ![B, W2, 1]⟩)
    (1 : Fin 3) M _ hc (ix3 b p z) rfl rfl (ix3 b (⟨j, hj⟩ : Fin W2) z) ?_ ?_).trans ?_
  · intro a ha
    match a, ha with
    | ⟨0, _⟩, _ => rfl
    | ⟨1, _⟩, ha => exact absurd rfl ha
    | ⟨2, _⟩, _ => rfl
  · show j + W2 = p.val
    omega
  -- `(b, j, 0)` of `[B, 2W, 1]` and `(b, j / 2, j % 2)` of `[B, W, 2]` are the same row-major position
  refine (shapeCast_apply _ hr3 (ix3 b (⟨j, hj⟩ : Fin W2) z) (ix3 b (⟨j / 2, hj2⟩ : Fin W) s) ?_).trans ?_
  · rw [Shape.rowMajor_val_three, Shape.rowMajor_val_three]
    show (b.val * W + j / 2) * 2 + s.val = (b.val * W2 + j) * 1 + z.val
    subst hW2
    have e : b.val * (2 * W) = (b.val * W) * 2 := by ring
    rw [e, hs, hz]
    have := Nat.div_add_mod j 2
    omega
  -- the product is pointwise
  rw [mulf_apply]
  congr 1
  · -- the left factor: `(b, j / 2, s)` of `[B, W, 2]` is `(0, b, 0, j / 2, s, 0)` of `[1, B, 1, W, 2, 1]`
    refine (shapeCast_apply _ hr2 (ix3 b (⟨j / 2, hj2⟩ : Fin W) s)
      (ix6 (0 : Fin 1) b (0 : Fin 1) (⟨j / 2, hj2⟩ : Fin W) s (0 : Fin 1)) ?_).trans ?_
    · rw [Shape.rowMajor_val_six, Shape.rowMajor_val_three]
      show ((((0 * B + b.val) * 1 + 0) * W + j / 2) * 2 + s.val) * 1 + 0 = (b.val * W + j / 2) * 2 + s.val
      simp only [Nat.zero_mul, Nat.zero_add, Nat.mul_one, Nat.add_zero]
    -- the broadcast repeats the operand along the fifth axis: coordinate `0` there, the same elsewhere
    refine (broadcastInDim_apply _ hb _ (ix6 (0 : Fin 1) b (0 : Fin 1) (⟨j / 2, hj2⟩ : Fin W) s (0 : Fin 1))
      (ix6 (0 : Fin 1) b (0 : Fin 1) (⟨j / 2, hj2⟩ : Fin W) (0 : Fin 1) (0 : Fin 1)) ?_).trans ?_
    · intro a
      match a with
      | ⟨0, _⟩ => rfl
      | ⟨1, _⟩ =>
        show b.val = if B = 1 then 0 else b.val
        split
        · have := b.isLt; omega
        · rfl
      | ⟨2, _⟩ => rfl
      | ⟨3, _⟩ =>
        show j / 2 = if W = 1 then 0 else j / 2
        split
        · omega
        · rfl
      | ⟨4, _⟩ => rfl
      | ⟨5, _⟩ => rfl
    -- `(0, b, 0, j / 2, 0, 0)` of `[1, B, 1, W, 1, 1]` is `(b, j / 2, 0)` of `[B, W, 1]`
    refine (shapeCast_apply _ hr1 (ix6 (0 : Fin 1) b (0 : Fin 1) (⟨j / 2, hj2⟩ : Fin W) (0 : Fin 1) (0 : Fin 1))
      (ix3 b (⟨j / 2, hj2⟩ : Fin W) (0 : Fin 1)) ?_).trans ?_
    · rw [Shape.rowMajor_val_three, Shape.rowMajor_val_six]
      show (b.val * W + j / 2) * 1 + 0 = ((((0 * B + b.val) * 1 + 0) * W + j / 2) * 1 + 0) * 1 + 0
      simp only [Nat.zero_mul, Nat.zero_add, Nat.mul_one, Nat.add_zero]
    -- the slice starts at position `W`
    refine extractStridedSlice_apply _ M hs1 (ix3 b (⟨j / 2, hj2⟩ : Fin W) (0 : Fin 1)) (ix3 b q z) ?_
    intro a
    match a with
    | ⟨0, _⟩ => show b.val = 0 + b.val; omega
    | ⟨1, _⟩ => show q.val = W + j / 2; exact hq
    | ⟨2, _⟩ => show z.val = 0 + 0; omega
  · -- the right factor: the decisions' slice starts at node `W`
    refine extractStridedSlice_apply _ D hs2 (ix3 b (⟨j / 2, hj2⟩ : Fin W) s) (ix3 b n s) ?_
    intro a
    match a with
    | ⟨0, _⟩ => show b.val = 0 + b.val; omega
    | ⟨1, _⟩ => show n.val = W + j / 2; exact hn
    | ⟨2, _⟩ => show s.val = 0 + s.val; omega

end Cert.Tree

end
-- ==== Proof.ColumnSet.lean ====
/-
  A column overwritten by a scatter, read at an index.

  `x.at[:, 0].set(u)` on a `[B, N]` array lowers to one `stablehlo.scatter` with ONE start index (the column
  number, `0`), an update of `B` elements (one per row, the update's only axis being the window over the rows)
  and the body "take the update": row `r` of the update lands at `(r, 0)`. The operation is a left fold over the
  `B` update indices; they land at pairwise distinct places, so the fold's result at `(r, c)` is the update's
  element `r` when `c = 0` and the operand's element otherwise. Generic in the two extents.
-/
import Idealize.ShloMosaic.Lib.ValueIdx
import Idealize.ShloMosaic.Lib.Pipeline.Value

noncomputable section

namespace Cert.Tree

open Idealize.ShloMosaic Idealize.ShloMosaic.ValueIdx

variable {α : Type}

/-- A left fold of point-writes read at an index no write aims at: the initial value. -/
theorem foldl_write_of_not_mem {ι κ : Type} [DecidableEq ι] (tgt : κ → ι) (val : κ → α) (i : ι) :
    ∀ (l : List κ) (x : ι → α), (∀ n ∈ l, tgt n ≠ i) →
      l.foldl (fun r n i' => if i' = tgt n then val n else r i') x i = x i
  | [], _, _ => rfl
  | a :: l, x, h => by
      rw [List.foldl_cons, foldl_write_of_not_mem tgt val i l _ (fun n hn => h n (List.mem_cons_of_mem _ hn))]
      exact if_neg (fun e => h a List.mem_cons_self e.symm)

/-- A left fold of point-writes read at an index that exactly one element `n` of the list aims at: that
    element's value (whatever was written there before is overwritten, and nothing after it aims there). -/
theorem foldl_write_of_mem {ι κ : Type} [DecidableEq ι] (tgt : κ → ι) (val : κ → α) (i : ι) (n : κ)
    (hn : tgt n = i) :
    ∀ (l : List κ) (x : ι → α), n ∈ l → (∀ m ∈ l, tgt m = i → m = n) →
      l.foldl (fun r n i' => if i' = tgt n then val n else r i') x i = val n
  | [], _, hmem, _ => absurd hmem List.not_mem_nil
  | a :: l, x, hmem, huniq => by
      rw [List.foldl_cons]
      by_cases hl : n ∈ l
      · exact foldl_write_of_mem tgt val i n hn l _ hl (fun m hm => huniq m (List.mem_cons_of_mem _ hm))
      · have ha : a = n := by
          rcases List.mem_cons.1 hmem with h | h
          · exact h.symm
          · exact absurd h hl
        rw [foldl_write_of_not_mem tgt val i l _
          (fun m hm e => hl (huniq m (List.mem_cons_of_mem _ hm) e ▸ hm))]
        subst ha
        exact if_pos hn.symm

/-- Where update index `j` lands: row `j 0`, column `0`. The start is `0` on both axes (the one start index
    is `0`, and the row axis is not a scattered one); the window coordinate is `j 0` on the row axis, the only
    axis that is not inserted, and `0` on the column axis. -/
theorem resultIdx_col0 {B N : ℕ} (hN : 0 < N)
    (d : ScatterDims (⟨2, ![B, N]⟩ : Shape) ⟨1, ![1]⟩ ⟨1, ![B]⟩)
    (hu : d.updateWindowDims = [0]) (hi : d.insertedWindowDims = [1])
    (hs : d.scatterDimsToOperandDims = [1]) (hv : d.indexVectorDim = 0)
    (idx : IVec (⟨1, ![1]⟩ : Shape) 32) (hidx : ∀ k, idx k = 0#32)
    (j : (⟨1, ![B]⟩ : Shape).Idx) :
    d.resultIdx? j idx = some (ix2 (j 0) ⟨0, hN⟩) := by
  obtain ⟨uw, iw, sd, iv, wf⟩ := d
  dsimp only at hu hi hs hv
  subst hu hi hs hv
  generalize hd : (⟨[0], [1], [1], 0, wf⟩ : ScatterDims (⟨2, ![B, N]⟩ : Shape) ⟨1, ![1]⟩ ⟨1, ![B]⟩) = d
  have hst : ∀ a, d.start j idx a = 0 := by
    intro a
    unfold ScatterDims.start
    split
    · rw [hidx]; rfl
    · rfl
  have hw0 : d.window j 0 = ((j 0).val : ℕ) := by
    subst hd; rfl
  have hw1 : d.window j 1 = 0 := by
    subst hd; rfl
  unfold ScatterDims.resultIdx?
  have hall : ∀ a, 0 ≤ d.start j idx a + d.window j a ∧ d.start j idx a + d.window j a < (⟨2, ![B, N]⟩ : Shape).size a := by
    intro a
    rw [hst]
    match a with
    | ⟨0, _⟩ =>
      have e : d.window j ⟨0, by norm_num⟩ = ((j 0).val : ℕ) := hw0
      rw [e]
      have hlt : (j 0).val < B := (j 0).isLt
      refine ⟨by omega, ?_⟩
      show (0 : ℤ) + ((j 0).val : ℕ) < (B : ℕ)
      omega
    | ⟨1, _⟩ =>
      have e : d.window j ⟨1, by norm_num⟩ = 0 := hw1
      rw [e]
      refine ⟨by omega, ?_⟩
      show (0 : ℤ) + ((0 : ℕ) : ℤ) < (N : ℕ)
      omega
  rw [dif_pos hall]
  congr 1
  funext a
  refine Fin.ext ?_
  match a with
  | ⟨0, _⟩ =>
    show (d.start j idx 0 + d.window j 0).toNat = (j 0).val
    rw [hst, hw0]; simp
  | ⟨1, _⟩ =>
    show (d.start j idx 1 + d.window j 1).toNat = 0
    rw [hst, hw1]; simp

/-- One update per row written into column `0` of a `[B, N]` array: at `(r, c)` the result is the update's
    element `r` when `c = 0`, the operand's element otherwise. -/
theorem scatter_col0_apply {B N : ℕ} (hN : 0 < N)
    (d : ScatterDims (⟨2, ![B, N]⟩ : Shape) ⟨1, ![1]⟩ ⟨1, ![B]⟩)
    (hu : d.updateWindowDims = [0]) (hi : d.insertedWindowDims = [1])
    (hs : d.scatterDimsToOperandDims = [1]) (hv : d.indexVectorDim = 0)
    (x : (⟨2, ![B, N]⟩ : Shape).Idx → α) (idx : IVec (⟨1, ![1]⟩ : Shape) 32) (hidx : ∀ k, idx k = 0#32)
    (upd : (⟨1, ![B]⟩ : Shape).Idx → α) (r : Fin B) (c : Fin N) :
    Host.scatter d (fun _ b => b) x idx upd (ix2 r c) = if c.val = 0 then upd (ix1 r) else x (ix2 r c) := by
  unfold Host.scatter
  refine (congrFun (List.foldl_ext _
    (fun r n i' => if i' = ix2 (((⟨1, ![B]⟩ : Shape).rowMajor.symm n) 0) ⟨0, hN⟩
      then upd ((⟨1, ![B]⟩ : Shape).rowMajor.symm n) else r i') x ?_) (ix2 r c)).trans ?_
  · intro acc n _
    rw [resultIdx_col0 hN d hu hi hs hv idx hidx]
    rfl
  by_cases hc : c.val = 0
  · rw [if_pos hc]
    have hcc : c = ⟨0, hN⟩ := Fin.ext hc
    subst hcc
    refine foldl_write_of_mem (fun n => ix2 (((⟨1, ![B]⟩ : Shape).rowMajor.symm n) 0) ⟨0, hN⟩)
      (fun n => upd ((⟨1, ![B]⟩ : Shape).rowMajor.symm n)) (ix2 r ⟨0, hN⟩)
      ((⟨1, ![B]⟩ : Shape).rowMajor (ix1 r)) ?_ _ x (List.mem_finRange _) ?_ |>.trans ?_
    · show ix2 (((⟨1, ![B]⟩ : Shape).rowMajor.symm ((⟨1, ![B]⟩ : Shape).rowMajor (ix1 r))) 0) ⟨0, hN⟩ = _
      rw [Equiv.symm_apply_apply]
      rfl
    · intro m _ hm
      have h0 : ((⟨1, ![B]⟩ : Shape).rowMajor.symm m) 0 = r := congrFun hm 0
      have e : (⟨1, ![B]⟩ : Shape).rowMajor.symm m = ix1 r := by
        funext a
        match a with
        | ⟨0, _⟩ => exact h0
      rw [← e, Equiv.apply_symm_apply]
    · show upd ((⟨1, ![B]⟩ : Shape).rowMajor.symm ((⟨1, ![B]⟩ : Shape).rowMajor (ix1 r))) = _
      rw [Equiv.symm_apply_apply]
  · rw [if_neg hc]
    refine foldl_write_of_not_mem _ _ _ _ _ ?_
    intro n _ hn
    have h1 : (⟨0, hN⟩ : Fin N) = c := congrFun hn 1
    exact hc (by rw [← h1])

end Cert.Tree

end
-- ==== Proof.HostStep.lean ====
/-
  The reference fills the tree level by level.

  The reference holds the masses of the positions `[0, 2W)` as a `[32768, 2W, 1]` array. The invariant of its ten
  steps: every position from `1` on holds the tree's mass at that position under the row's decisions (position `0`
  holds whatever it holds: it is overwritten at the end). It holds at the start, where position `1` holds `1`. One
  level keeps it: a position below `2W` keeps its entry, and the position `2W + j` receives the parent `W + j / 2`'s
  entry times the decision array's entry `(b, W + j / 2, j % 2)`, which is the share the tree's recursion multiplies
  by. At the end the position axis is flattened into the columns of a `[32768, 2048]` array and column `0` is
  overwritten with zeros: the routing array.
-/
import proofs.«132556_j49718541418874_1_alg».proof.Proof.HostDecision
import proofs.«132556_j49718541418874_1_alg».proof.Proof.HostLevel
import proofs.«132556_j49718541418874_1_alg».proof.Proof.ColumnSet

noncomputable section

namespace Cert.ReferenceIdeal.Tree

open Cert.ReferenceIdeal Cert.ReferenceIdeal.Gen Cert.Tree Idealize.ShloMosaic Idealize.ShloMosaic.ValueIdx

variable (xp : FVec Ideal S32768x1 .f32) (fw : FVec Ideal S1024x1x1 .f32) (fb : FVec Ideal S1024x1 .f32)

/-- Every position from `1` on holds the tree's mass under its row's decisions. -/
def Holds {W2 : ℕ} (M : FVec Ideal (⟨3, ![32768, W2, 1]⟩ : Shape) .f32) : Prop :=
  ∀ (b : Fin 32768) (p : Fin W2), 1 ≤ p.val → M (ix3 b p 0) = mu (sigma (xp (ix2 b 0)) fw fb) p.val

/-- The share only depends on the parity of the position. -/
theorem gate_mod (σ : EReal) (j : ℕ) : gate σ (j % 2) = gate σ j := by
  unfold gate
  rw [Nat.mod_mod]

/-- The start: two positions, both holding one; position `1` is the root. -/
theorem holds_init :
    Holds xp fw fb (W2 := 2) (broadcastInDim S32768x2x1 ![] bcast_S_S32768x2x1 (constant (F := Ideal) S_ .f32 0x3F800000#32)) := by
  intro b p hp
  -- of the two positions only `1` is at least `1`, and the root's mass is `1`
  have hp1 : p.val = 1 := by have := p.isLt; omega
  rw [hp1, mu_one, broadcastInDim_scalar_apply]
  exact Cert.Tree.ofBits_one

/-- One level keeps the invariant. -/
theorem holds_step {W W2 W4 : ℕ} (hW : 1 ≤ W) (hW2 : W2 = 2 * W) (hW4 : W4 = 2 * W2) (hN : W2 ≤ 1024)
    (M : FVec Ideal (⟨3, ![32768, W2, 1]⟩ : Shape) .f32)
    (hs1 : (⟨3, ![32768, W2, 1]⟩ : Shape).Slices ![0, W, 0] ⟨3, ![32768, W, 1]⟩)
    (hr1 : (⟨3, ![32768, W, 1]⟩ : Shape).ShapeCasts ⟨6, ![1, 32768, 1, W, 1, 1]⟩)
    (hb : (⟨6, ![1, 32768, 1, W, 1, 1]⟩ : Shape).BroadcastsInDim ⟨6, ![1, 32768, 1, W, 2, 1]⟩ ![0, 1, 2, 3, 4, 5])
    (hr2 : (⟨6, ![1, 32768, 1, W, 2, 1]⟩ : Shape).ShapeCasts ⟨3, ![32768, W, 2]⟩)
    (hs2 : (⟨3, ![32768, 1024, 2]⟩ : Shape).Slices ![0, W, 0] ⟨3, ![32768, W, 2]⟩)
    (hr3 : (⟨3, ![32768, W, 2]⟩ : Shape).ShapeCasts ⟨3, ![32768, W2, 1]⟩)
    (hc : Shape.Concatenates [(⟨3, ![32768, W2, 1]⟩ : Shape), ⟨3, ![32768, W2, 1]⟩] ⟨3, ![32768, W4, 1]⟩ 1)
    (hM : Holds xp fw fb M) :
    Holds xp fw fb (W2 := W4)
      (concatenate ⟨3, ![32768, W4, 1]⟩ 1
        [⟨⟨3, ![32768, W2, 1]⟩, M⟩,
         ⟨⟨3, ![32768, W2, 1]⟩, shapeCast ⟨3, ![32768, W2, 1]⟩
            (mulf (shapeCast ⟨3, ![32768, W, 2]⟩
                (broadcastInDim ⟨6, ![1, 32768, 1, W, 2, 1]⟩ ![0, 1, 2, 3, 4, 5] hb
                  (shapeCast ⟨6, ![1, 32768, 1, W, 1, 1]⟩ (extractStridedSlice ⟨3, ![32768, W, 1]⟩ ![0, W, 0] M hs1) hr1)) hr2)
              (extractStridedSlice ⟨3, ![32768, W, 2]⟩ ![0, W, 0] (decision xp fw fb) hs2)) hr3⟩] hc) := by
  intro b p hp
  by_cases hlt : p.val < W2
  · -- a position below `2W` keeps its entry
    refine (hostLevel_apply_old hW2 hW4 M (decision xp fw fb) hs1 hr1 hb hr2 hs2 hr3 hc b p ⟨p.val, hlt⟩ rfl 0).trans ?_
    exact hM b ⟨p.val, hlt⟩ hp
  · -- position `2W + j`: the parent `W + j / 2`'s mass times the decision on the side `j % 2`
    obtain ⟨j, hj⟩ : ∃ j, p.val = W2 + j := ⟨p.val - W2, by omega⟩
    have hpl : p.val < W4 := p.isLt
    have hq : W + j / 2 < W2 := by omega
    have hn : W + j / 2 < 1024 := by omega
    have hs : j % 2 < 2 := Nat.mod_lt _ (by norm_num)
    refine (hostLevel_apply_new hW2 hW4 M (decision xp fw fb) hs1 hr1 hb hr2 hs2 hr3 hc b p j hj
      ⟨W + j / 2, hq⟩ rfl ⟨W + j / 2, hn⟩ rfl ⟨j % 2, hs⟩ rfl 0).trans ?_
    rw [hM b ⟨W + j / 2, hq⟩ (by show 1 ≤ W + j / 2; omega), decision_apply]
    show mu (sigma (xp (ix2 b 0)) fw fb) (W + j / 2)
        * gate (Ideal.logistic (xp (ix2 b 0) * fw (ix3 ⟨W + j / 2, hn⟩ 0 0) + fb (ix2 ⟨W + j / 2, hn⟩ 0))) (j % 2)
      = mu (sigma (xp (ix2 b 0)) fw fb) p.val
    rw [← sigma_of_lt (xp (ix2 b 0)) fw fb (W + j / 2) hn, gate_mod, hj, hW2, mu_child _ W j hW]

/-- The end: the positions flattened into columns, column `0` overwritten with zeros, is the routing array. -/
theorem holds_final (M : FVec Ideal S32768x2048x1 .f32) (hM : Holds xp fw fb (W2 := 2048) M) :
    Host.scatter scatter_S32768x2048_S1_S32768_0_1_1_0 (fun _ b => b)
        (shapeCast S32768x2048 M shapeCasts_S32768x2048x1_S32768x2048)
        (broadcastInDim S1 ![] bcast_S_S1 (constantI S_ 32 0#32))
        (broadcastInDim S32768 ![] bcast_S_S32768 (constant (F := Ideal) S_ .f32 0x00000000#32))
      = G xp fw fb := by
  funext i
  obtain ⟨b, p, rfl⟩ : ∃ (b : Fin 32768) (p : Fin 2048), i = ix2 b p := ⟨i 0, i 1, eq_ix2 i⟩
  rw [G_apply]
  -- the scatter writes one update per row into column `0`
  refine (scatter_col0_apply (B := 32768) (N := 2048) (by norm_num) scatter_S32768x2048_S1_S32768_0_1_1_0 rfl rfl rfl rfl
    _ _ ?_ _ b p).trans ?_
  · intro k
    rw [broadcastInDim_scalar_apply]
    rfl
  by_cases hp : p.val = 0
  · -- column `0` holds the update, zero, and position `0` of the tree holds `0`
    rw [if_pos hp, hp, mu_zero, broadcastInDim_scalar_apply]
    exact Ideal.ofBits_zero_f32
  · -- column `p ≥ 1` holds position `p`'s entry: `(b, p)` of `[32768, 2048]` and `(b, p, 0)` of `[32768, 2048, 1]`
    -- are the same row-major position
    rw [if_neg hp]
    refine (shapeCast_apply M shapeCasts_S32768x2048x1_S32768x2048 (ix2 b p) (ix3 b p (0 : Fin 1)) ?_).trans
      (hM b p (by omega))
    rw [Shape.rowMajor_val_three, Shape.rowMajor_val_two]
    show (b.val * 2048 + p.val) * 1 + 0 = b.val * 2048 + p.val
    omega

end Cert.ReferenceIdeal.Tree

end
-- ==== Proof.RefValue.lean ====
/-
  What the reference's run leaves in its result.

  The run's operations fall into the prenet, the decision array, the start of the tree, its ten levels and the end.
  Stepping the buffers' contents through these stretches: the prenet leaves its output `x`; the decision array is a
  term of `x`, the node weights and the node biases; the start and each level keep the invariant "every position
  from 1 on holds the tree's mass"; the end flattens the positions into columns and zeroes column 0. So the result is
  the routing array of the prenet's output, and no stretch writes an argument.
-/
import proofs.«132556_j49718541418874_1_alg».proof.Proof.RefOps
import proofs.«132556_j49718541418874_1_alg».proof.Proof.HostStep
import Idealize.ShloMosaic.Lib.Pipeline.Frame

noncomputable section

namespace Cert.ReferenceIdeal.Run

open Cert.ReferenceIdeal Cert.ReferenceIdeal.Gen Cert.ReferenceIdeal.Tree Cert.Tree
open Idealize.ShloMosaic Idealize.ShloMosaic.TcCoe Idealize.SL.Sem Idealize.ShloMosaic.StableHlo Idealize.ShloMosaic.ValueIdx

/-! ## What each stretch leaves in the buffer the next one reads -/

/-- The decision stretch leaves the decision array of the prenet's output, the node weights and the node biases. -/
theorem dec_eq (V : Valuation τ sig (Elt Ideal)) :
    (after (opsDec (F := Ideal)) V (Proc.devRef .tc main_v62) : FVec Ideal S32768x1024x2 .f32)
      = decision (F := Ideal) (V (Proc.devRef .tc main_v49)) (V (Proc.devRef .tc main_arg9)) (V (Proc.devRef .tc main_arg10)) := by
  simp only [opsDec]
  after_results
  rfl

/-- The start leaves the all-ones array of two positions. -/
theorem init_eq (V : Valuation τ sig (Elt Ideal)) :
    (after (opsInit (F := Ideal)) V (Proc.devRef .tc main_v63) : FVec Ideal S32768x2x1 .f32)
      = broadcastInDim S32768x2x1 ![] bcast_S_S32768x2x1 (constant (F := Ideal) S_ .f32 0x3F800000#32) := by
  simp only [opsInit]
  after_results

/-- The start does not write the decision array. -/
theorem init_v62 (V : Valuation τ sig (Elt Ideal)) :
    after (opsInit (F := Ideal)) V (Proc.devRef .tc main_v62) = V (Proc.devRef .tc main_v62) := by
  simp only [opsInit]
  after_results

/-- Level 0 leaves the level term of the array before it and the decision array. -/
theorem L0_eq (V : Valuation τ sig (Elt Ideal)) (M : FVec Ideal S32768x2x1 .f32) (D : FVec Ideal S32768x1024x2 .f32)
    (hM : V (Proc.devRef .tc main_v63) = M) (hD : V (Proc.devRef .tc main_v62) = D) :
    (after (opsL0 (F := Ideal)) V (Proc.devRef .tc main_v71) : FVec Ideal S32768x4x1 .f32)
      = concatenate S32768x4x1 1
        [⟨S32768x2x1, M⟩,
         ⟨S32768x2x1, shapeCast S32768x2x1
            (mulf (shapeCast S32768x1x2
                (broadcastInDim S1x32768x1x1x2x1 ![0, 1, 2, 3, 4, 5] bcast_S1x32768x1x1x1x1_S1x32768x1x1x2x1_0_1_2_3_4_5
                  (shapeCast S1x32768x1x1x1x1 (extractStridedSlice S32768x1x1 ![0, 1, 0] M slices_S32768x2x1_S32768x1x1_0_1_0) shapeCasts_S32768x1x1_S1x32768x1x1x1x1)) shapeCasts_S1x32768x1x1x2x1_S32768x1x2)
              (extractStridedSlice S32768x1x2 ![0, 1, 0] D slices_S32768x1024x2_S32768x1x2_0_1_0)) shapeCasts_S32768x1x2_S32768x2x1⟩]
        concatenates_S32768x2x1_S32768x2x1_S32768x4x1_d1 := by
  subst hM hD
  simp only [opsL0]
  after_results
  rfl

/-- Level 0 does not write the decision array. -/
theorem L0_v62 (V : Valuation τ sig (Elt Ideal)) :
    after (opsL0 (F := Ideal)) V (Proc.devRef .tc main_v62) = V (Proc.devRef .tc main_v62) := by
  simp only [opsL0]
  after_results

/-- Level 1 leaves the level term of the array before it and the decision array. -/
theorem L1_eq (V : Valuation τ sig (Elt Ideal)) (M : FVec Ideal S32768x4x1 .f32) (D : FVec Ideal S32768x1024x2 .f32)
    (hM : V (Proc.devRef .tc main_v71) = M) (hD : V (Proc.devRef .tc main_v62) = D) :
    (after (opsL1 (F := Ideal)) V (Proc.devRef .tc main_v79) : FVec Ideal S32768x8x1 .f32)
      = concatenate S32768x8x1 1
        [⟨S32768x4x1, M⟩,
         ⟨S32768x4x1, shapeCast S32768x4x1
            (mulf (shapeCast S32768x2x2
                (broadcastInDim S1x32768x1x2x2x1 ![0, 1, 2, 3, 4, 5] bcast_S1x32768x1x2x1x1_S1x32768x1x2x2x1_0_1_2_3_4_5
                  (shapeCast S1x32768x1x2x1x1 (extractStridedSlice S32768x2x1 ![0, 2, 0] M slices_S32768x4x1_S32768x2x1_0_2_0) shapeCasts_S32768x2x1_S1x32768x1x2x1x1)) shapeCasts_S1x32768x1x2x2x1_S32768x2x2)
              (extractStridedSlice S32768x2x2 ![0, 2, 0] D slices_S32768x1024x2_S32768x2x2_0_2_0)) shapeCasts_S32768x2x2_S32768x4x1⟩]
        concatenates_S32768x4x1_S32768x4x1_S32768x8x1_d1 := by
  subst hM hD
  simp only [opsL1]
  after_results
  rfl

/-- Level 1 does not write the decision array. -/
theorem L1_v62 (V : Valuation τ sig (Elt Ideal)) :
    after (opsL1 (F := Ideal)) V (Proc.devRef .tc main_v62) = V (Proc.devRef .tc main_v62) := by
  simp only [opsL1]
  after_results

/-- Level 2 leaves the level term of the array before it and the decision array. -/
theorem L2_eq (V : Valuation τ sig (Elt Ideal)) (M : FVec Ideal S32768x8x1 .f32) (D : FVec Ideal S32768x1024x2 .f32)
    (hM : V (Proc.devRef .tc main_v79) = M) (hD : V (Proc.devRef .tc main_v62) = D) :
    (after (opsL2 (F := Ideal)) V (Proc.devRef .tc main_v87) : FVec Ideal S32768x16x1 .f32)
      = concatenate S32768x16x1 1
        [⟨S32768x8x1, M⟩,
         ⟨S32768x8x1, shapeCast S32768x8x1
            (mulf (shapeCast S32768x4x2
                (broadcastInDim S1x32768x1x4x2x1 ![0, 1, 2, 3, 4, 5] bcast_S1x32768x1x4x1x1_S1x32768x1x4x2x1_0_1_2_3_4_5
                  (shapeCast S1x32768x1x4x1x1 (extractStridedSlice S32768x4x1 ![0, 4, 0] M slices_S32768x8x1_S32768x4x1_0_4_0) shapeCasts_S32768x4x1_S1x32768x1x4x1x1)) shapeCasts_S1x32768x1x4x2x1_S32768x4x2)
              (extractStridedSlice S32768x4x2 ![0, 4, 0] D slices_S32768x1024x2_S32768x4x2_0_4_0)) shapeCasts_S32768x4x2_S32768x8x1⟩]
        concatenates_S32768x8x1_S32768x8x1_S32768x16x1_d1 := by
  subst hM hD
  simp only [opsL2]
  after_results
  rfl

/-- Level 2 does not write the decision array. -/
theorem L2_v62 (V : Valuation τ sig (Elt Ideal)) :
    after (opsL2 (F := Ideal)) V (Proc.devRef .tc main_v62) = V (Proc.devRef .tc main_v62) := by
  simp only [opsL2]
  after_results

/-- Level 3 leaves the level term of the array before it and the decision array. -/
theorem L3_eq (V : Valuation τ sig (Elt Ideal)) (M : FVec Ideal S32768x16x1 .f32) (D : FVec Ideal S32768x1024x2 .f32)
    (hM : V (Proc.devRef .tc main_v87) = M) (hD : V (Proc.devRef .tc main_v62) = D) :
    (after (opsL3 (F := Ideal)) V (Proc.devRef .tc main_v95) : FVec Ideal S32768x32x1 .f32)
      = concatenate S32768x32x1 1
        [⟨S32768x16x1, M⟩,
         ⟨S32768x16x1, shapeCast S32768x16x1
            (mulf (shapeCast S32768x8x2
                (broadcastInDim S1x32768x1x8x2x1 ![0, 1, 2, 3, 4, 5] bcast_S1x32768x1x8x1x1_S1x32768x1x8x2x1_0_1_2_3_4_5
                  (shapeCast S1x32768x1x8x1x1 (extractStridedSlice S32768x8x1 ![0, 8, 0] M slices_S32768x16x1_S32768x8x1_0_8_0) shapeCasts_S32768x8x1_S1x32768x1x8x1x1)) shapeCasts_S1x32768x1x8x2x1_S32768x8x2)
              (extractStridedSlice S32768x8x2 ![0, 8, 0] D slices_S32768x1024x2_S32768x8x2_0_8_0)) shapeCasts_S32768x8x2_S32768x16x1⟩]
        concatenates_S32768x16x1_S32768x16x1_S32768x32x1_d1 := by
  subst hM hD
  simp only [opsL3]
  after_results
  rfl

/-- Level 3 does not write the decision array. -/
theorem L3_v62 (V : Valuation τ sig (Elt Ideal)) :
    after (opsL3 (F := Ideal)) V (Proc.devRef .tc main_v62) = V (Proc.devRef .tc main_v62) := by
  simp only [opsL3]
  after_results

/-- Level 4 leaves the level term of the array before it and the decision array. -/
theorem L4_eq (V : Valuation τ sig (Elt Ideal)) (M : FVec Ideal S32768x32x1 .f32) (D : FVec Ideal S32768x1024x2 .f32)
    (hM : V (Proc.devRef .tc main_v95) = M) (hD : V (Proc.devRef .tc main_v62) = D) :
    (after (opsL4 (F := Ideal)) V (Proc.devRef .tc main_v103) : FVec Ideal S32768x64x1 .f32)
      = concatenate S32768x64x1 1
        [⟨S32768x32x1, M⟩,
         ⟨S32768x32x1, shapeCast S32768x32x1
            (mulf (shapeCast S32768x16x2
                (broadcastInDim S1x32768x1x16x2x1 ![0, 1, 2, 3, 4, 5] bcast_S1x32768x1x16x1x1_S1x32768x1x16x2x1_0_1_2_3_4_5
                  (shapeCast S1x32768x1x16x1x1 (extractStridedSlice S32768x16x1 ![0, 16, 0] M slices_S32768x32x1_S32768x16x1_0_16_0) shapeCasts_S32768x16x1_S1x32768x1x16x1x1)) shapeCasts_S1x32768x1x16x2x1_S32768x16x2)
              (extractStridedSlice S32768x16x2 ![0, 16, 0] D slices_S32768x1024x2_S32768x16x2_0_16_0)) shapeCasts_S32768x16x2_S32768x32x1⟩]
        concatenates_S32768x32x1_S32768x32x1_S32768x64x1_d1 := by
  subst hM hD
  simp only [opsL4]
  after_results
  rfl

/-- Level 4 does not write the decision array. -/
theorem L4_v62 (V : Valuation τ sig (Elt Ideal)) :
    after (opsL4 (F := Ideal)) V (Proc.devRef .tc main_v62) = V (Proc.devRef .tc main_v62) := by
  simp only [opsL4]
  after_results

/-- Level 5 leaves the level term of the array before it and the decision array. -/
theorem L5_eq (V : Valuation τ sig (Elt Ideal)) (M : FVec Ideal S32768x64x1 .f32) (D : FVec Ideal S32768x1024x2 .f32)
    (hM : V (Proc.devRef .tc main_v103) = M) (hD : V (Proc.devRef .tc main_v62) = D) :
    (after (opsL5 (F := Ideal)) V (Proc.devRef .tc main_v111) : FVec Ideal S32768x128x1 .f32)
      = concatenate S32768x128x1 1
        [⟨S32768x64x1, M⟩,
         ⟨S32768x64x1, shapeCast S32768x64x1
            (mulf (shapeCast S32768x32x2
                (broadcastInDim S1x32768x1x32x2x1 ![0, 1, 2, 3, 4, 5] bcast_S1x32768x1x32x1x1_S1x32768x1x32x2x1_0_1_2_3_4_5
                  (shapeCast S1x32768x1x32x1x1 (extractStridedSlice S32768x32x1 ![0, 32, 0] M slices_S32768x64x1_S32768x32x1_0_32_0) shapeCasts_S32768x32x1_S1x32768x1x32x1x1)) shapeCasts_S1x32768x1x32x2x1_S32768x32x2)
              (extractStridedSlice S32768x32x2 ![0, 32, 0] D slices_S32768x1024x2_S32768x32x2_0_32_0)) shapeCasts_S32768x32x2_S32768x64x1⟩]
        concatenates_S32768x64x1_S32768x64x1_S32768x128x1_d1 := by
  subst hM hD
  simp only [opsL5]
  after_results
  rfl

/-- Level 5 does not write the decision array. -/
theorem L5_v62 (V : Valuation τ sig (Elt Ideal)) :
    after (opsL5 (F := Ideal)) V (Proc.devRef .tc main_v62) = V (Proc.devRef .tc main_v62) := by
  simp only [opsL5]
  after_results

/-- Level 6 leaves the level term of the array before it and the decision array. -/
theorem L6_eq (V : Valuation τ sig (Elt Ideal)) (M : FVec Ideal S32768x128x1 .f32) (D : FVec Ideal S32768x1024x2 .f32)
    (hM : V (Proc.devRef .tc main_v111) = M) (hD : V (Proc.devRef .tc main_v62) = D) :
    (after (opsL6 (F := Ideal)) V (Proc.devRef .tc main_v119) : FVec Ideal S32768x256x1 .f32)
      = concatenate S32768x256x1 1
        [⟨S32768x128x1, M⟩,
         ⟨S32768x128x1, shapeCast S32768x128x1
            (mulf (shapeCast S32768x64x2
                (broadcastInDim S1x32768x1x64x2x1 ![0, 1, 2, 3, 4, 5] bcast_S1x32768x1x64x1x1_S1x32768x1x64x2x1_0_1_2_3_4_5
                  (shapeCast S1x32768x1x64x1x1 (extractStridedSlice S32768x64x1 ![0, 64, 0] M slices_S32768x128x1_S32768x64x1_0_64_0) shapeCasts_S32768x64x1_S1x32768x1x64x1x1)) shapeCasts_S1x32768x1x64x2x1_S32768x64x2)
              (extractStridedSlice S32768x64x2 ![0, 64, 0] D slices_S32768x1024x2_S32768x64x2_0_64_0)) shapeCasts_S32768x64x2_S32768x128x1⟩]
        concatenates_S32768x128x1_S32768x128x1_S32768x256x1_d1 := by
  subst hM hD
  simp only [opsL6]
  after_results
  rfl

/-- Level 6 does not write the decision array. -/
theorem L6_v62 (V : Valuation τ sig (Elt Ideal)) :
    after (opsL6 (F := Ideal)) V (Proc.devRef .tc main_v62) = V (Proc.devRef .tc main_v62) := by
  simp only [opsL6]
  after_results

/-- Level 7 leaves the level term of the array before it and the decision array. -/
theorem L7_eq (V : Valuation τ sig (Elt Ideal)) (M : FVec Ideal S32768x256x1 .f32) (D : FVec Ideal S32768x1024x2 .f32)
    (hM : V (Proc.devRef .tc main_v119) = M) (hD : V (Proc.devRef .tc main_v62) = D) :
    (after (opsL7 (F := Ideal)) V (Proc.devRef .tc main_v127) : FVec Ideal S32768x512x1 .f32)
      = concatenate S32768x512x1 1
        [⟨S32768x256x1, M⟩,
         ⟨S32768x256x1, shapeCast S32768x256x1
            (mulf (shapeCast S32768x128x2
                (broadcastInDim S1x32768x1x128x2x1 ![0, 1, 2, 3, 4, 5] bcast_S1x32768x1x128x1x1_S1x32768x1x128x2x1_0_1_2_3_4_5
                  (shapeCast S1x32768x1x128x1x1 (extractStridedSlice S32768x128x1 ![0, 128, 0] M slices_S32768x256x1_S32768x128x1_0_128_0) shapeCasts_S32768x128x1_S1x32768x1x128x1x1)) shapeCasts_S1x32768x1x128x2x1_S32768x128x2)
              (extractStridedSlice S32768x128x2 ![0, 128, 0] D slices_S32768x1024x2_S32768x128x2_0_128_0)) shapeCasts_S32768x128x2_S32768x256x1⟩]
        concatenates_S32768x256x1_S32768x256x1_S32768x512x1_d1 := by
  subst hM hD
  simp only [opsL7]
  after_results
  rfl

/-- Level 7 does not write the decision array. -/
theorem L7_v62 (V : Valuation τ sig (Elt Ideal)) :
    after (opsL7 (F := Ideal)) V (Proc.devRef .tc main_v62) = V (Proc.devRef .tc main_v62) := by
  simp only [opsL7]
  after_results

/-- Level 8 leaves the level term of the array before it and the decision array. -/
theorem L8_eq (V : Valuation τ sig (Elt Ideal)) (M : FVec Ideal S32768x512x1 .f32) (D : FVec Ideal S32768x1024x2 .f32)
    (hM : V (Proc.devRef .tc main_v127) = M) (hD : V (Proc.devRef .tc main_v62) = D) :
    (after (opsL8 (F := Ideal)) V (Proc.devRef .tc main_v135) : FVec Ideal S32768x1024x1 .f32)
      = concatenate S32768x1024x1 1
        [⟨S32768x512x1, M⟩,
         ⟨S32768x512x1, shapeCast S32768x512x1
            (mulf (shapeCast S32768x256x2
                (broadcastInDim S1x32768x1x256x2x1 ![0, 1, 2, 3, 4, 5] bcast_S1x32768x1x256x1x1_S1x32768x1x256x2x1_0_1_2_3_4_5
                  (shapeCast S1x32768x1x256x1x1 (extractStridedSlice S32768x256x1 ![0, 256, 0] M slices_S32768x512x1_S32768x256x1_0_256_0) shapeCasts_S32768x256x1_S1x32768x1x256x1x1)) shapeCasts_S1x32768x1x256x2x1_S32768x256x2)
              (extractStridedSlice S32768x256x2 ![0, 256, 0] D slices_S32768x1024x2_S32768x256x2_0_256_0)) shapeCasts_S32768x256x2_S32768x512x1⟩]
        concatenates_S32768x512x1_S32768x512x1_S32768x1024x1_d1 := by
  subst hM hD
  simp only [opsL8]
  after_results
  rfl

/-- Level 8 does not write the decision array. -/
theorem L8_v62 (V : Valuation τ sig (Elt Ideal)) :
    after (opsL8 (F := Ideal)) V (Proc.devRef .tc main_v62) = V (Proc.devRef .tc main_v62) := by
  simp only [opsL8]
  after_results

/-- Level 9 leaves the level term of the array before it and the decision array. -/
theorem L9_eq (V : Valuation τ sig (Elt Ideal)) (M : FVec Ideal S32768x1024x1 .f32) (D : FVec Ideal S32768x1024x2 .f32)
    (hM : V (Proc.devRef .tc main_v135) = M) (hD : V (Proc.devRef .tc main_v62) = D) :
    (after (opsL9 (F := Ideal)) V (Proc.devRef .tc main_v143) : FVec Ideal S32768x2048x1 .f32)
      = concatenate S32768x2048x1 1
        [⟨S32768x1024x1, M⟩,
         ⟨S32768x1024x1, shapeCast S32768x1024x1
            (mulf (shapeCast S32768x512x2
                (broadcastInDim S1x32768x1x512x2x1 ![0, 1, 2, 3, 4, 5] bcast_S1x32768x1x512x1x1_S1x32768x1x512x2x1_0_1_2_3_4_5
                  (shapeCast S1x32768x1x512x1x1 (extractStridedSlice S32768x512x1 ![0, 512, 0] M slices_S32768x1024x1_S32768x512x1_0_512_0) shapeCasts_S32768x512x1_S1x32768x1x512x1x1)) shapeCasts_S1x32768x1x512x2x1_S32768x512x2)
              (extractStridedSlice S32768x512x2 ![0, 512, 0] D slices_S32768x1024x2_S32768x512x2_0_512_0)) shapeCasts_S32768x512x2_S32768x1024x1⟩]
        concatenates_S32768x1024x1_S32768x1024x1_S32768x2048x1_d1 := by
  subst hM hD
  simp only [opsL9]
  after_results
  rfl

/-- Level 9 does not write the decision array. -/
theorem L9_v62 (V : Valuation τ sig (Elt Ideal)) :
    after (opsL9 (F := Ideal)) V (Proc.devRef .tc main_v62) = V (Proc.devRef .tc main_v62) := by
  simp only [opsL9]
  after_results

/-- The end leaves the flattened last level with column `0` overwritten by zeros. -/
theorem fin_eq (V : Valuation τ sig (Elt Ideal)) (M : FVec Ideal S32768x2048x1 .f32) (hM : V (Proc.devRef .tc main_v143) = M) :
    (after (opsFin (F := Ideal)) V (Proc.devRef .tc main_v147) : FVec Ideal S32768x2048 .f32)
      = Host.scatter scatter_S32768x2048_S1_S32768_0_1_1_0 (fun _ b => b)
          (shapeCast S32768x2048 M shapeCasts_S32768x2048x1_S32768x2048)
          (broadcastInDim S1 ![] bcast_S_S1 (constantI S_ 32 0#32))
          (broadcastInDim S32768 ![] bcast_S_S32768 (constant (F := Ideal) S_ .f32 0x00000000#32)) := by
  subst hM
  simp only [opsFin]
  after_results
  rfl

/-! ## The stretches one after the other

From a valuation whose decision buffer holds the decision array and whose current level buffer satisfies the
invariant, the remaining stretches leave the routing array in the result buffer. Each lemma consumes one stretch and
hands the invariant to the next. -/

section Chain

variable (xp : FVec Ideal S32768x1 .f32) (fw : FVec Ideal S1024x1x1 .f32) (fb : FVec Ideal S1024x1 .f32)

/-- The end, from the invariant on the last level. -/
theorem from_fin (V : Valuation τ sig (Elt Ideal)) (hM : Holds xp fw fb (W2 := 2048) (V (Proc.devRef .tc main_v143))) :
    after (opsFin (F := Ideal)) V (Proc.devRef .tc main_v147) = G xp fw fb := by
  rw [fin_eq V _ rfl]
  exact holds_final xp fw fb _ hM

/-- Level 9 and what follows it, from the invariant on the level before. -/
theorem from_L9 (V : Valuation τ sig (Elt Ideal)) (hD : (V (Proc.devRef .tc main_v62) : FVec Ideal S32768x1024x2 .f32) = decision (F := Ideal) xp fw fb)
    (hM : Holds xp fw fb (W2 := 1024) (V (Proc.devRef .tc main_v135))) :
    after (opsL9 ++ opsFin : List (HloOp τ sig (Elt Ideal))) V (Proc.devRef .tc main_v147) = G xp fw fb := by
  rw [StableHlo.after_append]
  refine from_fin xp fw fb _ ?_
  rw [L9_eq V _ _ rfl hD]
  exact holds_step xp fw fb (W := 512) (W2 := 1024) (W4 := 2048) (by norm_num) (by norm_num) (by norm_num) (by norm_num) _
    slices_S32768x1024x1_S32768x512x1_0_512_0 shapeCasts_S32768x512x1_S1x32768x1x512x1x1
    bcast_S1x32768x1x512x1x1_S1x32768x1x512x2x1_0_1_2_3_4_5 shapeCasts_S1x32768x1x512x2x1_S32768x512x2
    slices_S32768x1024x2_S32768x512x2_0_512_0 shapeCasts_S32768x512x2_S32768x1024x1
    concatenates_S32768x1024x1_S32768x1024x1_S32768x2048x1_d1 hM

/-- Level 8 and what follows it, from the invariant on the level before. -/
theorem from_L8 (V : Valuation τ sig (Elt Ideal)) (hD : (V (Proc.devRef .tc main_v62) : FVec Ideal S32768x1024x2 .f32) = decision (F := Ideal) xp fw fb)
    (hM : Holds xp fw fb (W2 := 512) (V (Proc.devRef .tc main_v127))) :
    after (opsL8 ++ (opsL9 ++ opsFin) : List (HloOp τ sig (Elt Ideal))) V (Proc.devRef .tc main_v147) = G xp fw fb := by
  rw [StableHlo.after_append]
  refine from_L9 xp fw fb _ ((L8_v62 V).trans hD) ?_
  rw [L8_eq V _ _ rfl hD]
  exact holds_step xp fw fb (W := 256) (W2 := 512) (W4 := 1024) (by norm_num) (by norm_num) (by norm_num) (by norm_num) _
    slices_S32768x512x1_S32768x256x1_0_256_0 shapeCasts_S32768x256x1_S1x32768x1x256x1x1
    bcast_S1x32768x1x256x1x1_S1x32768x1x256x2x1_0_1_2_3_4_5 shapeCasts_S1x32768x1x256x2x1_S32768x256x2
    slices_S32768x1024x2_S32768x256x2_0_256_0 shapeCasts_S32768x256x2_S32768x512x1
    concatenates_S32768x512x1_S32768x512x1_S32768x1024x1_d1 hM

/-- Level 7 and what follows it, from the invariant on the level before. -/
theorem from_L7 (V : Valuation τ sig (Elt Ideal)) (hD : (V (Proc.devRef .tc main_v62) : FVec Ideal S32768x1024x2 .f32) = decision (F := Ideal) xp fw fb)
    (hM : Holds xp fw fb (W2 := 256) (V (Proc.devRef .tc main_v119))) :
    after (opsL7 ++ (opsL8 ++ (opsL9 ++ opsFin)) : List (HloOp τ sig (Elt Ideal))) V (Proc.devRef .tc main_v147) = G xp fw fb := by
  rw [StableHlo.after_append]
  refine from_L8 xp fw fb _ ((L7_v62 V).trans hD) ?_
  rw [L7_eq V _ _ rfl hD]
  exact holds_step xp fw fb (W := 128) (W2 := 256) (W4 := 512) (by norm_num) (by norm_num) (by norm_num) (by norm_num) _
    slices_S32768x256x1_S32768x128x1_0_128_0 shapeCasts_S32768x128x1_S1x32768x1x128x1x1
    bcast_S1x32768x1x128x1x1_S1x32768x1x128x2x1_0_1_2_3_4_5 shapeCasts_S1x32768x1x128x2x1_S32768x128x2
    slices_S32768x1024x2_S32768x128x2_0_128_0 shapeCasts_S32768x128x2_S32768x256x1
    concatenates_S32768x256x1_S32768x256x1_S32768x512x1_d1 hM

/-- Level 6 and what follows it, from the invariant on the level before. -/
theorem from_L6 (V : Valuation τ sig (Elt Ideal)) (hD : (V (Proc.devRef .tc main_v62) : FVec Ideal S32768x1024x2 .f32) = decision (F := Ideal) xp fw fb)
    (hM : Holds xp fw fb (W2 := 128) (V (Proc.devRef .tc main_v111))) :
    after (opsL6 ++ (opsL7 ++ (opsL8 ++ (opsL9 ++ opsFin))) : List (HloOp τ sig (Elt Ideal))) V (Proc.devRef .tc main_v147) = G xp fw fb := by
  rw [StableHlo.after_append]
  refine from_L7 xp fw fb _ ((L6_v62 V).trans hD) ?_
  rw [L6_eq V _ _ rfl hD]
  exact holds_step xp fw fb (W := 64) (W2 := 128) (W4 := 256) (by norm_num) (by norm_num) (by norm_num) (by norm_num) _
    slices_S32768x128x1_S32768x64x1_0_64_0 shapeCasts_S32768x64x1_S1x32768x1x64x1x1
    bcast_S1x32768x1x64x1x1_S1x32768x1x64x2x1_0_1_2_3_4_5 shapeCasts_S1x32768x1x64x2x1_S32768x64x2
    slices_S32768x1024x2_S32768x64x2_0_64_0 shapeCasts_S32768x64x2_S32768x128x1
    concatenates_S32768x128x1_S32768x128x1_S32768x256x1_d1 hM

/-- Level 5 and what follows it, from the invariant on the level before. -/
theorem from_L5 (V : Valuation τ sig (Elt Ideal)) (hD : (V (Proc.devRef .tc main_v62) : FVec Ideal S32768x1024x2 .f32) = decision (F := Ideal) xp fw fb)
    (hM : Holds xp fw fb (W2 := 64) (V (Proc.devRef .tc main_v103))) :
    after (opsL5 ++ (opsL6 ++ (opsL7 ++ (opsL8 ++ (opsL9 ++ opsFin)))) : List (HloOp τ sig (Elt Ideal))) V (Proc.devRef .tc main_v147) = G xp fw fb := by
  rw [StableHlo.after_append]
  refine from_L6 xp fw fb _ ((L5_v62 V).trans hD) ?_
  rw [L5_eq V _ _ rfl hD]
  exact holds_step xp fw fb (W := 32) (W2 := 64) (W4 := 128) (by norm_num) (by norm_num) (by norm_num) (by norm_num) _
    slices_S32768x64x1_S32768x32x1_0_32_0 shapeCasts_S32768x32x1_S1x32768x1x32x1x1
    bcast_S1x32768x1x32x1x1_S1x32768x1x32x2x1_0_1_2_3_4_5 shapeCasts_S1x32768x1x32x2x1_S32768x32x2
    slices_S32768x1024x2_S32768x32x2_0_32_0 shapeCasts_S32768x32x2_S32768x64x1
    concatenates_S32768x64x1_S32768x64x1_S32768x128x1_d1 hM

/-- Level 4 and what follows it, from the invariant on the level before. -/
theorem from_L4 (V : Valuation τ sig (Elt Ideal)) (hD : (V (Proc.devRef .tc main_v62) : FVec Ideal S32768x1024x2 .f32) = decision (F := Ideal) xp fw fb)
    (hM : Holds xp fw fb (W2 := 32) (V (Proc.devRef .tc main_v95))) :
    after (opsL4 ++ (opsL5 ++ (opsL6 ++ (opsL7 ++ (opsL8 ++ (opsL9 ++ opsFin))))) : List (HloOp τ sig (Elt Ideal))) V (Proc.devRef .tc main_v147) = G xp fw fb := by
  rw [StableHlo.after_append]
  refine from_L5 xp fw fb _ ((L4_v62 V).trans hD) ?_
  rw [L4_eq V _ _ rfl hD]
  exact holds_step xp fw fb (W := 16) (W2 := 32) (W4 := 64) (by norm_num) (by norm_num) (by norm_num) (by norm_num) _
    slices_S32768x32x1_S32768x16x1_0_16_0 shapeCasts_S32768x16x1_S1x32768x1x16x1x1
    bcast_S1x32768x1x16x1x1_S1x32768x1x16x2x1_0_1_2_3_4_5 shapeCasts_S1x32768x1x16x2x1_S32768x16x2
    slices_S32768x1024x2_S32768x16x2_0_16_0 shapeCasts_S32768x16x2_S32768x32x1
    concatenates_S32768x32x1_S32768x32x1_S32768x64x1_d1 hM

/-- Level 3 and what follows it, from the invariant on the level before. -/
theorem from_L3 (V : Valuation τ sig (Elt Ideal)) (hD : (V (Proc.devRef .tc main_v62) : FVec Ideal S32768x1024x2 .f32) = decision (F := Ideal) xp fw fb)
    (hM : Holds xp fw fb (W2 := 16) (V (Proc.devRef .tc main_v87))) :
    after (opsL3 ++ (opsL4 ++ (opsL5 ++ (opsL6 ++ (opsL7 ++ (opsL8 ++ (opsL9 ++ opsFin)))))) : List (HloOp τ sig (Elt Ideal))) V (Proc.devRef .tc main_v147) = G xp fw fb := by
  rw [StableHlo.after_append]
  refine from_L4 xp fw fb _ ((L3_v62 V).trans hD) ?_
  rw [L3_eq V _ _ rfl hD]
  exact holds_step xp fw fb (W := 8) (W2 := 16) (W4 := 32) (by norm_num) (by norm_num) (by norm_num) (by norm_num) _
    slices_S32768x16x1_S32768x8x1_0_8_0 shapeCasts_S32768x8x1_S1x32768x1x8x1x1
    bcast_S1x32768x1x8x1x1_S1x32768x1x8x2x1_0_1_2_3_4_5 shapeCasts_S1x32768x1x8x2x1_S32768x8x2
    slices_S32768x1024x2_S32768x8x2_0_8_0 shapeCasts_S32768x8x2_S32768x16x1
    concatenates_S32768x16x1_S32768x16x1_S32768x32x1_d1 hM

/-- Level 2 and what follows it, from the invariant on the level before. -/
theorem from_L2 (V : Valuation τ sig (Elt Ideal)) (hD : (V (Proc.devRef .tc main_v62) : FVec Ideal S32768x1024x2 .f32) = decision (F := Ideal) xp fw fb)
    (hM : Holds xp fw fb (W2 := 8) (V (Proc.devRef .tc main_v79))) :
    after (opsL2 ++ (opsL3 ++ (opsL4 ++ (opsL5 ++ (opsL6 ++ (opsL7 ++ (opsL8 ++ (opsL9 ++ opsFin))))))) : List (HloOp τ sig (Elt Ideal))) V (Proc.devRef .tc main_v147) = G xp fw fb := by
  rw [StableHlo.after_append]
  refine from_L3 xp fw fb _ ((L2_v62 V).trans hD) ?_
  rw [L2_eq V _ _ rfl hD]
  exact holds_step xp fw fb (W := 4) (W2 := 8) (W4 := 16) (by norm_num) (by norm_num) (by norm_num) (by norm_num) _
    slices_S32768x8x1_S32768x4x1_0_4_0 shapeCasts_S32768x4x1_S1x32768x1x4x1x1
    bcast_S1x32768x1x4x1x1_S1x32768x1x4x2x1_0_1_2_3_4_5 shapeCasts_S1x32768x1x4x2x1_S32768x4x2
    slices_S32768x1024x2_S32768x4x2_0_4_0 shapeCasts_S32768x4x2_S32768x8x1
    concatenates_S32768x8x1_S32768x8x1_S32768x16x1_d1 hM

/-- Level 1 and what follows it, from the invariant on the level before. -/
theorem from_L1 (V : Valuation τ sig (Elt Ideal)) (hD : (V (Proc.devRef .tc main_v62) : FVec Ideal S32768x1024x2 .f32) = decision (F := Ideal) xp fw fb)
    (hM : Holds xp fw fb (W2 := 4) (V (Proc.devRef .tc main_v71))) :
    after (opsL1 ++ (opsL2 ++ (opsL3 ++ (opsL4 ++ (opsL5 ++ (opsL6 ++ (opsL7 ++ (opsL8 ++ (opsL9 ++ opsFin)))))))) : List (HloOp τ sig (Elt Ideal))) V (Proc.devRef .tc main_v147) = G xp fw fb := by
  rw [StableHlo.after_append]
  refine from_L2 xp fw fb _ ((L1_v62 V).trans hD) ?_
  rw [L1_eq V _ _ rfl hD]
  exact holds_step xp fw fb (W := 2) (W2 := 4) (W4 := 8) (by norm_num) (by norm_num) (by norm_num) (by norm_num) _
    slices_S32768x4x1_S32768x2x1_0_2_0 shapeCasts_S32768x2x1_S1x32768x1x2x1x1
    bcast_S1x32768x1x2x1x1_S1x32768x1x2x2x1_0_1_2_3_4_5 shapeCasts_S1x32768x1x2x2x1_S32768x2x2
    slices_S32768x1024x2_S32768x2x2_0_2_0 shapeCasts_S32768x2x2_S32768x4x1
    concatenates_S32768x4x1_S32768x4x1_S32768x8x1_d1 hM

/-- Level 0 and what follows it, from the invariant on the level before. -/
theorem from_L0 (V : Valuation τ sig (Elt Ideal)) (hD : (V (Proc.devRef .tc main_v62) : FVec Ideal S32768x1024x2 .f32) = decision (F := Ideal) xp fw fb)
    (hM : Holds xp fw fb (W2 := 2) (V (Proc.devRef .tc main_v63))) :
    after (opsL0 ++ (opsL1 ++ (opsL2 ++ (opsL3 ++ (opsL4 ++ (opsL5 ++ (opsL6 ++ (opsL7 ++ (opsL8 ++ (opsL9 ++ opsFin))))))))) : List (HloOp τ sig (Elt Ideal))) V (Proc.devRef .tc main_v147) = G xp fw fb := by
  rw [StableHlo.after_append]
  refine from_L1 xp fw fb _ ((L0_v62 V).trans hD) ?_
  rw [L0_eq V _ _ rfl hD]
  exact holds_step xp fw fb (W := 1) (W2 := 2) (W4 := 4) (by norm_num) (by norm_num) (by norm_num) (by norm_num) _
    slices_S32768x2x1_S32768x1x1_0_1_0 shapeCasts_S32768x1x1_S1x32768x1x1x1x1
    bcast_S1x32768x1x1x1x1_S1x32768x1x1x2x1_0_1_2_3_4_5 shapeCasts_S1x32768x1x1x2x1_S32768x1x2
    slices_S32768x1024x2_S32768x1x2_0_1_0 shapeCasts_S32768x1x2_S32768x2x1
    concatenates_S32768x2x1_S32768x2x1_S32768x4x1_d1 hM

/-- The start and the ten levels, from the decision array. -/
theorem from_init (V : Valuation τ sig (Elt Ideal)) (hD : (V (Proc.devRef .tc main_v62) : FVec Ideal S32768x1024x2 .f32) = decision (F := Ideal) xp fw fb) :
    after (opsInit ++ (opsL0 ++ (opsL1 ++ (opsL2 ++ (opsL3 ++ (opsL4 ++ (opsL5 ++ (opsL6 ++ (opsL7 ++ (opsL8 ++ (opsL9 ++ opsFin)))))))))) : List (HloOp τ sig (Elt Ideal))) V (Proc.devRef .tc main_v147) = G xp fw fb := by
  rw [StableHlo.after_append]
  refine from_L0 xp fw fb _ ((init_v62 V).trans hD) ?_
  rw [init_eq]
  exact holds_init xp fw fb

end Chain

/-- Everything after the prenet, from any valuation: the routing array of what the prenet's output buffer, the node
    weights and the node biases hold. -/
theorem from_dec (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_v147)
      = G (V (Proc.devRef .tc main_v49)) (V (Proc.devRef .tc main_arg9)) (V (Proc.devRef .tc main_arg10)) := by
  rw [StableHlo.after_append]
  exact from_init (V (Proc.devRef .tc main_v49)) (V (Proc.devRef .tc main_arg9)) (V (Proc.devRef .tc main_arg10)) _ (dec_eq V)

/-! ## No stretch writes an argument -/

/-- The prenet does not write argument 0. -/
theorem pre_arg0 (V : Valuation τ sig (Elt Ideal)) :
    after (opsPre (F := Ideal)) V (Proc.devRef .tc main_arg0) = V (Proc.devRef .tc main_arg0) := by
  simp only [opsPre, opsPre0, opsPre1, opsPre2, opsPre3, opsPre4, opsPre5, opsPre6, opsPre7, opsPre8, StableHlo.after_append]
  after_results_simp

/-- Nothing after the prenet writes argument 0. -/
theorem post_arg0 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg0) = V (Proc.devRef .tc main_arg0) := by
  simp only [opsDec, opsInit, opsL0, opsL1, opsL2, opsL3, opsL4, opsL5, opsL6, opsL7, opsL8, opsL9, opsFin, StableHlo.after_append]
  after_results_simp

/-- No operation of the run writes argument 0. -/
theorem ops_arg0 (V : Valuation τ sig (Elt Ideal)) :
    after (ops (F := Ideal)) V (Proc.devRef .tc main_arg0) = V (Proc.devRef .tc main_arg0) := by
  rw [StableHlo.after_append (opsPre (F := Ideal)) _ V, post_arg0, pre_arg0]

/-- The prenet does not write argument 1. -/
theorem pre_arg1 (V : Valuation τ sig (Elt Ideal)) :
    after (opsPre (F := Ideal)) V (Proc.devRef .tc main_arg1) = V (Proc.devRef .tc main_arg1) := by
  simp only [opsPre, opsPre0, opsPre1, opsPre2, opsPre3, opsPre4, opsPre5, opsPre6, opsPre7, opsPre8, StableHlo.after_append]
  after_results_simp

/-- Nothing after the prenet writes argument 1. -/
theorem post_arg1 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg1) = V (Proc.devRef .tc main_arg1) := by
  simp only [opsDec, opsInit, opsL0, opsL1, opsL2, opsL3, opsL4, opsL5, opsL6, opsL7, opsL8, opsL9, opsFin, StableHlo.after_append]
  after_results_simp

/-- No operation of the run writes argument 1. -/
theorem ops_arg1 (V : Valuation τ sig (Elt Ideal)) :
    after (ops (F := Ideal)) V (Proc.devRef .tc main_arg1) = V (Proc.devRef .tc main_arg1) := by
  rw [StableHlo.after_append (opsPre (F := Ideal)) _ V, post_arg1, pre_arg1]

/-- The prenet does not write argument 2. -/
theorem pre_arg2 (V : Valuation τ sig (Elt Ideal)) :
    after (opsPre (F := Ideal)) V (Proc.devRef .tc main_arg2) = V (Proc.devRef .tc main_arg2) := by
  simp only [opsPre, opsPre0, opsPre1, opsPre2, opsPre3, opsPre4, opsPre5, opsPre6, opsPre7, opsPre8, StableHlo.after_append]
  after_results_simp

/-- Nothing after the prenet writes argument 2. -/
theorem post_arg2 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg2) = V (Proc.devRef .tc main_arg2) := by
  simp only [opsDec, opsInit, opsL0, opsL1, opsL2, opsL3, opsL4, opsL5, opsL6, opsL7, opsL8, opsL9, opsFin, StableHlo.after_append]
  after_results_simp

/-- No operation of the run writes argument 2. -/
theorem ops_arg2 (V : Valuation τ sig (Elt Ideal)) :
    after (ops (F := Ideal)) V (Proc.devRef .tc main_arg2) = V (Proc.devRef .tc main_arg2) := by
  rw [StableHlo.after_append (opsPre (F := Ideal)) _ V, post_arg2, pre_arg2]

/-- The prenet does not write argument 3. -/
theorem pre_arg3 (V : Valuation τ sig (Elt Ideal)) :
    after (opsPre (F := Ideal)) V (Proc.devRef .tc main_arg3) = V (Proc.devRef .tc main_arg3) := by
  simp only [opsPre, opsPre0, opsPre1, opsPre2, opsPre3, opsPre4, opsPre5, opsPre6, opsPre7, opsPre8, StableHlo.after_append]
  after_results_simp

/-- Nothing after the prenet writes argument 3. -/
theorem post_arg3 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg3) = V (Proc.devRef .tc main_arg3) := by
  simp only [opsDec, opsInit, opsL0, opsL1, opsL2, opsL3, opsL4, opsL5, opsL6, opsL7, opsL8, opsL9, opsFin, StableHlo.after_append]
  after_results_simp

/-- No operation of the run writes argument 3. -/
theorem ops_arg3 (V : Valuation τ sig (Elt Ideal)) :
    after (ops (F := Ideal)) V (Proc.devRef .tc main_arg3) = V (Proc.devRef .tc main_arg3) := by
  rw [StableHlo.after_append (opsPre (F := Ideal)) _ V, post_arg3, pre_arg3]

/-- The prenet does not write argument 4. -/
theorem pre_arg4 (V : Valuation τ sig (Elt Ideal)) :
    after (opsPre (F := Ideal)) V (Proc.devRef .tc main_arg4) = V (Proc.devRef .tc main_arg4) := by
  simp only [opsPre, opsPre0, opsPre1, opsPre2, opsPre3, opsPre4, opsPre5, opsPre6, opsPre7, opsPre8, StableHlo.after_append]
  after_results_simp

/-- Nothing after the prenet writes argument 4. -/
theorem post_arg4 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg4) = V (Proc.devRef .tc main_arg4) := by
  simp only [opsDec, opsInit, opsL0, opsL1, opsL2, opsL3, opsL4, opsL5, opsL6, opsL7, opsL8, opsL9, opsFin, StableHlo.after_append]
  after_results_simp

/-- No operation of the run writes argument 4. -/
theorem ops_arg4 (V : Valuation τ sig (Elt Ideal)) :
    after (ops (F := Ideal)) V (Proc.devRef .tc main_arg4) = V (Proc.devRef .tc main_arg4) := by
  rw [StableHlo.after_append (opsPre (F := Ideal)) _ V, post_arg4, pre_arg4]

/-- The prenet does not write argument 5. -/
theorem pre_arg5 (V : Valuation τ sig (Elt Ideal)) :
    after (opsPre (F := Ideal)) V (Proc.devRef .tc main_arg5) = V (Proc.devRef .tc main_arg5) := by
  simp only [opsPre, opsPre0, opsPre1, opsPre2, opsPre3, opsPre4, opsPre5, opsPre6, opsPre7, opsPre8, StableHlo.after_append]
  after_results_simp

/-- Nothing after the prenet writes argument 5. -/
theorem post_arg5 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg5) = V (Proc.devRef .tc main_arg5) := by
  simp only [opsDec, opsInit, opsL0, opsL1, opsL2, opsL3, opsL4, opsL5, opsL6, opsL7, opsL8, opsL9, opsFin, StableHlo.after_append]
  after_results_simp

/-- No operation of the run writes argument 5. -/
theorem ops_arg5 (V : Valuation τ sig (Elt Ideal)) :
    after (ops (F := Ideal)) V (Proc.devRef .tc main_arg5) = V (Proc.devRef .tc main_arg5) := by
  rw [StableHlo.after_append (opsPre (F := Ideal)) _ V, post_arg5, pre_arg5]

/-- The prenet does not write argument 6. -/
theorem pre_arg6 (V : Valuation τ sig (Elt Ideal)) :
    after (opsPre (F := Ideal)) V (Proc.devRef .tc main_arg6) = V (Proc.devRef .tc main_arg6) := by
  simp only [opsPre, opsPre0, opsPre1, opsPre2, opsPre3, opsPre4, opsPre5, opsPre6, opsPre7, opsPre8, StableHlo.after_append]
  after_results_simp

/-- Nothing after the prenet writes argument 6. -/
theorem post_arg6 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg6) = V (Proc.devRef .tc main_arg6) := by
  simp only [opsDec, opsInit, opsL0, opsL1, opsL2, opsL3, opsL4, opsL5, opsL6, opsL7, opsL8, opsL9, opsFin, StableHlo.after_append]
  after_results_simp

/-- No operation of the run writes argument 6. -/
theorem ops_arg6 (V : Valuation τ sig (Elt Ideal)) :
    after (ops (F := Ideal)) V (Proc.devRef .tc main_arg6) = V (Proc.devRef .tc main_arg6) := by
  rw [StableHlo.after_append (opsPre (F := Ideal)) _ V, post_arg6, pre_arg6]

/-- The prenet does not write argument 7. -/
theorem pre_arg7 (V : Valuation τ sig (Elt Ideal)) :
    after (opsPre (F := Ideal)) V (Proc.devRef .tc main_arg7) = V (Proc.devRef .tc main_arg7) := by
  simp only [opsPre, opsPre0, opsPre1, opsPre2, opsPre3, opsPre4, opsPre5, opsPre6, opsPre7, opsPre8, StableHlo.after_append]
  after_results_simp

/-- Nothing after the prenet writes argument 7. -/
theorem post_arg7 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg7) = V (Proc.devRef .tc main_arg7) := by
  simp only [opsDec, opsInit, opsL0, opsL1, opsL2, opsL3, opsL4, opsL5, opsL6, opsL7, opsL8, opsL9, opsFin, StableHlo.after_append]
  after_results_simp

/-- No operation of the run writes argument 7. -/
theorem ops_arg7 (V : Valuation τ sig (Elt Ideal)) :
    after (ops (F := Ideal)) V (Proc.devRef .tc main_arg7) = V (Proc.devRef .tc main_arg7) := by
  rw [StableHlo.after_append (opsPre (F := Ideal)) _ V, post_arg7, pre_arg7]

/-- The prenet does not write argument 8. -/
theorem pre_arg8 (V : Valuation τ sig (Elt Ideal)) :
    after (opsPre (F := Ideal)) V (Proc.devRef .tc main_arg8) = V (Proc.devRef .tc main_arg8) := by
  simp only [opsPre, opsPre0, opsPre1, opsPre2, opsPre3, opsPre4, opsPre5, opsPre6, opsPre7, opsPre8, StableHlo.after_append]
  after_results_simp

/-- Nothing after the prenet writes argument 8. -/
theorem post_arg8 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg8) = V (Proc.devRef .tc main_arg8) := by
  simp only [opsDec, opsInit, opsL0, opsL1, opsL2, opsL3, opsL4, opsL5, opsL6, opsL7, opsL8, opsL9, opsFin, StableHlo.after_append]
  after_results_simp

/-- No operation of the run writes argument 8. -/
theorem ops_arg8 (V : Valuation τ sig (Elt Ideal)) :
    after (ops (F := Ideal)) V (Proc.devRef .tc main_arg8) = V (Proc.devRef .tc main_arg8) := by
  rw [StableHlo.after_append (opsPre (F := Ideal)) _ V, post_arg8, pre_arg8]

/-- The prenet does not write argument 9. -/
theorem pre_arg9 (V : Valuation τ sig (Elt Ideal)) :
    after (opsPre (F := Ideal)) V (Proc.devRef .tc main_arg9) = V (Proc.devRef .tc main_arg9) := by
  simp only [opsPre, opsPre0, opsPre1, opsPre2, opsPre3, opsPre4, opsPre5, opsPre6, opsPre7, opsPre8, StableHlo.after_append]
  after_results_simp

/-- Nothing after the prenet writes argument 9. -/
theorem post_arg9 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg9) = V (Proc.devRef .tc main_arg9) := by
  simp only [opsDec, opsInit, opsL0, opsL1, opsL2, opsL3, opsL4, opsL5, opsL6, opsL7, opsL8, opsL9, opsFin, StableHlo.after_append]
  after_results_simp

/-- No operation of the run writes argument 9. -/
theorem ops_arg9 (V : Valuation τ sig (Elt Ideal)) :
    after (ops (F := Ideal)) V (Proc.devRef .tc main_arg9) = V (Proc.devRef .tc main_arg9) := by
  rw [StableHlo.after_append (opsPre (F := Ideal)) _ V, post_arg9, pre_arg9]

/-- The prenet does not write argument 10. -/
theorem pre_arg10 (V : Valuation τ sig (Elt Ideal)) :
    after (opsPre (F := Ideal)) V (Proc.devRef .tc main_arg10) = V (Proc.devRef .tc main_arg10) := by
  simp only [opsPre, opsPre0, opsPre1, opsPre2, opsPre3, opsPre4, opsPre5, opsPre6, opsPre7, opsPre8, StableHlo.after_append]
  after_results_simp

/-- Nothing after the prenet writes argument 10. -/
theorem post_arg10 (V : Valuation τ sig (Elt Ideal)) :
    after (opsDec ++ (opsInit ++ (opsL0 ++ (opsL1 ++ (opsL2 ++ (opsL3 ++ (opsL4 ++ (opsL5 ++ (opsL6 ++ (opsL7 ++ (opsL8 ++ (opsL9 ++ opsFin))))))))))) : List (HloOp τ sig (Elt Ideal))) V (Proc.devRef .tc main_arg10) = V (Proc.devRef .tc main_arg10) := by
  simp only [opsDec, opsInit, opsL0, opsL1, opsL2, opsL3, opsL4, opsL5, opsL6, opsL7, opsL8, opsL9, opsFin, StableHlo.after_append]
  after_results_simp

/-- No operation of the run writes argument 10. -/
theorem ops_arg10 (V : Valuation τ sig (Elt Ideal)) :
    after (ops (F := Ideal)) V (Proc.devRef .tc main_arg10) = V (Proc.devRef .tc main_arg10) := by
  rw [StableHlo.after_append (opsPre (F := Ideal)) _ V, post_arg10, pre_arg10]

/-- The result buffer after the run is the routing array of the prenet's output, the node weights and the node biases. -/
theorem result_eq (V : Valuation τ sig (Elt Ideal)) :
    after (ops (F := Ideal)) V (Proc.devRef .tc main_v147)
      = G (after (opsPre (F := Ideal)) V (Proc.devRef .tc main_v49)) (V (Proc.devRef .tc main_arg9)) (V (Proc.devRef .tc main_arg10)) := by
  -- the prenet first, then everything after it from the valuation the prenet leaves
  rw [StableHlo.after_append (opsPre (F := Ideal)) _ V, from_dec, pre_arg9 V, pre_arg10 V]

/-- No operation writes an argument. -/
theorem args_eq (V : Valuation τ sig (Elt Ideal)) :
    after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3)
    ∧ after (ops (F := Ideal)) V (Proc.devRef .tc main_arg4) = V (Proc.devRef .tc main_arg4)
    ∧ after (ops (F := Ideal)) V (Proc.devRef .tc main_arg5) = V (Proc.devRef .tc main_arg5)
    ∧ after (ops (F := Ideal)) V (Proc.devRef .tc main_arg6) = V (Proc.devRef .tc main_arg6)
    ∧ after (ops (F := Ideal)) V (Proc.devRef .tc main_arg7) = V (Proc.devRef .tc main_arg7)
    ∧ after (ops (F := Ideal)) V (Proc.devRef .tc main_arg8) = V (Proc.devRef .tc main_arg8)
    ∧ after (ops (F := Ideal)) V (Proc.devRef .tc main_arg9) = V (Proc.devRef .tc main_arg9)
    ∧ after (ops (F := Ideal)) V (Proc.devRef .tc main_arg10) = V (Proc.devRef .tc main_arg10) := by
  exact ⟨ops_arg0 V, ops_arg1 V, ops_arg2 V, ops_arg3 V, ops_arg4 V, ops_arg5 V, ops_arg6 V, ops_arg7 V, ops_arg8 V,
    ops_arg9 V, ops_arg10 V⟩

end Cert.ReferenceIdeal.Run

end
-- ==== Proof.Prenet.lean ====
/-
  The two programs share their prenet.

  Both programs begin with the same sixty statements: two linear layers, each followed by a leaky rectifier and a
  batch normalisation over the 32768 rows. The same operations applied to the same arguments give the same array:
  the prenet's output is one function of the nine argument arrays it reads, whichever program computes it. Nothing of
  that function is opened; only that it is the same term on both sides.
  The kernel's program also reshapes the node weights `[1024, 1, 1]` and the node biases `[1024, 1]` into rows
  `[1, 1024]` (two reshapes each): entry `(0, n)` of a row is the array's entry at node `n`.
-/
import proofs.«132556_j49718541418874_1_alg».proof.Proof.RefOps
import proofs.«132556_j49718541418874_1_alg».proof.Proof.Gen.KernelIdeal.Frame.Runs
import Idealize.ShloMosaic.Lib.ValueIdx
import Idealize.ShloMosaic.Lib.Pipeline.Value

noncomputable section

namespace Cert.Proof.Prenet

open Idealize.ShloMosaic Idealize.ShloMosaic.TcCoe Idealize.SL.Sem Idealize.ShloMosaic.ValueIdx

variable {F : FTy → Type} [FloatOps F]

attribute [local irreducible] Host.reduceAdd Host.rsqrt Host.divf in
set_option maxHeartbeats 8000000 in
set_option maxRecDepth 8192 in
/-- From memories that agree on the nine arguments the prenet reads, the kernel's program (its host operations before the
    region) and the reference's (its first stretch) leave the same prenet output. -/
theorem xpost_agree
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    StableHlo.after (Cert.ReferenceIdeal.Run.opsPre (F := F)) (StableHlo.launchContents m' c) (Proc.devRef .tc Cert.ReferenceIdeal.main_v49)
      = Cert.KernelIdeal.Gen.V m c Cert.KernelIdeal.main_v49 := by
  -- both sides as one literal line of operations
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps0_8, List.flatten_cons, List.flatten_nil, List.append_nil, List.cons_append, List.nil_append,
    Cert.ReferenceIdeal.Run.opsPre, Cert.ReferenceIdeal.Run.opsPre0, Cert.ReferenceIdeal.Run.opsPre1, Cert.ReferenceIdeal.Run.opsPre2,
    Cert.ReferenceIdeal.Run.opsPre3, Cert.ReferenceIdeal.Run.opsPre4, Cert.ReferenceIdeal.Run.opsPre5, Cert.ReferenceIdeal.Run.opsPre6,
    Cert.ReferenceIdeal.Run.opsPre7, Cert.ReferenceIdeal.Run.opsPre8]
  -- each side's fold at the output buffer is the composed term of the operations over the launch contents of the arguments
  after_results_simp
  -- the two memories agree on the nine arguments
  have e0 : StableHlo.launchContents m' c (Proc.devRef .tc Cert.ReferenceIdeal.main_arg0) = m (c, Proc.devRef .tc Cert.KernelIdeal.main_arg0) := h0
  have e1 : StableHlo.launchContents m' c (Proc.devRef .tc Cert.ReferenceIdeal.main_arg1) = m (c, Proc.devRef .tc Cert.KernelIdeal.main_arg1) := h1
  have e2 : StableHlo.launchContents m' c (Proc.devRef .tc Cert.ReferenceIdeal.main_arg2) = m (c, Proc.devRef .tc Cert.KernelIdeal.main_arg2) := h2
  have e3 : StableHlo.launchContents m' c (Proc.devRef .tc Cert.ReferenceIdeal.main_arg3) = m (c, Proc.devRef .tc Cert.KernelIdeal.main_arg3) := h3
  have e4 : StableHlo.launchContents m' c (Proc.devRef .tc Cert.ReferenceIdeal.main_arg4) = m (c, Proc.devRef .tc Cert.KernelIdeal.main_arg4) := h4
  have e5 : StableHlo.launchContents m' c (Proc.devRef .tc Cert.ReferenceIdeal.main_arg5) = m (c, Proc.devRef .tc Cert.KernelIdeal.main_arg5) := h5
  have e6 : StableHlo.launchContents m' c (Proc.devRef .tc Cert.ReferenceIdeal.main_arg6) = m (c, Proc.devRef .tc Cert.KernelIdeal.main_arg6) := h6
  have e7 : StableHlo.launchContents m' c (Proc.devRef .tc Cert.ReferenceIdeal.main_arg7) = m (c, Proc.devRef .tc Cert.KernelIdeal.main_arg7) := h7
  have e8 : StableHlo.launchContents m' c (Proc.devRef .tc Cert.ReferenceIdeal.main_arg8) = m (c, Proc.devRef .tc Cert.KernelIdeal.main_arg8) := h8
  rw [e0, e1, e2, e3, e4, e5, e6, e7, e8]
  -- the same operations applied to the same arguments: one term, compared by structure (the sums over the rows,
  -- the divisions and the reciprocal square roots are never opened)
  rfl

/-- The weights' row the kernel's region finds: entry `(0, n)` is the weight of node `n`. -/
theorem V_weights (m : (ℓ : Loc Cert.KernelIdeal.nD Cert.KernelIdeal.τ Cert.KernelIdeal.sig) → Buf (Elt F) ℓ)
    (c : Dev Cert.KernelIdeal.nD) (n : Fin 1024) :
    Cert.KernelIdeal.Gen.V m c Cert.KernelIdeal.main_v52 (ix2 0 n)
      = m ((c.tc : Thread Cert.KernelIdeal.nD Cert.KernelIdeal.τ).loc Cert.KernelIdeal.main_arg9) (ix3 n 0 0) := by
  -- the row is the weights reshaped twice, whatever the operations before wrote elsewhere
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps0_8, List.flatten_cons, List.flatten_nil, List.append_nil, List.cons_append, List.nil_append]
  after_results_simp
  -- (0, n) of [1, 1024], n of [1024] and (n, 0, 0) of [1024, 1, 1] are all row-major position n
  refine (shapeCast_apply _ _ (ix2 0 n) (ix1 n) ?_).trans ((shapeCast_apply _ _ (ix1 n) (ix3 n 0 0) ?_).trans rfl)
  · rw [Shape.rowMajor_val_one, Shape.rowMajor_val_two]
    show n.val = 0 * 1024 + n.val
    omega
  · rw [Shape.rowMajor_val_three, Shape.rowMajor_val_one]
    show (n.val * 1 + 0) * 1 + 0 = n.val
    omega

/-- The biases' row the kernel's region finds: entry `(0, n)` is the bias of node `n`. -/
theorem V_biases (m : (ℓ : Loc Cert.KernelIdeal.nD Cert.KernelIdeal.τ Cert.KernelIdeal.sig) → Buf (Elt F) ℓ)
    (c : Dev Cert.KernelIdeal.nD) (n : Fin 1024) :
    Cert.KernelIdeal.Gen.V m c Cert.KernelIdeal.main_v53 (ix2 0 n)
      = m ((c.tc : Thread Cert.KernelIdeal.nD Cert.KernelIdeal.τ).loc Cert.KernelIdeal.main_arg10) (ix2 n 0) := by
  -- the row is the biases reshaped twice
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps0_8, List.flatten_cons, List.flatten_nil, List.append_nil, List.cons_append, List.nil_append]
  after_results_simp
  -- (0, n) of [1, 1024], n of [1024] and (n, 0) of [1024, 1] are all row-major position n
  refine (shapeCast_apply _ _ (ix2 0 n) (ix1 n) ?_).trans ((shapeCast_apply _ _ (ix1 n) (ix2 n 0) ?_).trans rfl)
  · rw [Shape.rowMajor_val_one, Shape.rowMajor_val_two]
    show n.val = 0 * 1024 + n.val
    omega
  · rw [Shape.rowMajor_val_two, Shape.rowMajor_val_one]
    show n.val * 1 + 0 = n.val
    omega

end Cert.Proof.Prenet

end
-- ==== Proof.lean ====
/-
  The certificate: a binary routing tree computed by one kernel launch per tile of rows against the reference's
  level-by-level array program.

  Both programs first run the same prenet (two linear layers, each with a leaky rectifier and a batch normalisation
  over the 32768 rows) and then route: node `n` of a complete binary tree of depth ten, laid out by heap index, decides
  for a row by the logistic function of `x · w n + b n`, `x` the row's prenet output; the root holds mass one, a left
  child takes the share `σ` of its parent's mass and a right child `1 - σ`; position 0 holds zero. The result is the
  `[32768, 2048]` array of these masses (TreeSpec.lean: `G`).

  The kernel computes it one tile of 512 rows per grid point, all ten levels inside the body, each level reading the
  parents' band back out of the block it is filling (KernelBlock.lean, KernelValue.lean). The reference keeps a growing
  array of positions and appends a level at a time, the logistic function spelled as `1 / (1 + exp (-z))`, which on the
  extended reals is the logistic function itself, and the decisions' contraction over an axis of extent one, a sum of
  one term (HostDecision.lean, HostStep.lean, RefValue.lean). The prenet is shared letter for letter and is never
  opened (Prenet.lean). No step needs the values to be finite: the two programs multiply the same factors in the same
  order, so the precondition is not used.

  The two frames of the kernel's programs are the generated frame certificates with one theorem, that a grid point's
  twelve stores cover its block, proved by hand (CoverStep.lean); the reference's frame is its run with the result
  dropped; nothing was rewritten by the ideal pass, so there is nothing to preserve.
-/
import proofs.«132556_j49718541418874_1_alg».proof.Defs
import proofs.«132556_j49718541418874_1_alg».proof.Proof.KernelFrameP
import proofs.«132556_j49718541418874_1_alg».proof.Proof.KernelValue
import proofs.«132556_j49718541418874_1_alg».proof.Proof.RefValue
import proofs.«132556_j49718541418874_1_alg».proof.Proof.Prenet
import proofs.«132556_j49718541418874_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_p : Cert.frame_Kernel := fun m ρ _ => Cert.Kernel.GenP.frame m ρ

/-- So does its reading over the extended reals. -/
theorem frame_pi : Cert.frame_KernelIdeal := fun m ρ _ => Cert.KernelIdeal.GenP.frame m ρ

/-- The reference's run: its result ends at the routing array of its own prenet output, its arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v147)
        = Cert.Tree.G (StableHlo.after (Cert.ReferenceIdeal.Run.opsPre (F := Ideal)) (StableHlo.launchContents m' c) (Proc.devRef .tc Cert.ReferenceIdeal.main_v49))
            (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10) :=
  (θ_run (Cert.ReferenceIdeal.defs (F := Ideal)) _ _).mono (fun r h c =>
    have ha := Cert.ReferenceIdeal.Run.args_eq (StableHlo.launchContents m' c)
    ⟨(h c Cert.ReferenceIdeal.main_v147).trans (Cert.ReferenceIdeal.Run.result_eq (StableHlo.launchContents m' c)),
      (h c Cert.ReferenceIdeal.main_arg0).trans ha.1,
      (h c Cert.ReferenceIdeal.main_arg1).trans ha.2.1,
      (h c Cert.ReferenceIdeal.main_arg2).trans ha.2.2.1,
      (h c Cert.ReferenceIdeal.main_arg3).trans ha.2.2.2.1,
      (h c Cert.ReferenceIdeal.main_arg4).trans ha.2.2.2.2.1,
      (h c Cert.ReferenceIdeal.main_arg5).trans ha.2.2.2.2.2.1,
      (h c Cert.ReferenceIdeal.main_arg6).trans ha.2.2.2.2.2.2.1,
      (h c Cert.ReferenceIdeal.main_arg7).trans ha.2.2.2.2.2.2.2.1,
      (h c Cert.ReferenceIdeal.main_arg8).trans ha.2.2.2.2.2.2.2.2.1,
      (h c Cert.ReferenceIdeal.main_arg9).trans ha.2.2.2.2.2.2.2.2.2.1,
      (h c Cert.ReferenceIdeal.main_arg10).trans ha.2.2.2.2.2.2.2.2.2.2⟩)
    (Cert.ReferenceIdeal.Run.run_main m' ρ')

/-- The reference runs and leaves its arguments alone: its run with the result dropped. -/
theorem frame_ri : Cert.frame_ReferenceIdeal := fun m ρ _ =>
  (θ_run (Cert.ReferenceIdeal.defs (F := Ideal)) _ _).mono (fun _ h c => (h c).2) (ref_run m ρ)

/-- The ideal pass rewrote nothing. -/
theorem preserves : Cert.preserves_Kernel_KernelIdeal := trivial

/-- The kernel's array, stated over the rows of weights and biases its windows hold, is the routing array over the
    weights' and biases' own arrays: the rows hold the arrays' numbers. -/
theorem rows_eq_G (m : (ℓ : Loc Cert.KernelIdeal.nD Cert.KernelIdeal.τ Cert.KernelIdeal.sig) → Buf (Elt Ideal) ℓ) (c : Dev Cert.KernelIdeal.nD) :
    Cert.KernelIdeal.Array.rows (Cert.KernelIdeal.Array.xarr m c) (Cert.KernelIdeal.Array.warr m c) (Cert.KernelIdeal.Array.barr m c)
      = Cert.Tree.G (Cert.KernelIdeal.Gen.V m c Cert.KernelIdeal.main_v49) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  funext i
  unfold Cert.KernelIdeal.Array.rows Cert.Tree.G
  rw [Cert.Tree.sigmaRow_eq_sigma _ _ _ _ _ (fun n => Cert.Proof.Prenet.V_weights m c n) (fun n => Cert.Proof.Prenet.V_biases m c n)]

/-- Run from memories that agree on the arguments, the two programs end with the same array: the routing array of the
    prenet's output, which is the same on both sides. -/
theorem algebraic : Cert.algebraic_KernelIdeal_ReferenceIdeal := by
  intro m ρ m' ρ' _ hagree
  refine ⟨fun c => Cert.Tree.G (Cert.KernelIdeal.Gen.V m c Cert.KernelIdeal.main_v49) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono (fun r h c => ⟨(h c).1.trans (rows_eq_G m c), (h c).2⟩)
      (Cert.KernelIdeal.Array.run m ρ)
  · refine (θ_run (Cert.ReferenceIdeal.defs (F := Ideal)) _ _).mono (fun r h c => ⟨(h c).1.trans ?_, (h c).2⟩) (ref_run m' ρ')
    obtain ⟨h0, h1, h2, h3, h4, h5, h6, h7, h8, h9, h10⟩ := hagree c
    rw [Cert.Proof.Prenet.xpost_agree m m' c h0 h1 h2 h3 h4 h5 h6 h7 h8, h9, h10]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
